-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000 : Shape := ⟨1, ![400000]⟩
abbrev S2000000 : Shape := ⟨1, ![2000000]⟩
abbrev S7x6 : Shape := ⟨2, ![7, 6]⟩
abbrev S_ : Shape := ⟨0, ![]⟩

class Facts : Prop where
  bcast_S_S400000 : S_.BroadcastsInDim S400000 (![] : Fin 0 → Fin S400000.rank)
  reducesTo_S400000_S_d0 : S400000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S7x6 : S_.BroadcastsInDim S7x6 (![] : Fin 0 → Fin S7x6.rank)
  reducesTo_S7x6_S_d0_1 : S7x6.ReducesTo [0, 1] S_

variable [Facts]

def fn_part1 {F : FTy → Type} [FloatOps F] (main_arg4 : IVec S2000000 32) (main_v13 : IVec S_ 1) (main_v16 : IVec S7x6 1) : IVec S_ 1 :=
  let main_c_5 : IVec S_ 1 := constantI S_ 1 1#1
  let main_v17 : IVec S_ 1 := (fun x v => Host.reduce IntOp.andi x v reducesTo_S7x6_S_d0_1 h_S_) main_v16 main_c_5
  let main_v18 : IVec S_ 1 := andi main_v13 main_v17
  let main_c_6 : IVec S_ 32 := constantI S_ 32 4294567296#32
  let main_v19 : IVec S2000000 32 := broadcastInDim S2000000 ![] bcast_S_S2000000 main_c_6
  let main_v20 : IVec S2000000 1 := cmpi .sge main_arg4 main_v19
  let main_c_7 : IVec S_ 32 := constantI S_ 32 400000#32
  let main_v21 : IVec S2000000 32 := broadcastInDim S2000000 ![] bcast_S_S2000000 main_c_7
  let main_v22 : IVec S2000000 1 := cmpi .slt main_arg4 main_v21
  let main_v23 : IVec S2000000 1 := andi main_v20 main_v22
  let main_c_8 : IVec S_ 1 := constantI S_ 1 1#1
  let main_v24 : IVec S_ 1 := (fun x v => Host.reduce IntOp.andi x v reducesTo_S2000000_S_d0 h_S_) main_v23 main_c_8
  let main_v25 : IVec S_ 1 := andi main_v18 main_v24
  main_v25

def fn {F : FTy → Type} [FloatOps F] (main_arg0 : FVec F S400000 .f32) (main_arg1 : FVec F S2000000 .f32) (main_arg2 : FVec F S7x6 .f32) (main_arg3 : FVec F S7x6 .f32) (main_arg4 : IVec S2000000 32) : IVec S_ 1 :=
  let main_v0 : FVec F S400000 .f32 := Host.absf main_arg0
  let main_cst : FVec F S_ .f32 := constant S_ .f32 0x7F800000#32
  let main_v1 : FVec F S400000 .f32 := broadcastInDim S400000 ![] bcast_S_S400000 main_cst
  let main_v2 : IVec S400000 1 := cmpf .olt main_v0 main_v1
  let main_c : IVec S_ 1 := constantI S_ 1 1#1
  let main_v3 : IVec S_ 1 := (fun x v => Host.reduce IntOp.andi x v reducesTo_S400000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S7x6 .f32 := Host.absf main_arg2
  let main_cst_2 : FVec F S_ .f32 := constant S_ .f32 0x7F800000#32
  let main_v10 : FVec F S7x6 .f32 := broadcastInDim S7x6 ![] bcast_S_S7x6 main_cst_2
  let main_v11 : IVec S7x6 1 := cmpf .olt main_v9 main_v10
  let main_c_3 : IVec S_ 1 := constantI S_ 1 1#1
  let main_v12 : IVec S_ 1 := (fun x v => Host.reduce IntOp.andi x v reducesTo_S7x6_S_d0_1 h_S_) main_v11 main_c_3
  let main_v13 : IVec S_ 1 := andi main_v8 main_v12
  let main_v14 : FVec F S7x6 .f32 := Host.absf main_arg3
  let main_cst_4 : FVec F S_ .f32 := constant S_ .f32 0x7F800000#32
  let main_v15 : FVec F S7x6 .f32 := broadcastInDim S7x6 ![] bcast_S_S7x6 main_cst_4
  let main_v16 : IVec S7x6 1 := cmpf .olt main_v14 main_v15
  fn_part1 (F := F) main_arg4 main_v13 main_v16
-- ==== Kernel.lean ====
abbrev S400000 : Shape := ⟨1, ![400000]⟩
abbrev S2000000 : Shape := ⟨1, ![2000000]⟩
abbrev S7x6 : Shape := ⟨2, ![7, 6]⟩
abbrev S400000x1 : Shape := ⟨2, ![400000, 1]⟩
abbrev S400000x42 : Shape := ⟨2, ![400000, 42]⟩
abbrev S8000x1 : Shape := ⟨2, ![8000, 1]⟩
abbrev S8000x42 : Shape := ⟨2, ![8000, 42]⟩
abbrev S1000x1 : Shape := ⟨2, ![1000, 1]⟩
abbrev S1x6 : Shape := ⟨2, ![1, 6]⟩
abbrev S1000x6 : Shape := ⟨2, ![1000, 6]⟩
abbrev S1000x42 : Shape := ⟨2, ![1000, 42]⟩
abbrev S2000000x1 : Shape := ⟨2, ![2000000, 1]⟩
abbrev S2000000x7 : Shape := ⟨2, ![2000000, 7]⟩
abbrev S8000x7 : Shape := ⟨2, ![8000, 7]⟩
abbrev S1000x7 : Shape := ⟨2, ![1000, 7]⟩
abbrev S_ : Shape := ⟨0, ![]⟩
abbrev S1 : Shape := ⟨1, ![1]⟩
abbrev S1x1 : Shape := ⟨2, ![1, 1]⟩
abbrev S2000000x42 : Shape := ⟨2, ![2000000, 42]⟩
abbrev S2000000x7x6 : Shape := ⟨3, ![2000000, 7, 6]⟩
abbrev S2000000x7x1 : Shape := ⟨3, ![2000000, 7, 1]⟩

abbrev nBuf : Space → Nat
  | .hbm => 37
  | .vmem => 10
  | .smem => 0
  | _ => 0

abbrev bufTy : (tb : Table) → Fin (tcTables nBuf tb) → BufTy
  | .hbm, ⟨0, _⟩ => ⟨S400000, .f32⟩
  | .hbm, ⟨1, _⟩ => ⟨S2000000, .f32⟩
  | .hbm, ⟨2, _⟩ => ⟨S7x6, .f32⟩
  | .hbm, ⟨3, _⟩ => ⟨S7x6, .f32⟩
  | .hbm, ⟨4, _⟩ => ⟨S2000000, .i32⟩
  | .hbm, ⟨5, _⟩ => ⟨S400000x1, .f32⟩
  | .hbm, ⟨6, _⟩ => ⟨S400000x42, .f32⟩
  | .hbm, ⟨7, _⟩ => ⟨S2000000x1, .f32⟩
  | .hbm, ⟨8, _⟩ => ⟨S2000000x7, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S1, .i32⟩
  | .hbm, ⟨18, _⟩ => ⟨S_, .i32⟩
  | .hbm, ⟨19, _⟩ => ⟨S2000000x1, .i32⟩
  | .hbm, ⟨20, _⟩ => ⟨S2000000x1, .i1⟩
  | .hbm, ⟨21, _⟩ => ⟨S1x1, .i32⟩
  | .hbm, ⟨22, _⟩ => ⟨S2000000x1, .i32⟩
  | .hbm, ⟨23, _⟩ => ⟨S2000000x1, .i1⟩
  | .hbm, ⟨24, _⟩ => ⟨S2000000x1, .i1⟩
  | .hbm, ⟨25, _⟩ => ⟨S_, .i1⟩
  | .hbm, ⟨26, _⟩ => ⟨S2000000, .i1⟩
  | .hbm, ⟨27, _⟩ => ⟨S2000000x42, .f32⟩
  | .hbm, ⟨28, _⟩ => ⟨S2000000x42, .i1⟩
  | .hbm, ⟨29, _⟩ => ⟨S_, .f32⟩
  | .hbm, ⟨30, _⟩ => ⟨S2000000x42, .f32⟩
  | .hbm, ⟨31, _⟩ => ⟨S2000000x42, .f32⟩
  | .hbm, ⟨32, _⟩ => ⟨S2000000x7x6, .f32⟩
  | .hbm, ⟨33, _⟩ => ⟨S2000000x7x1, .f32⟩
  | .hbm, ⟨34, _⟩ => ⟨S2000000x7x6, .f32⟩
  | .hbm, ⟨35, _⟩ => ⟨S2000000x7x6, .f32⟩
  | .hbm, ⟨36, _⟩ => ⟨S2000000x42, .f32⟩
  | .local _ .vmem, ⟨0, _⟩ => ⟨S8000x1, .f32⟩
  | .local _ .vmem, ⟨1, _⟩ => ⟨S8000x1, .f32⟩
  | .local _ .vmem, ⟨2, _⟩ => ⟨S7x6, .f32⟩
  | .local _ .vmem, ⟨3, _⟩ => ⟨S7x6, .f32⟩
  | .local _ .vmem, ⟨4, _⟩ => ⟨S8000x42, .f32⟩
  | .local _ .vmem, ⟨5, _⟩ => ⟨S8000x42, .f32⟩
  | .local _ .vmem, ⟨6, _⟩ => ⟨S8000x1, .f32⟩
  | .local _ .vmem, ⟨7, _⟩ => ⟨S8000x1, .f32⟩
  | .local _ .vmem, ⟨8, _⟩ => ⟨S8000x7, .f32⟩
  | .local _ .vmem, ⟨9, _⟩ => ⟨S8000x7, .f32⟩
  | _, _ => ⟨S400000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![50], ![false]⟩

def k0_mult1 : BitVec 32 :=
  let c0_i32 : BitVec 32 := 0#32
  let c1000_i32 : BitVec 32 := 1000#32
  let v0 : BitVec 32 := Scalar.muli c0_i32 c1000_i32
  v0
def k0_off1 (c0_i32 : BitVec 32) : Fin 2 → Nat :=
  let c1000_i32 : BitVec 32 := 1000#32
  let v0 : BitVec 32 := Scalar.muli c0_i32 c1000_i32
  let v1 : BitVec 32 := v0
  let v2 : Index := Scalar.indexCast v1
  let c0 : Index := 0#32
  ![v2.toNat, 0]
def k0_off2 (c0_i32 : BitVec 32) : Fin 2 → Nat :=
  let c1000_i32 : BitVec 32 := 1000#32
  let v0 : BitVec 32 := Scalar.muli c0_i32 c1000_i32
  let v1 : BitVec 32 := v0
  let v196 : Index := Scalar.indexCast v1
  let c0_41 : Index := 0#32
  ![v196.toNat, 0]
def k0_mult2 : BitVec 32 :=
  let c1_i32 : BitVec 32 := 1#32
  let c1000_i32_42 : BitVec 32 := 1000#32
  let v198 : BitVec 32 := Scalar.muli c1_i32 c1000_i32_42
  v198
def k0_mult3 : BitVec 32 :=
  let c2_i32 : BitVec 32 := 2#32
  let c1000_i32_93 : BitVec 32 := 1000#32
  let v396 : BitVec 32 := Scalar.muli c2_i32 c1000_i32_93
  v396
def k0_mult4 : BitVec 32 :=
  let c3_i32 : BitVec 32 := 3#32
  let c1000_i32_144 : BitVec 32 := 1000#32
  let v594 : BitVec 32 := Scalar.muli c3_i32 c1000_i32_144
  v594
def k0_mult5 : BitVec 32 :=
  let c4_i32 : BitVec 32 := 4#32
  let c1000_i32_195 : BitVec 32 := 1000#32
  let v792 : BitVec 32 := Scalar.muli c4_i32 c1000_i32_195
  v792
def k0_mult6 : BitVec 32 :=
  let c5_i32 : BitVec 32 := 5#32
  let c1000_i32_246 : BitVec 32 := 1000#32
  let v990 : BitVec 32 := Scalar.muli c5_i32 c1000_i32_246
  v990
def k0_mult7 : BitVec 32 :=
  let c6_i32 : BitVec 32 := 6#32
  let c1000_i32_297 : BitVec 32 := 1000#32
  let v1188 : BitVec 32 := Scalar.muli c6_i32 c1000_i32_297
  v1188
def k0_mult8 : BitVec 32 :=
  let c7_i32 : BitVec 32 := 7#32
  let c1000_i32_348 : BitVec 32 := 1000#32
  let v1386 : BitVec 32 := Scalar.muli c7_i32 c1000_i32_348
  v1386
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x42 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def k1_mult1 : BitVec 32 :=
  let c0_i32 : BitVec 32 := 0#32
  let c1000_i32 : BitVec 32 := 1000#32
  let v0 : BitVec 32 := Scalar.muli c0_i32 c1000_i32
  v0
def k1_off1 (c0_i32 : BitVec 32) : Fin 2 → Nat :=
  let c1000_i32 : BitVec 32 := 1000#32
  let v0 : BitVec 32 := Scalar.muli c0_i32 c1000_i32
  let v1 : BitVec 32 := v0
  let v2 : Index := Scalar.indexCast v1
  let c0 : Index := 0#32
  ![v2.toNat, 0]
def k1_off2 (c0_i32 : BitVec 32) : Fin 2 → Nat :=
  let c1000_i32 : BitVec 32 := 1000#32
  let v0 : BitVec 32 := Scalar.muli c0_i32 c1000_i32
  let v1 : BitVec 32 := v0
  let v62 : Index := Scalar.indexCast v1
  let c0_22 : Index := 0#32
  ![v62.toNat, 0]
def k1_mult2 : BitVec 32 :=
  let c1_i32 : BitVec 32 := 1#32
  let c1000_i32_23 : BitVec 32 := 1000#32
  let v64 : BitVec 32 := Scalar.muli c1_i32 c1000_i32_23
  v64
def k1_mult3 : BitVec 32 :=
  let c2_i32 : BitVec 32 := 2#32
  let c1000_i32_49 : BitVec 32 := 1000#32
  let v128 : BitVec 32 := Scalar.muli c2_i32 c1000_i32_49
  v128
def k1_mult4 : BitVec 32 :=
  let c3_i32 : BitVec 32 := 3#32
  let c1000_i32_75 : BitVec 32 := 1000#32
  let v192 : BitVec 32 := Scalar.muli c3_i32 c1000_i32_75
  v192
def k1_mult5 : BitVec 32 :=
  let c4_i32 : BitVec 32 := 4#32
  let c1000_i32_101 : BitVec 32 := 1000#32
  let v256 : BitVec 32 := Scalar.muli c4_i32 c1000_i32_101
  v256
def k1_mult6 : BitVec 32 :=
  let c5_i32 : BitVec 32 := 5#32
  let c1000_i32_127 : BitVec 32 := 1000#32
  let v320 : BitVec 32 := Scalar.muli c5_i32 c1000_i32_127
  v320
def k1_mult7 : BitVec 32 :=
  let c6_i32 : BitVec 32 := 6#32
  let c1000_i32_153 : BitVec 32 := 1000#32
  let v384 : BitVec 32 := Scalar.muli c6_i32 c1000_i32_153
  v384
def k1_mult8 : BitVec 32 :=
  let c7_i32 : BitVec 32 := 7#32
  let c1000_i32_179 : BitVec 32 := 1000#32
  let v448 : BitVec 32 := Scalar.muli c7_i32 c1000_i32_179
  v448
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S400000_S400000x1 : S400000.ShapeCasts S400000x1
  h_S1000x1 : 0 < S1000x1.numel
  shapeCasts_S1000x1_S1000x1 : S1000x1.ShapeCasts S1000x1
  inb_S7x6_S1x6_0_0 : ∀ a, (![0, 0] : Fin 2 → Nat) a + S1x6.size a ≤ S7x6.size a
  h_S1x6 : 0 < S1x6.numel
  broadcasts_S1x6_S1000x6 : S1x6.Broadcasts S1000x6
  broadcasts_S1000x1_S1000x6 : S1000x1.Broadcasts S1000x6
  inb_S7x6_S1x6_1_0 : ∀ a, (![1, 0] : Fin 2 → Nat) a + S1x6.size a ≤ S7x6.size a
  inb_S7x6_S1x6_2_0 : ∀ a, (![2, 0] : Fin 2 → Nat) a + S1x6.size a ≤ S7x6.size a
  inb_S7x6_S1x6_3_0 : ∀ a, (![3, 0] : Fin 2 → Nat) a + S1x6.size a ≤ S7x6.size a
  inb_S7x6_S1x6_4_0 : ∀ a, (![4, 0] : Fin 2 → Nat) a + S1x6.size a ≤ S7x6.size a
  inb_S7x6_S1x6_5_0 : ∀ a, (![5, 0] : Fin 2 → Nat) a + S1x6.size a ≤ S7x6.size a
  inb_S7x6_S1x6_6_0 : ∀ a, (![6, 0] : Fin 2 → Nat) a + S1x6.size a ≤ S7x6.size a
  concatenates_S1000x6_S1000x6_S1000x6_S1000x6_S1000x6_S1000x6_S1000x6_S1000x42_d1 : Shape.Concatenates [S1000x6, S1000x6, S1000x6, S1000x6, S1000x6, S1000x6, S1000x6] S1000x42 1
  h_S1000x42 : 0 < S1000x42.numel
  shapeCasts_S2000000_S2000000x1 : S2000000.ShapeCasts S2000000x1
  concatenates_S1000x1_S1000x1_S1000x1_S1000x1_S1000x1_S1000x1_S1000x1_S1000x7_d1 : Shape.Concatenates [S1000x1, S1000x1, S1000x1, S1000x1, S1000x1, S1000x1, S1000x1] S1000x7 1
  h_S1000x7 : 0 < S1000x7.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x42_0 : S2000000.BroadcastsInDim S2000000x42 (![0] : Fin 1 → Fin S2000000x42.rank)
  bcast_S_S2000000x42 : S_.BroadcastsInDim S2000000x42 (![] : Fin 0 → Fin S2000000x42.rank)
  shapeCasts_S2000000x42_S2000000x7x6 : S2000000x42.ShapeCasts S2000000x7x6
  bcast_S2000000x7_S2000000x7x1_0_1 : S2000000x7.BroadcastsInDim S2000000x7x1 (![0, 1] : Fin 2 → Fin S2000000x7x1.rank)
  bcast_S2000000x7x1_S2000000x7x6_0_1_2 : S2000000x7x1.BroadcastsInDim S2000000x7x6 (![0, 1, 2] : Fin 3 → Fin S2000000x7x6.rank)
  shapeCasts_S2000000x7x6_S2000000x42 : S2000000x7x6.ShapeCasts S2000000x42
  gather_S400000x42_S2000000x1_S2000000x42_1_0_n_n_0_1_142_wf : GatherDims.WF S400000x42 S2000000x1 S2000000x42 [1] [0] [] [0] [] 1 ![1, 42]
  hrank0 : 0 < grid0.rank
  k0_mult1_dvd : 1000 ∣ k0_mult1.toNat
  k0_off1_inb : ∀ (r : Fin 8), ∀ a, (k0_off1 (BitVec.ofNat 32 r.val)) a + S1000x1.size a ≤ S8000x1.size a
  k0_off2_inb : ∀ (r : Fin 8), ∀ a, (k0_off2 (BitVec.ofNat 32 r.val)) a + S1000x42.size a ≤ S8000x42.size a
  k0_mult2_dvd : 1000 ∣ k0_mult2.toNat
  k0_mult3_dvd : 1000 ∣ k0_mult3.toNat
  k0_mult4_dvd : 1000 ∣ k0_mult4.toNat
  k0_mult5_dvd : 1000 ∣ k0_mult5.toNat
  k0_mult6_dvd : 1000 ∣ k0_mult6.toNat
  k0_mult7_dvd : 1000 ∣ k0_mult7.toNat
  k0_mult8_dvd : 1000 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S400000x1.size a
  hwx0_0 : ∀ i : grid0.Coords, EltTy.bits .f32 = 32 ∨ (Rect.block (s := S400000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x6.size a ≤ S7x6.size a
  hwx0_1 : ∀ i : grid0.Coords, EltTy.bits .f32 = 32 ∨ (Rect.block (s := S7x6) S7x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x6.size a ≤ S7x6.size a
  hwx0_2 : ∀ i : grid0.Coords, EltTy.bits .f32 = 32 ∨ (Rect.block (s := S7x6) S7x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x42.size a ≤ S400000x42.size a
  hwx0_3 : ∀ i : grid0.Coords, EltTy.bits .f32 = 32 ∨ (Rect.block (s := S400000x42) S8000x42.size (cc0_transform_3 i) (hinb0_3 i)).WholeWords (EltTy.packing .f32)
  hrank1 : 0 < grid1.rank
  k1_mult1_dvd : 1000 ∣ k1_mult1.toNat
  k1_off1_inb : ∀ (r : Fin 8), ∀ a, (k1_off1 (BitVec.ofNat 32 r.val)) a + S1000x1.size a ≤ S8000x1.size a
  k1_off2_inb : ∀ (r : Fin 8), ∀ a, (k1_off2 (BitVec.ofNat 32 r.val)) a + S1000x7.size a ≤ S8000x7.size a
  k1_mult2_dvd : 1000 ∣ k1_mult2.toNat
  k1_mult3_dvd : 1000 ∣ k1_mult3.toNat
  k1_mult4_dvd : 1000 ∣ k1_mult4.toNat
  k1_mult5_dvd : 1000 ∣ k1_mult5.toNat
  k1_mult6_dvd : 1000 ∣ k1_mult6.toNat
  k1_mult7_dvd : 1000 ∣ k1_mult7.toNat
  k1_mult8_dvd : 1000 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S2000000x1.size a
  hwx1_0 : ∀ i : grid1.Coords, EltTy.bits .f32 = 32 ∨ (Rect.block (s := S2000000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x7.size a ≤ S2000000x7.size a
  hwx1_1 : ∀ i : grid1.Coords, EltTy.bits .f32 = 32 ∨ (Rect.block (s := S2000000x7) S8000x7.size (cc1_transform_1 i) (hinb1_1 i)).WholeWords (EltTy.packing .f32)

variable [Facts₀]

def gather_S400000x42_S2000000x1_S2000000x42_1_0_n_n_0_1_142 : GatherDims S400000x42 S2000000x1 S2000000x42 where
  offsetDims := [1]
  collapsedSliceDims := [0]
  operandBatchingDims := []
  startIndicesBatchingDims := []
  startIndexMap := [0]
  indexVectorDim := 1
  sliceSizes := ![1, 42]
  wf := gather_S400000x42_S2000000x1_S2000000x42_1_0_n_n_0_1_142_wf

abbrev win0_0 : Pipeline.Window sig grid0 :=
  Pipeline.Window.ofSpec (Memref.whole main_v0) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x42.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8000x7.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S400000 : Shape := ⟨1, ![400000]⟩
abbrev S2000000 : Shape := ⟨1, ![2000000]⟩
abbrev S7x6 : Shape := ⟨2, ![7, 6]⟩
abbrev S7 : Shape := ⟨1, ![7]⟩
abbrev S_ : Shape := ⟨0, ![]⟩
abbrev S1x6 : Shape := ⟨2, ![1, 6]⟩
abbrev S6 : Shape := ⟨1, ![6]⟩
abbrev S6x1 : Shape := ⟨2, ![6, 1]⟩
abbrev S1x400000 : Shape := ⟨2, ![1, 400000]⟩
abbrev S6x400000 : Shape := ⟨2, ![6, 400000]⟩
abbrev S42x400000 : Shape := ⟨2, ![42, 400000]⟩
abbrev S400000x42 : Shape := ⟨2, ![400000, 42]⟩
abbrev S400000x1 : Shape := ⟨2, ![400000, 1]⟩
abbrev S2000000x1 : Shape := ⟨2, ![2000000, 1]⟩
abbrev S2000000x7 : Shape := ⟨2, ![2000000, 7]⟩
abbrev S1x7 : Shape := ⟨2, ![1, 7]⟩
abbrev S2000000x42 : Shape := ⟨2, ![2000000, 42]⟩
abbrev S2000000x7x6 : Shape := ⟨3, ![2000000, 7, 6]⟩
abbrev S2000000x7x1 : Shape := ⟨3, ![2000000, 7, 1]⟩

abbrev nBuf : Space → Nat
  | .hbm => 326
  | .vmem => 0
  | .smem => 0
  | _ => 0

abbrev hbmTy0_0 (i : Nat) : BufTy := match i % 128 with
  | 0 => ⟨S400000, .f32⟩
  | 1 => ⟨S2000000, .f32⟩
  | 2 => ⟨S7x6, .f32⟩
  | 3 => ⟨S7x6, .f32⟩
  | 4 => ⟨S2000000, .i32⟩
  | 5 => ⟨S7, .f32⟩
  | 6 => ⟨S_, .f32⟩
  | 7 => ⟨S400000, .f32⟩
  | 8 => ⟨S400000, .f32⟩
  | 9 => ⟨S400000, .f32⟩
  | 10 => ⟨S400000, .f32⟩
  | 11 => ⟨S400000, .f32⟩
  | 12 => ⟨S400000, .f32⟩
  | 13 => ⟨S400000, .f32⟩
  | 14 => ⟨S_, .f32⟩
  | 15 => ⟨S400000, .f32⟩
  | 16 => ⟨S400000, .f32⟩
  | 17 => ⟨S_, .f32⟩
  | 18 => ⟨S400000, .f32⟩
  | 19 => ⟨S400000, .f32⟩
  | 20 => ⟨S400000, .f32⟩
  | 21 => ⟨S_, .f32⟩
  | 22 => ⟨S400000, .f32⟩
  | 23 => ⟨S400000, .f32⟩
  | 24 => ⟨S400000, .f32⟩
  | 25 => ⟨S_, .f32⟩
  | 26 => ⟨S400000, .f32⟩
  | 27 => ⟨S400000, .f32⟩
  | 28 => ⟨S400000, .f32⟩
  | 29 => ⟨S1x6, .f32⟩
  | 30 => ⟨S6, .f32⟩
  | 31 => ⟨S6x1, .f32⟩
  | 32 => ⟨S1x400000, .f32⟩
  | 33 => ⟨S6x400000, .f32⟩
  | 34 => ⟨S6x400000, .f32⟩
  | 35 => ⟨S6x400000, .f32⟩
  | 36 => ⟨S1x6, .f32⟩
  | 37 => ⟨S6, .f32⟩
  | 38 => ⟨S6x1, .f32⟩
  | 39 => ⟨S6x400000, .f32⟩
  | 40 => ⟨S6x400000, .f32⟩
  | 41 => ⟨S6x400000, .f32⟩
  | 42 => ⟨S6x400000, .f32⟩
  | 43 => ⟨S1x6, .f32⟩
  | 44 => ⟨S6, .f32⟩
  | 45 => ⟨S6x1, .f32⟩
  | 46 => ⟨S1x400000, .f32⟩
  | 47 => ⟨S6x400000, .f32⟩
  | 48 => ⟨S6x400000, .f32⟩
  | 49 => ⟨S6x400000, .f32⟩
  | 50 => ⟨S1x6, .f32⟩
  | 51 => ⟨S6, .f32⟩
  | 52 => ⟨S6x1, .f32⟩
  | 53 => ⟨S6x400000, .f32⟩
  | 54 => ⟨S6x400000, .f32⟩
  | 55 => ⟨S6x400000, .f32⟩
  | 56 => ⟨S6x400000, .f32⟩
  | 57 => ⟨S6x400000, .f32⟩
  | 58 => ⟨S6x400000, .f32⟩
  | 59 => ⟨S6x400000, .f32⟩
  | 60 => ⟨S6x400000, .f32⟩
  | 61 => ⟨S6x400000, .f32⟩
  | 62 => ⟨S6x400000, .f32⟩
  | 63 => ⟨S1x6, .f32⟩
  | 64 => ⟨S6, .f32⟩
  | 65 => ⟨S6x1, .f32⟩
  | 66 => ⟨S1x400000, .f32⟩
  | 67 => ⟨S6x400000, .f32⟩
  | 68 => ⟨S6x400000, .f32⟩
  | 69 => ⟨S6x400000, .f32⟩
  | 70 => ⟨S1x6, .f32⟩
  | 71 => ⟨S6, .f32⟩
  | 72 => ⟨S6x1, .f32⟩
  | 73 => ⟨S6x400000, .f32⟩
  | 74 => ⟨S6x400000, .f32⟩
  | 75 => ⟨S6x400000, .f32⟩
  | 76 => ⟨S6x400000, .f32⟩
  | 77 => ⟨S6x400000, .f32⟩
  | 78 => ⟨S6x400000, .f32⟩
  | 79 => ⟨S6x400000, .f32⟩
  | 80 => ⟨S6x400000, .f32⟩
  | 81 => ⟨S_, .f32⟩
  | 82 => ⟨S6x400000, .f32⟩
  | 83 => ⟨S6x400000, .f32⟩
  | 84 => ⟨S6x400000, .f32⟩
  | 85 => ⟨S6x400000, .f32⟩
  | 86 => ⟨S6x400000, .f32⟩
  | 87 => ⟨S6x400000, .f32⟩
  | 88 => ⟨S1x6, .f32⟩
  | 89 => ⟨S6, .f32⟩
  | 90 => ⟨S6x1, .f32⟩
  | 91 => ⟨S1x400000, .f32⟩
  | 92 => ⟨S6x400000, .f32⟩
  | 93 => ⟨S6x400000, .f32⟩
  | 94 => ⟨S6x400000, .f32⟩
  | 95 => ⟨S1x6, .f32⟩
  | 96 => ⟨S6, .f32⟩
  | 97 => ⟨S6x1, .f32⟩
  | 98 => ⟨S6x400000, .f32⟩
  | 99 => ⟨S6x400000, .f32⟩
  | 100 => ⟨S6x400000, .f32⟩
  | 101 => ⟨S6x400000, .f32⟩
  | 102 => ⟨S6x400000, .f32⟩
  | 103 => ⟨S6x400000, .f32⟩
  | 104 => ⟨S6x400000, .f32⟩
  | 105 => ⟨S6x400000, .f32⟩
  | 106 => ⟨S_, .f32⟩
  | 107 => ⟨S6x400000, .f32⟩
  | 108 => ⟨S6x400000, .f32⟩
  | 109 => ⟨S6x400000, .f32⟩
  | 110 => ⟨S6x400000, .f32⟩
  | 111 => ⟨S_, .f32⟩
  | 112 => ⟨S6x400000, .f32⟩
  | 113 => ⟨S6x400000, .f32⟩
  | 114 => ⟨S6x400000, .f32⟩
  | 115 => ⟨S6x400000, .f32⟩
  | 116 => ⟨S6x400000, .f32⟩
  | 117 => ⟨S6x400000, .f32⟩
  | 118 => ⟨S1x6, .f32⟩
  | 119 => ⟨S6, .f32⟩
  | 120 => ⟨S6x1, .f32⟩
  | 121 => ⟨S1x400000, .f32⟩
  | 122 => ⟨S6x400000, .f32⟩
  | 123 => ⟨S6x400000, .f32⟩
  | 124 => ⟨S6x400000, .f32⟩
  | 125 => ⟨S1x6, .f32⟩
  | 126 => ⟨S6, .f32⟩
  | 127 => ⟨S6x1, .f32⟩
  | _ => ⟨S400000, .f32⟩

abbrev hbmTy0_1 (i : Nat) : BufTy := match i % 128 with
  | 0 => ⟨S6x400000, .f32⟩
  | 1 => ⟨S6x400000, .f32⟩
  | 2 => ⟨S6x400000, .f32⟩
  | 3 => ⟨S6x400000, .f32⟩
  | 4 => ⟨S6x400000, .f32⟩
  | 5 => ⟨S6x400000, .f32⟩
  | 6 => ⟨S6x400000, .f32⟩
  | 7 => ⟨S6x400000, .f32⟩
  | 8 => ⟨S_, .f32⟩
  | 9 => ⟨S6x400000, .f32⟩
  | 10 => ⟨S6x400000, .f32⟩
  | 11 => ⟨S6x400000, .f32⟩
  | 12 => ⟨S6x400000, .f32⟩
  | 13 => ⟨S_, .f32⟩
  | 14 => ⟨S6x400000, .f32⟩
  | 15 => ⟨S6x400000, .f32⟩
  | 16 => ⟨S6x400000, .f32⟩
  | 17 => ⟨S6x400000, .f32⟩
  | 18 => ⟨S_, .f32⟩
  | 19 => ⟨S6x400000, .f32⟩
  | 20 => ⟨S6x400000, .f32⟩
  | 21 => ⟨S6x400000, .f32⟩
  | 22 => ⟨S6x400000, .f32⟩
  | 23 => ⟨S6x400000, .f32⟩
  | 24 => ⟨S6x400000, .f32⟩
  | 25 => ⟨S1x6, .f32⟩
  | 26 => ⟨S6, .f32⟩
  | 27 => ⟨S6x1, .f32⟩
  | 28 => ⟨S1x400000, .f32⟩
  | 29 => ⟨S6x400000, .f32⟩
  | 30 => ⟨S6x400000, .f32⟩
  | 31 => ⟨S6x400000, .f32⟩
  | 32 => ⟨S1x6, .f32⟩
  | 33 => ⟨S6, .f32⟩
  | 34 => ⟨S6x1, .f32⟩
  | 35 => ⟨S6x400000, .f32⟩
  | 36 => ⟨S6x400000, .f32⟩
  | 37 => ⟨S6x400000, .f32⟩
  | 38 => ⟨S6x400000, .f32⟩
  | 39 => ⟨S6x400000, .f32⟩
  | 40 => ⟨S6x400000, .f32⟩
  | 41 => ⟨S6x400000, .f32⟩
  | 42 => ⟨S6x400000, .f32⟩
  | 43 => ⟨S_, .f32⟩
  | 44 => ⟨S6x400000, .f32⟩
  | 45 => ⟨S6x400000, .f32⟩
  | 46 => ⟨S6x400000, .f32⟩
  | 47 => ⟨S6x400000, .f32⟩
  | 48 => ⟨S_, .f32⟩
  | 49 => ⟨S6x400000, .f32⟩
  | 50 => ⟨S6x400000, .f32⟩
  | 51 => ⟨S6x400000, .f32⟩
  | 52 => ⟨S6x400000, .f32⟩
  | 53 => ⟨S_, .f32⟩
  | 54 => ⟨S6x400000, .f32⟩
  | 55 => ⟨S6x400000, .f32⟩
  | 56 => ⟨S6x400000, .f32⟩
  | 57 => ⟨S6x400000, .f32⟩
  | 58 => ⟨S_, .f32⟩
  | 59 => ⟨S6x400000, .f32⟩
  | 60 => ⟨S6x400000, .f32⟩
  | 61 => ⟨S6x400000, .f32⟩
  | 62 => ⟨S6x400000, .f32⟩
  | 63 => ⟨S6x400000, .f32⟩
  | 64 => ⟨S6x400000, .f32⟩
  | 65 => ⟨S1x6, .f32⟩
  | 66 => ⟨S6, .f32⟩
  | 67 => ⟨S6x1, .f32⟩
  | 68 => ⟨S1x400000, .f32⟩
  | 69 => ⟨S6x400000, .f32⟩
  | 70 => ⟨S6x400000, .f32⟩
  | 71 => ⟨S6x400000, .f32⟩
  | 72 => ⟨S1x6, .f32⟩
  | 73 => ⟨S6, .f32⟩
  | 74 => ⟨S6x1, .f32⟩
  | 75 => ⟨S6x400000, .f32⟩
  | 76 => ⟨S6x400000, .f32⟩
  | 77 => ⟨S6x400000, .f32⟩
  | 78 => ⟨S6x400000, .f32⟩
  | 79 => ⟨S6x400000, .f32⟩
  | 80 => ⟨S6x400000, .f32⟩
  | 81 => ⟨S6x400000, .f32⟩
  | 82 => ⟨S6x400000, .f32⟩
  | 83 => ⟨S_, .f32⟩
  | 84 => ⟨S6x400000, .f32⟩
  | 85 => ⟨S6x400000, .f32⟩
  | 86 => ⟨S6x400000, .f32⟩
  | 87 => ⟨S6x400000, .f32⟩
  | 88 => ⟨S_, .f32⟩
  | 89 => ⟨S6x400000, .f32⟩
  | 90 => ⟨S6x400000, .f32⟩
  | 91 => ⟨S6x400000, .f32⟩
  | 92 => ⟨S6x400000, .f32⟩
  | 93 => ⟨S_, .f32⟩
  | 94 => ⟨S6x400000, .f32⟩
  | 95 => ⟨S6x400000, .f32⟩
  | 96 => ⟨S6x400000, .f32⟩
  | 97 => ⟨S6x400000, .f32⟩
  | 98 => ⟨S_, .f32⟩
  | 99 => ⟨S6x400000, .f32⟩
  | 100 => ⟨S6x400000, .f32⟩
  | 101 => ⟨S6x400000, .f32⟩
  | 102 => ⟨S6x400000, .f32⟩
  | 103 => ⟨S_, .f32⟩
  | 104 => ⟨S6x400000, .f32⟩
  | 105 => ⟨S6x400000, .f32⟩
  | 106 => ⟨S6x400000, .f32⟩
  | 107 => ⟨S6x400000, .f32⟩
  | 108 => ⟨S6x400000, .f32⟩
  | 109 => ⟨S6x400000, .f32⟩
  | 110 => ⟨S42x400000, .f32⟩
  | 111 => ⟨S400000x42, .f32⟩
  | 112 => ⟨S400000x1, .f32⟩
  | 113 => ⟨S400000x42, .f32⟩
  | 114 => ⟨S400000x42, .f32⟩
  | 115 => ⟨S2000000, .f32⟩
  | 116 => ⟨S_, .f32⟩
  | 117 => ⟨S2000000, .f32⟩
  | 118 => ⟨S_, .f32⟩
  | 119 => ⟨S2000000, .f32⟩
  | 120 => ⟨S2000000, .f32⟩
  | 121 => ⟨S2000000, .f32⟩
  | 122 => ⟨S_, .f32⟩
  | 123 => ⟨S2000000, .f32⟩
  | 124 => ⟨S2000000, .f32⟩
  | 125 => ⟨S2000000, .f32⟩
  | 126 => ⟨S_, .f32⟩
  | 127 => ⟨S2000000, .f32⟩
  | _ => ⟨S400000, .f32⟩

abbrev hbmTy0_2 (i : Nat) : BufTy := match i % 128 with
  | 0 => ⟨S2000000, .f32⟩
  | 1 => ⟨S_, .f32⟩
  | 2 => ⟨S2000000, .f32⟩
  | 3 => ⟨S2000000, .f32⟩
  | 4 => ⟨S2000000, .f32⟩
  | 5 => ⟨S_, .f32⟩
  | 6 => ⟨S2000000, .f32⟩
  | 7 => ⟨S2000000, .f32⟩
  | 8 => ⟨S2000000, .f32⟩
  | 9 => ⟨S_, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S2000000, .f32⟩
  | 31 => ⟨S_, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000x1, .f32⟩
  | 46 => ⟨S2000000x1, .f32⟩
  | 47 => ⟨S2000000x1, .f32⟩
  | 48 => ⟨S2000000x1, .f32⟩
  | 49 => ⟨S2000000x1, .f32⟩
  | 50 => ⟨S2000000x1, .f32⟩
  | 51 => ⟨S2000000x1, .f32⟩
  | 52 => ⟨S2000000x7, .f32⟩
  | 53 => ⟨S1x7, .f32⟩
  | 54 => ⟨S2000000x7, .f32⟩
  | 55 => ⟨S2000000x7, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x42, .f32⟩
  | 65 => ⟨S2000000x7x6, .f32⟩
  | 66 => ⟨S2000000x7x1, .f32⟩
  | 67 => ⟨S2000000x7x6, .f32⟩
  | 68 => ⟨S2000000x7x6, .f32⟩
  | 69 => ⟨S2000000x42, .f32⟩
  | _ => ⟨S400000, .f32⟩

abbrev hbmTy (i : Nat) : BufTy := match i / 128 with
  | 0 => hbmTy0_0 i
  | 1 => hbmTy0_1 i
  | 2 => hbmTy0_2 i
  | _ => ⟨S400000, .f32⟩

abbrev bufTy : (tb : Table) → Fin (tcTables nBuf tb) → BufTy
  | .hbm, ⟨i, _⟩ => hbmTy i
  | _, _ => ⟨S400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_6 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_7 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_cst_8 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_cst_9 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_cst_10 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_cst_11 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_cst_12 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_cst_13 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_cst_14 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_cst_15 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_cst_16 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_cst_17 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_cst_18 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_cst_19 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_cst_20 : Ref sig .tc := ⟨.hbm, 244, rfl⟩
abbrev main_v218 : Ref sig .tc := ⟨.hbm, 245, rfl⟩
abbrev main_cst_21 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_cst_22 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_cst_23 : Ref sig .tc := ⟨.hbm, 254, rfl⟩
abbrev main_v225 : Ref sig .tc := ⟨.hbm, 255, rfl⟩
abbrev main_v226 : Ref sig .tc := ⟨.hbm, 256, rfl⟩
abbrev main_cst_24 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_cst_25 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_cst_26 : Ref sig .tc := ⟨.hbm, 265, rfl⟩
abbrev main_v233 : Ref sig .tc := ⟨.hbm, 266, rfl⟩
abbrev main_v234 : Ref sig .tc := ⟨.hbm, 267, rfl⟩
abbrev main_cst_27 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_cst_28 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_cst_29 : Ref sig .tc := ⟨.hbm, 276, rfl⟩
abbrev main_v241 : Ref sig .tc := ⟨.hbm, 277, rfl⟩
abbrev main_v242 : Ref sig .tc := ⟨.hbm, 278, rfl⟩
abbrev main_cst_30 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_cst_31 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_cst_32 : Ref sig .tc := ⟨.hbm, 287, rfl⟩
abbrev main_v249 : Ref sig .tc := ⟨.hbm, 288, rfl⟩
abbrev main_v250 : Ref sig .tc := ⟨.hbm, 289, rfl⟩
abbrev main_cst_33 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_cst_34 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_cst_35 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_c : Ref sig .tc := ⟨.hbm, 312, rfl⟩
abbrev main_v270 : Ref sig .tc := ⟨.hbm, 313, rfl⟩
abbrev main_v271 : Ref sig .tc := ⟨.hbm, 314, rfl⟩
abbrev main_c_36 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  slices_S7x6_S1x6_0_0 : S7x6.Slices ![0, 0] S1x6
  shapeCasts_S1x6_S6 : S1x6.ShapeCasts S6
  bcast_S6_S6x1_0 : S6.BroadcastsInDim S6x1 (![0] : Fin 1 → Fin S6x1.rank)
  bcast_S400000_S1x400000_1 : S400000.BroadcastsInDim S1x400000 (![1] : Fin 1 → Fin S1x400000.rank)
  bcast_S6x1_S6x400000_0_1 : S6x1.BroadcastsInDim S6x400000 (![0, 1] : Fin 2 → Fin S6x400000.rank)
  bcast_S1x400000_S6x400000_0_1 : S1x400000.BroadcastsInDim S6x400000 (![0, 1] : Fin 2 → Fin S6x400000.rank)
  slices_S7x6_S1x6_1_0 : S7x6.Slices ![1, 0] S1x6
  slices_S7x6_S1x6_2_0 : S7x6.Slices ![2, 0] S1x6
  bcast_S_S6x400000 : S_.BroadcastsInDim S6x400000 (![] : Fin 0 → Fin S6x400000.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  concatenates_S6x400000_S6x400000_S6x400000_S6x400000_S6x400000_S6x400000_S6x400000_S42x400000_d0 : Shape.Concatenates [S6x400000, S6x400000, S6x400000, S6x400000, S6x400000, S6x400000, S6x400000] S42x400000 0
  transposes_S42x400000_S400000x42_1_0 : S42x400000.Transposes [1, 0] S400000x42
  bcast_S400000_S400000x1_0 : S400000.BroadcastsInDim S400000x1 (![0] : Fin 1 → Fin S400000x1.rank)
  bcast_S400000x1_S400000x42_0_1 : S400000x1.BroadcastsInDim S400000x42 (![0, 1] : Fin 2 → Fin S400000x42.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  bcast_S7_S1x7_1 : S7.BroadcastsInDim S1x7 (![1] : Fin 1 → Fin S1x7.rank)
  bcast_S1x7_S2000000x7_0_1 : S1x7.BroadcastsInDim S2000000x7 (![0, 1] : Fin 2 → Fin S2000000x7.rank)
  shapeCasts_S2000000x42_S2000000x7x6 : S2000000x42.ShapeCasts S2000000x7x6
  bcast_S2000000x7_S2000000x7x1_0_1 : S2000000x7.BroadcastsInDim S2000000x7x1 (![0, 1] : Fin 2 → Fin S2000000x7x1.rank)
  bcast_S2000000x7x1_S2000000x7x6_0_1_2 : S2000000x7x1.BroadcastsInDim S2000000x7x6 (![0, 1, 2] : Fin 3 → Fin S2000000x7x6.rank)
  shapeCasts_S2000000x7x6_S2000000x42 : S2000000x7x6.ShapeCasts S2000000x42
  gather_S400000x42_S2000000x1_S2000000x42_1_0_n_n_0_1_142_wf : GatherDims.WF S400000x42 S2000000x1 S2000000x42 [1] [0] [] [0] [] 1 ![1, 42]

variable [Facts₀]

def gather_S400000x42_S2000000x1_S2000000x42_1_0_n_n_0_1_142 : GatherDims S400000x42 S2000000x1 S2000000x42 where
  offsetDims := [1]
  collapsedSliceDims := [0]
  operandBatchingDims := []
  startIndicesBatchingDims := []
  startIndexMap := [0]
  indexVectorDim := 1
  sliceSizes := ![1, 42]
  wf := gather_S400000x42_S2000000x1_S2000000x42_1_0_n_n_0_1_142_wf

class Facts : Prop extends Facts₀ where

variable [Facts]
-- ==== Proof.KTailDefs.lean ====
/-
  The kernel program's last stretch of host operations as one function of the radial table A, the angular table C and
  the index array: the rows of A at the wrapped indices, a row out of range replaced by a fill word (`taken`), times C
  broadcast along the radial index (`combine`); `tailPlain` is the same without the replacement.
-/
import proofs.«429643_j30408368456387_3_alg».proof.Proof.Gen.KernelIdeal
import Idealize.ShloMosaic.Lib.ValueIdx

noncomputable section

namespace Cert.KernelIdeal.ValueTail

open Cert.KernelIdeal Cert.KernelIdeal.Gen Idealize.ShloMosaic Idealize.ShloMosaic.TcCoe Idealize.SL.Sem Idealize.ShloMosaic.ValueIdx

variable {F : FTy → Type} [FloatOps F]

/-- A negative index is wrapped once by the table's 400000 rows; any other index is kept. -/
def wrapIdx (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 400000#32))) idx

/-- The wrapped indices as the gather's [2000000, 1] array of start indices. -/
def idxCol (idx : IVec S2000000 32) : IVec S2000000x1 32 :=
  broadcastInDim S2000000x1 ![0] bcast_S2000000_S2000000x1_0 (wrapIdx idx)

/-- Row t of the result is row (wrapped idx t) of the table. -/
def gathered (A : FVec F S400000x42 .f32) (idx : IVec S2000000 32) : FVec F S2000000x42 .f32 :=
  Host.gather gather_S400000x42_S2000000x1_S2000000x42_1_0_n_n_0_1_142 A (idxCol idx)

/-- Entry (t, 6l+k) of the gathered rows times entry (t, l) of the angular table. -/
def combine (G : FVec F S2000000x42 .f32) (C : FVec F S2000000x7 .f32) : FVec F S2000000x42 .f32 :=
  shapeCast S2000000x42 (mulf (shapeCast S2000000x7x6 G shapeCasts_S2000000x42_S2000000x7x6)
    (broadcastInDim S2000000x7x6 ![0, 1, 2] bcast_S2000000x7x1_S2000000x7x6_0_1_2
      (broadcastInDim S2000000x7x1 ![0, 1] bcast_S2000000x7_S2000000x7x1_0_1 C))) shapeCasts_S2000000x7x6_S2000000x42

/-- Bit t is set when the wrapped index t lies in 0 .. 399999. -/
def inRange (idx : IVec S2000000 32) : IVec S2000000 1 :=
  Host.reduce IntOp.andi
    (andi (cmpi .sge (idxCol idx) (broadcastInDim S2000000x1 ![] bcast_S_S2000000x1 (constantI S_ 32 0#32)))
      (cmpi .sle (idxCol idx) (broadcastInDim S2000000x1 ![0, 1] bcast_S1x1_S2000000x1_0_1
        (broadcastInDim S1x1 ![1] bcast_S1_S1x1_1 (constantI S1 32 399999#32)))))
    (constantI S_ 1 1#1) reducesTo_S2000000x1_S2000000_d1 h_S_

/-- The gathered rows, a row whose wrapped index is out of range replaced by the fill word. -/
def taken (A : FVec F S400000x42 .f32) (idx : IVec S2000000 32) : FVec F S2000000x42 .f32 :=
  select (broadcastInDim S2000000x42 ![0] bcast_S2000000_S2000000x42_0 (inRange idx)) (gathered A idx)
    (broadcastInDim S2000000x42 ![] bcast_S_S2000000x42 (constant S_ .f32 0x7FC00000#32))

/-- The result with the out-of-range fill. -/
def tailK (A : FVec F S400000x42 .f32) (C : FVec F S2000000x7 .f32) (idx : IVec S2000000 32) : FVec F S2000000x42 .f32 :=
  combine (taken A idx) C

/-- The result of the plain gather. -/
def tailPlain (A : FVec F S400000x42 .f32) (C : FVec F S2000000x7 .f32) (idx : IVec S2000000 32) : FVec F S2000000x42 .f32 :=
  combine (gathered A idx) C

end Cert.KernelIdeal.ValueTail

end
-- ==== Proof.KTail.lean ====
/-
  The kernel program's result buffer at its last boundary, read through the two closing stretches of host operations:
  it is `tailK` of the two regions' output arrays and the index argument.
-/
import proofs.«429643_j30408368456387_3_alg».proof.Proof.Gen.KernelIdeal.Frame
import proofs.«429643_j30408368456387_3_alg».proof.Proof.KTailDefs
import Idealize.ShloMosaic.Lib.StableHlo.Run
import Idealize.ShloMosaic.Lib.ValueIdx

noncomputable section

namespace Cert.KernelIdeal.ValueTail

open Cert.KernelIdeal Cert.KernelIdeal.Gen Idealize.ShloMosaic Idealize.ShloMosaic.TcCoe Idealize.SL.Sem Idealize.ShloMosaic.ValueIdx

/-- Contents moved to a typed reference's buffer type and back are the contents. -/
theorem ofBuf_toBuf {sig : RefSig} {Val : EltTy → Type} {T : BufTy} (x : StableHlo.TRef sig T) (v : T.Contents Val) :
    x.ofBuf (x.toBuf v) = v := by
  obtain ⟨r, h, _, _⟩ := x; subst h; rfl

/-! ## The two closing stretches over arbitrary contents `V` at their entry -/

/-- The last stretch (reshape, two broadcasts, product, reshape) leaves in the result buffer `combine` of what the
    gathered-rows buffer and the angular table's buffer held at its entry. -/
theorem tail1 (V : Valuation τ sig (Elt Ideal)) :
    StableHlo.after (hostOps2_1 (F := Ideal)) V (Proc.devRef .tc main_v9)
      = combine (F := Ideal) (V (Proc.devRef .tc main_v4)) (V (Proc.devRef .tc main_v3)) := by
  after_results
  rfl

/-- The stretch before it (index wrap, range mask, gather, select) does not write the angular table's buffer. -/
theorem tail0_v3 (V : Valuation τ sig (Elt Ideal)) :
    StableHlo.after (hostOps2 (F := Ideal)) V (Proc.devRef .tc main_v3) = V (Proc.devRef .tc main_v3) := by
  after_results

/-- That stretch leaves in the gathered-rows buffer `taken` of what the radial table's buffer and the index
    argument held at its entry: each operation's result is its function of its operands' results, the wrapped
    indices being read three times (by the two range comparisons and by the gather). -/
theorem tail0_v4 (V : Valuation τ sig (Elt Ideal)) :
    StableHlo.after (hostOps2 (F := Ideal)) V (Proc.devRef .tc main_v4)
      = taken (F := Ideal) (V (Proc.devRef .tc main_v1)) (V (Proc.devRef .tc main_arg4)) := by
  after_results_simp
  simp only [ofBuf_toBuf]
  have h4 : (StableHlo.TRef.of main_arg4 : StableHlo.TRef sig ⟨S2000000, .i32⟩).ofBuf (V (Proc.devRef .tc main_arg4))
      = V (Proc.devRef .tc main_arg4) := rfl
  have h1 : (StableHlo.TRef.of main_v1 : StableHlo.TRef sig ⟨S400000x42, .f32⟩).ofBuf (V (Proc.devRef .tc main_v1))
      = V (Proc.devRef .tc main_v1) := rfl
  simp only [h4, h1]
  have hv4 : ∀ v : (⟨S2000000x42, .f32⟩ : BufTy).Contents (Elt Ideal),
      (StableHlo.TRef.of main_v4 : StableHlo.TRef sig ⟨S2000000x42, .f32⟩).toBuf v = v := fun v => rfl
  refine (hv4 _).trans ?_
  unfold taken gathered inRange idxCol wrapIdx
  rfl

/-! ## The three buffers at region 1's exit -/

section Reads

variable (m : (ℓ : Loc nD τ sig) → Buf (Elt Ideal) ℓ) (ρ : Dev nD → PrngReg) (c : Dev nD)

/-- The index argument is no array of either region and no earlier host operation writes it: it is as launched. -/
theorem W4_arg4 : W4 m ρ c (Proc.devRef .tc main_arg4) = m ((c.tc : Thread nD τ).loc main_arg4) := by
  rw [W4_of_ne m ρ c main_arg4 (by decide)]
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results

/-- The radial table's buffer is region 0's output array (window 3); region 1 has no window on it and the reshape
    between the regions does not write it. -/
theorem W4_v1 : W4 m ρ c (Proc.devRef .tc main_v1) = (dat0 (F := Ideal) (V1 m ρ) c).arrAt (3 : Fin cfg0.W) cfg0.N := by
  rw [W4_of_ne m ρ c main_v1 (by decide)]
  show StableHlo.after hostOps1 (W2 m ρ c) (Proc.devRef .tc main_v1) = _
  after_results
  exact W2_arr m ρ c 3

/-- The angular table's buffer is region 1's output array (window 1). -/
theorem W4_v3 : W4 m ρ c (Proc.devRef .tc main_v3) = (dat1 (F := Ideal) (V3 m ρ) c).arrAt (1 : Fin cfg1.W) cfg1.N :=
  W4_arr m ρ c 1

end Reads

/-- The result buffer at the last boundary is `tailK` of the two regions' output arrays and the index argument. -/
theorem W6_out (m : (ℓ : Loc nD τ sig) → Buf (Elt Ideal) ℓ) (ρ : Dev nD → PrngReg) (c : Dev nD) :
    W6 m ρ c (Proc.devRef .tc main_v9)
      = tailK (F := Ideal) ((dat0 (F := Ideal) (V1 m ρ) c).arrAt (3 : Fin cfg0.W) cfg0.N) ((dat1 (F := Ideal) (V3 m ρ) c).arrAt (1 : Fin cfg1.W) cfg1.N)
          (m ((c.tc : Thread nD τ).loc main_arg4)) := by
  refine (tail1 (W5 m ρ c)).trans ?_
  unfold tailK
  refine congrArg₂ (combine (F := Ideal)) ?_ ?_
  · refine (tail0_v4 (W4 m ρ c)).trans ?_
    exact congrArg₂ (taken (F := Ideal)) (W4_v1 m ρ c) (W4_arg4 m ρ c)
  · exact (tail0_v3 (W4 m ρ c)).trans (W4_v3 m ρ c)

end Cert.KernelIdeal.ValueTail

end
-- ==== Proof.KMask.lean ====
/-
  Where every index lies in [-400000, 400000) the wrapped index lies in 0 .. 399999, so every bit of the range mask is
  set and the select keeps every gathered row: the result with the fill is the plain gather's.
-/
import proofs.«429643_j30408368456387_3_alg».proof.Proof.KTailDefs
import Idealize.ShloMosaic.Lib.ReduceAll
import Idealize.ShloMosaic.Lib.StableHlo.Predicate
import Idealize.ShloMosaic.Lib.ValueIdx
import Idealize.ShloMosaic.Lib.ValueLayout

noncomputable section

namespace Cert.KernelIdeal.ValueTail

open Cert.KernelIdeal Cert.KernelIdeal.Gen Idealize.ShloMosaic Idealize.ShloMosaic.TcCoe Idealize.SL.Sem Idealize.ShloMosaic.ValueIdx

/-! ## The words: one index, wrapped once -/

private theorem toInt_lit_400000 : (400000#32 : BitVec 32).toInt = 400000 := by decide
private theorem toInt_lit_399999 : (399999#32 : BitVec 32).toInt = 399999 := by decide
private theorem toInt_lit_zero : (0#32 : BitVec 32).toInt = 0 := by decide

/-- Adding 400000 to a negative word no less than -400000 does not leave the signed range: the sum reads
    a.toInt + 400000, which lies in 0 .. 399999. -/
private theorem toInt_add_400000 (a : BitVec 32) (h1 : -400000 ≤ a.toInt) (h2 : a.toInt < 0) :
    (a + 400000#32).toInt = a.toInt + 400000 := by
  rw [BitVec.toInt_add, toInt_lit_400000]
  exact Int.bmod_eq_of_le_mul_two (by omega) (by omega)

/-- For a in [-400000, 400000) the word w = (a + 400000 if a < 0, else a) has 0 ≤ w ≤ 399999, both read signed:
    a negative a is at least -400000 and moves to a + 400000 in 0 .. 399999; any other a is already there. -/
theorem wrap_word (a : BitVec 32) (h1 : -400000 ≤ a.toInt) (h2 : a.toInt < 400000) :
    IntOp.cmpi .sge (Scalar.select (IntOp.cmpi .slt a 0#32) (IntOp.addi a 400000#32) a) 0#32 = 1#1 ∧
    IntOp.cmpi .sle (Scalar.select (IntOp.cmpi .slt a 0#32) (IntOp.addi a 400000#32) a) 399999#32 = 1#1 := by
  rw [IntOp.cmpi_sge, IntOp.cmpi_sle, toInt_lit_zero, toInt_lit_399999]
  by_cases hn : a.toInt < 0
  · have hc : IntOp.cmpi .slt a 0#32 = 1#1 := IntOp.cmpi_slt.2 (by rw [toInt_lit_zero]; exact hn)
    rw [hc, select_one]
    have hw : (IntOp.addi a 400000#32).toInt = a.toInt + 400000 := toInt_add_400000 a h1 hn
    omega
  · have hc : IntOp.cmpi .slt a 0#32 = 0#1 :=
      eq_zero_of_ne_one fun e => hn (by have := IntOp.cmpi_slt.1 e; rwa [toInt_lit_zero] at this)
    rw [hc, select_zero]
    omega

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-! ## The vectors: the mask, bit by bit -/

/-- Entry (t, 0) of the column of start indices is index t wrapped once. -/
private theorem idxCol_apply (idx : IVec S2000000 32) (i : S2000000x1.Idx) :
    idxCol idx i =
      Scalar.select (IntOp.cmpi .slt (idx (ix1 ⟨(i 0).val, idx2_lt0 i⟩)) 0#32)
        (IntOp.addi (idx (ix1 ⟨(i 0).val, idx2_lt0 i⟩)) 400000#32) (idx (ix1 ⟨(i 0).val, idx2_lt0 i⟩)) := by
  unfold idxCol
  rw [broadcastInDim_apply ![0] bcast_S2000000_S2000000x1_0 (wrapIdx idx) i (ix1 ⟨(i 0).val, idx2_lt0 i⟩)
    (fun a => match a with | ⟨0, _⟩ => rfl)]
  rfl

/-- With every index in [-400000, 400000), both range tests hold at every entry of the column. -/
private theorem mask_apply (idx : IVec S2000000 32)
    (h : ∀ t : Fin 2000000, -400000 ≤ (idx (ix1 t)).toInt ∧ (idx (ix1 t)).toInt < 400000) (i : S2000000x1.Idx) :
    andi (cmpi .sge (idxCol idx) (broadcastInDim S2000000x1 ![] bcast_S_S2000000x1 (constantI S_ 32 0#32)))
      (cmpi .sle (idxCol idx) (broadcastInDim S2000000x1 ![0, 1] bcast_S1x1_S2000000x1_0_1
        (broadcastInDim S1x1 ![1] bcast_S1_S1x1_1 (constantI S1 32 399999#32)))) i = 1#1 := by
  show IntOp.andi (IntOp.cmpi .sge (idxCol idx i) 0#32) (IntOp.cmpi .sle (idxCol idx i) 399999#32) = 1#1
  rw [idxCol_apply]
  exact IntOp.andi_eq_one.2 (wrap_word _ (h _).1 (h _).2)

/-- With every index in [-400000, 400000), every bit of the range mask is set. -/
theorem inRange_eq_one (idx : IVec S2000000 32)
    (h : ∀ t : Fin 2000000, -400000 ≤ (idx (ix1 t)).toInt ∧ (idx (ix1 t)).toInt < 400000) (k : S2000000.Idx) :
    inRange idx k = 1#1 := by
  unfold inRange
  rw [Host.reduce_eq_foldl]
  exact foldl_andi_ones _ (mask_apply idx h) _

/-- With every mask bit set the select keeps every gathered row. -/
theorem taken_eq_gathered (A : FVec Ideal S400000x42 .f32) (idx : IVec S2000000 32)
    (h : ∀ t : Fin 2000000, -400000 ≤ (idx (ix1 t)).toInt ∧ (idx (ix1 t)).toInt < 400000) :
    taken (F := Ideal) A idx = gathered (F := Ideal) A idx := by
  funext j
  unfold taken
  rw [select_apply]
  have hb : broadcastInDim S2000000x42 ![0] bcast_S2000000_S2000000x42_0 (inRange idx) j = 1#1 := by
    unfold broadcastInDim
    exact inRange_eq_one idx h _
  rw [hb, select_one]

/-- With every index in [-400000, 400000) the wrapped index is in 0 .. 399999, every mask bit is set and no row is replaced. -/
theorem tailK_of_range (A : FVec Ideal S400000x42 .f32) (C : FVec Ideal S2000000x7 .f32) (idx : IVec S2000000 32)
    (h : ∀ t : Fin 2000000, -400000 ≤ (idx (ix1 t)).toInt ∧ (idx (ix1 t)).toInt < 400000) :
    tailK (F := Ideal) A C idx = tailPlain (F := Ideal) A C idx := by
  unfold tailK tailPlain
  rw [taken_eq_gathered A idx h]

end Cert.KernelIdeal.ValueTail

end
-- ==== Proof.Spec.lean ====
/-
  The two basis tables of the spherical basis layer, as pure functions over the extended reals.

  Radial table: with x = dist / 5, the envelope u(x) = 1/x - 28 x^5 + 48 x^6 - 21 x^7 and the spherical Bessel
  functions j_0 .. j_6 by the upward recurrence j_l(a) = ((2l-1)/a) j_(l-1)(a) - j_(l-2)(a) from
  j_0(a) = sin a / a and j_1(a) = sin a / a^2 - cos a / a, entry (e, 6l+k) is
  (u(x_e) * norm[l,k]) * j_l(zeros[l,k] * x_e).
  Angular table: with c = cos(angle) and the Legendre polynomials P_0 = 1, P_1 = c,
  P_l = ((2l-1) c P_(l-1) - (l-1) P_(l-2)) / l, entry (t, l) is pref_l * P_l(c_t), pref_l the f32 value of
  sqrt((2l+1)/(4 pi)).
  Every product and sum is grouped as written here. On the extended reals multiplication is commutative and
  associative with no side condition, which is all that joins the other grouping of the same factors to this one
  (`mul5`, `mul_env`, `mul_comm`).
-/
import Idealize.ShloMosaic.PureOps.Ideal
import Idealize.ShloMosaic.Lib.ValueIdx

noncomputable section

namespace Cert.Sph

open Idealize.ShloMosaic Idealize.ShloMosaic.ValueIdx

/-- The extended real an f32 word denotes. -/
abbrev lit (w : BitVec 32) : EReal := Ideal.ofBits .f32 w

/-- x = d / 5. -/
def scaled (d : EReal) : EReal := Ideal.div d (lit 0x40A00000#32)

/-- The envelope 1/x - 28 x^5 + 48 x^6 - 21 x^7, the powers by successive products with x, the sum left to right. -/
def env (x : EReal) : EReal :=
  ((Ideal.div (lit 0x3F800000#32) x + lit 0xC1E00000#32 * ((((x * x) * x) * x) * x))
      + lit 0x42400000#32 * (((((x * x) * x) * x) * x) * x))
    + lit 0xC1A80000#32 * ((((((x * x) * x) * x) * x) * x) * x)

/-- j_0(a) = sin a / a. -/
def j0 (a : EReal) : EReal := Ideal.div (Ideal.sin a) a
/-- j_1(a) = sin a / (a a) - cos a / a. -/
def j1 (a : EReal) : EReal := Ideal.div (Ideal.sin a) (a * a) - Ideal.div (Ideal.cos a) a
/-- One step of the upward recurrence: (w / a) jc - jm, w the word of 2l-1. -/
def jstep (w : BitVec 32) (a jc jm : EReal) : EReal := Ideal.div (lit w) a * jc - jm
def j2 (a : EReal) : EReal := jstep 0x40400000#32 a (j1 a) (j0 a)
def j3 (a : EReal) : EReal := jstep 0x40A00000#32 a (j2 a) (j1 a)
def j4 (a : EReal) : EReal := jstep 0x40E00000#32 a (j3 a) (j2 a)
def j5 (a : EReal) : EReal := jstep 0x41100000#32 a (j4 a) (j3 a)
def j6 (a : EReal) : EReal := jstep 0x41300000#32 a (j5 a) (j4 a)

/-- The spherical Bessel function of order l. -/
def bessel (l : Nat) (a : EReal) : EReal :=
  match l with
  | 0 => j0 a | 1 => j1 a | 2 => j2 a | 3 => j3 a | 4 => j4 a | 5 => j5 a | _ => j6 a

/-- One entry of the radial table from the distance d, the root z and the normaliser n of its column, order l. -/
def rbfEntry (d z n : EReal) (l : Nat) : EReal :=
  (env (scaled d) * n) * bessel l (z * scaled d)

/-- One Legendre step: ((w1 c) p1 - w2 p2) / w3, the words of 2l-1, l-1 and l. -/
def pstep (w1 w2 w3 : BitVec 32) (c p1 p2 : EReal) : EReal :=
  Ideal.div ((lit w1 * c) * p1 - lit w2 * p2) (lit w3)
def p0 : EReal := lit 0x3F800000#32
def p2 (c : EReal) : EReal := pstep 0x40400000#32 0x3F800000#32 0x40000000#32 c c p0
def p3 (c : EReal) : EReal := pstep 0x40A00000#32 0x40000000#32 0x40400000#32 c (p2 c) c
def p4 (c : EReal) : EReal := pstep 0x40E00000#32 0x40400000#32 0x40800000#32 c (p3 c) (p2 c)
def p5 (c : EReal) : EReal := pstep 0x41100000#32 0x40800000#32 0x40A00000#32 c (p4 c) (p3 c)
def p6 (c : EReal) : EReal := pstep 0x41300000#32 0x40A00000#32 0x40C00000#32 c (p5 c) (p4 c)

/-- The Legendre polynomial of degree l at c. -/
def legendre (l : Nat) (c : EReal) : EReal :=
  match l with
  | 0 => p0 | 1 => c | 2 => p2 c | 3 => p3 c | 4 => p4 c | 5 => p5 c | _ => p6 c

/-- The f32 word of sqrt((2l+1)/(4 pi)). -/
def prefWord (l : Nat) : BitVec 32 :=
  match l with
  | 0 => 0x3E906EBB#32 | 1 => 0x3EFA2A1C#32 | 2 => 0x3F217B01#32 | 3 => 0x3F3F10F8#32
  | 4 => 0x3F58A618#32 | 5 => 0x3F6F83A7#32 | _ => 0x3F823092#32

/-- One entry of the angular table from the angle, degree l. -/
def cbfEntry (angle : EReal) (l : Nat) : EReal :=
  lit (prefWord l) * legendre l (Ideal.cos angle)

/-- The radial table [400000, 42]: column q holds order q / 6 and radial index q % 6. -/
def RBF (dist : (⟨1, ![400000]⟩ : Shape).Idx → EReal) (zeros norm : (⟨2, ![7, 6]⟩ : Shape).Idx → EReal) :
    (⟨2, ![400000, 42]⟩ : Shape).Idx → EReal := fun j =>
  rbfEntry (dist (ix1 ⟨(j 0).val, idx2_lt0 j⟩))
    (zeros (ix2 (⟨(j 1).val / 6, by have := idx2_lt1 j; omega⟩ : Fin 7) (⟨(j 1).val % 6, by omega⟩ : Fin 6)))
    (norm (ix2 (⟨(j 1).val / 6, by have := idx2_lt1 j; omega⟩ : Fin 7) (⟨(j 1).val % 6, by omega⟩ : Fin 6)))
    ((j 1).val / 6)

/-- The angular table [2000000, 7]. -/
def CBF (angle : (⟨1, ![2000000]⟩ : Shape).Idx → EReal) : (⟨2, ![2000000, 7]⟩ : Shape).Idx → EReal := fun j =>
  cbfEntry (angle (ix1 ⟨(j 0).val, idx2_lt0 j⟩)) (j 1).val

/-- x (x^2 x^2) is the fifth power by successive products. -/
theorem mul5 (x : EReal) : x * ((x * x) * (x * x)) = (((x * x) * x) * x) * x := by
  simp only [mul_assoc]

/-- The envelope times (the normaliser times the Bessel value) is (envelope times normaliser) times the Bessel value. -/
theorem mul_env (u n b : EReal) : u * (n * b) = (u * n) * b := (mul_assoc u n b).symm

end Cert.Sph

end
-- ==== Proof.KRegion0.lean ====
/-
  What the radial kernel leaves in its output array: block t of 8000 rows is written in eight pieces of 1000 rows, each
  the same function of its 1000 distances and the two 7 x 6 tables; entry (e, 6l+k) is
  (env(x_e) * norm[l,k]) * j_l(zeros[l,k] * x_e) with x_e = dist[e] / 5.

  The road. The staging buffer after the body is the overlay of its eight stored pieces; every piece is a block of ONE
  function of the buffer's index (`blockG`: the table entry of the block's distance row and the tables' entry), so the
  overlay is that function wherever a piece covers, and the pieces tile the block. A piece's payload is read at row r and
  column 6 l + k: the concatenation of seven [1000, 6] groups picks group l, the broadcasts pick row r of the distance
  column and entry k of the tables' row l, and what is left is the scalar formula, the same products, sums, quotients,
  sines and cosines in the same grouping as `Cert.Sph.rbfEntry`; no algebraic law is used. Then the grid: point t's
  distance block is rows 8000 t .. of the reshaped distance argument, the tables' one block is the whole table, the output
  block is rows 8000 t .. of the output, and the 50 blocks cover the array.
-/
import proofs.«429643_j30408368456387_3_alg».proof.Proof.Gen.KernelIdeal.Frame
import proofs.«429643_j30408368456387_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Value0

open Cert.KernelIdeal Cert.KernelIdeal.Gen Idealize.ShloMosaic Idealize.ShloMosaic.TcCoe Idealize.SL.Sem Idealize.ShloMosaic.ValueIdx

/-! ## Reading the body's layout operations at an index -/

section Layout
variable {α : Type}

/-- One of seven by its number (the seventh for every number past five). -/
def sel7 {β : Type} (a0 a1 a2 a3 a4 a5 a6 : β) : Nat → β
  | 0 => a0 | 1 => a1 | 2 => a2 | 3 => a3 | 4 => a4 | 5 => a5 | _ => a6

/-- A column [1000, 1] broadcast along the columns reads, at (r, k), the column's row r. -/
theorem bcol_apply (v : S1000x1.Idx → α) (h : S1000x1.Broadcasts S1000x6) (r : Fin 1000) (k : Fin 6) :
    broadcastTo S1000x6 v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- A row [1, 6] broadcast along the rows reads, at (r, k), the row's entry k. -/
theorem brow_apply (z : S1x6.Idx → α) (h : S1x6.Broadcasts S1000x6) (r : Fin 1000) (k : Fin 6) :
    broadcastTo S1000x6 z h (ix2 r k) = z (ix2 (0 : Fin 1) k) :=
  broadcastTo_1b_ab_apply z h r k

/-- Seven [1000, 6] groups laid side by side: column 6 l + k of the whole is column k of group l. -/
theorem concat7_apply (g0 g1 g2 g3 g4 g5 g6 : S1000x6.Idx → α)
    (h : Shape.Concatenates (([⟨S1000x6, g0⟩, ⟨S1000x6, g1⟩, ⟨S1000x6, g2⟩, ⟨S1000x6, g3⟩, ⟨S1000x6, g4⟩, ⟨S1000x6, g5⟩, ⟨S1000x6, g6⟩] : List ((s : Shape) × (s.Idx → α))).map (·.1)) S1000x42 1)
    (r : Fin 1000) (q : Fin 42) (l : Nat) (hl : l < 7) (k : Fin 6) (hq : q.val = 6 * l + k.val) :
    concatenate S1000x42 1 [⟨S1000x6, g0⟩, ⟨S1000x6, g1⟩, ⟨S1000x6, g2⟩, ⟨S1000x6, g3⟩, ⟨S1000x6, g4⟩, ⟨S1000x6, g5⟩, ⟨S1000x6, g6⟩] h (ix2 r q)
      = sel7 g0 g1 g2 g3 g4 g5 g6 l (ix2 r k) := by
  have hi : ∀ b : Fin S1000x6.rank, b.cast (rfl : S1000x6.rank = S1000x42.rank) ≠ (1 : Fin S1000x42.rank) →
      ((ix2 r k : S1000x6.Idx) b).val = ((ix2 r q : S1000x42.Idx) (b.cast rfl)).val := fun b hb => by
    match b with
    | ⟨0, _⟩ => rfl
    | ⟨1, _⟩ => exact absurd rfl hb
  interval_cases l
  · exact concatenate_apply_piece 1 _ h (ix2 r q) 0 (by show _ < 7; omega) S1000x6 g0 rfl rfl 0 rfl (ix2 r k) hi (by show 0 + k.val = q.val; omega)
  · exact concatenate_apply_piece 1 _ h (ix2 r q) 1 (by show _ < 7; omega) S1000x6 g1 rfl rfl 6 rfl (ix2 r k) hi (by show 6 + k.val = q.val; omega)
  · exact concatenate_apply_piece 1 _ h (ix2 r q) 2 (by show _ < 7; omega) S1000x6 g2 rfl rfl 12 rfl (ix2 r k) hi (by show 12 + k.val = q.val; omega)
  · exact concatenate_apply_piece 1 _ h (ix2 r q) 3 (by show _ < 7; omega) S1000x6 g3 rfl rfl 18 rfl (ix2 r k) hi (by show 18 + k.val = q.val; omega)
  · exact concatenate_apply_piece 1 _ h (ix2 r q) 4 (by show _ < 7; omega) S1000x6 g4 rfl rfl 24 rfl (ix2 r k) hi (by show 24 + k.val = q.val; omega)
  · exact concatenate_apply_piece 1 _ h (ix2 r q) 5 (by show _ < 7; omega) S1000x6 g5 rfl rfl 30 rfl (ix2 r k) hi (by show 30 + k.val = q.val; omega)
  · exact concatenate_apply_piece 1 _ h (ix2 r q) 6 (by show _ < 7; omega) S1000x6 g6 rfl rfl 36 rfl (ix2 r k) hi (by show 36 + k.val = q.val; omega)

/-- Row o of a 7 x 6 table, loaded as a [1, 6] vector, reads the table at (o, k). -/
theorem ld_row {Val : EltTy → Type} {e : EltTy} (x : S7x6.Idx → Val e) (o : Nat) (inb : ∀ a, (![o, 0] : Fin 2 → Nat) a + S1x6.size a ≤ S7x6.size a) (k : Fin 6) :
    View.ld x (Rect.unit (s := S7x6) ![o, 0] S1x6.size inb) (ix2 (0 : Fin 1) k) = x (ix2 (⟨o, inb 0⟩ : Fin 7) k) := by
  show x _ = x _
  congr 1
  funext a
  apply Fin.ext
  match a with
  | ⟨0, _⟩ => show o + 1 * 0 = o; omega
  | ⟨1, _⟩ => show 0 + 1 * k.val = k.val; omega

end Layout

/-! ## The block the body leaves -/

open Cert.Sph in
/-- The [8000, 42] block of the radial table from a block of 8000 distances and the two tables. -/
def blockG (x0 : Vec Ideal S8000x1 .f32) (x1 x2 : Vec Ideal S7x6 .f32) : Vec Ideal S8000x42 .f32 := fun y =>
  rbfEntry (x0 (ix2 (⟨(y 0).val, idx2_lt0 y⟩ : Fin 8000) (0 : Fin 1)))
    (x1 (ix2 (⟨(y 1).val / 6, by have := idx2_lt1 y; omega⟩ : Fin 7) (⟨(y 1).val % 6, by omega⟩ : Fin 6)))
    (x2 (ix2 (⟨(y 1).val / 6, by have := idx2_lt1 y; omega⟩ : Fin 7) (⟨(y 1).val % 6, by omega⟩ : Fin 6)))
    ((y 1).val / 6)

/-- A chunk of 1000 rows from row o lies inside the distance block when it lies inside the output block. -/
theorem inb_dist (o : Nat) (inb : ∀ a, (![o, 0] : Fin 2 → Nat) a + S1000x42.size a ≤ S8000x42.size a) :
    ∀ a, (![o, 0] : Fin 2 → Nat) a + S1000x1.size a ≤ S8000x1.size a := fun a => by
  match a with
  | ⟨0, _⟩ => exact inb 0
  | ⟨1, _⟩ => show 0 + 1 ≤ 1; omega

/-- Row l of a 7 x 6 table lies inside it. -/
theorem inb_row (l : Nat) (hl : l < 7) : ∀ a, (![l, 0] : Fin 2 → Nat) a + S1x6.size a ≤ S7x6.size a := fun a => by
  match a with
  | ⟨0, _⟩ => show l + 1 ≤ 7; omega
  | ⟨1, _⟩ => show 0 + 6 ≤ 6; omega

open Cert.Sph in
/-- The block at row o + r, column 6 l + k: the entry of the chunk's distance r and of entry k of the tables' rows l. -/
theorem blockG_at (x0 : Vec Ideal S8000x1 .f32) (x1 x2 : Vec Ideal S7x6 .f32) (o : Nat)
    (inb : ∀ a, (![o, 0] : Fin 2 → Nat) a + S1000x42.size a ≤ S8000x42.size a)
    (r : Fin 1000) (q : Fin 42) (l : Nat) (hl : l < 7) (k : Fin 6) (hq : q.val = 6 * l + k.val) :
    blockG x0 x1 x2 ((Rect.unit (s := S8000x42) ![o, 0] S1000x42.size inb).emb (ix2 r q))
      = rbfEntry (View.ld x0 (Rect.unit (s := S8000x1) ![o, 0] S1000x1.size (inb_dist o inb)) (ix2 r (0 : Fin 1)))
          (View.ld x1 (Rect.unit (s := S7x6) ![l, 0] S1x6.size (inb_row l hl)) (ix2 (0 : Fin 1) k))
          (View.ld x2 (Rect.unit (s := S7x6) ![l, 0] S1x6.size (inb_row l hl)) (ix2 (0 : Fin 1) k)) l := by
  have key : ∀ y : S8000x42.Idx, (y 0).val = o + r.val → (y 1).val = q.val → blockG x0 x1 x2 y
      = rbfEntry (View.ld x0 (Rect.unit (s := S8000x1) ![o, 0] S1000x1.size (inb_dist o inb)) (ix2 r (0 : Fin 1)))
          (View.ld x1 (Rect.unit (s := S7x6) ![l, 0] S1x6.size (inb_row l hl)) (ix2 (0 : Fin 1) k))
          (View.ld x2 (Rect.unit (s := S7x6) ![l, 0] S1x6.size (inb_row l hl)) (ix2 (0 : Fin 1) k)) l := by
    intro y e0 e1
    have hl' : (y 1).val / 6 = l := by have := k.isLt; omega
    have hk' : (y 1).val % 6 = k.val := by have := k.isLt; omega
    have a0 : (ix2 (⟨(y 0).val, idx2_lt0 y⟩ : Fin 8000) (0 : Fin 1) : S8000x1.Idx)
        = (Rect.unit (s := S8000x1) ![o, 0] S1000x1.size (inb_dist o inb)).idx (ix2 r (0 : Fin 1)) := by
      funext a; apply Fin.ext
      match a with
      | ⟨0, _⟩ => show (y 0).val = o + 1 * r.val; omega
      | ⟨1, _⟩ => show 0 = 0 + 1 * 0; omega
    have a1 : (ix2 (⟨(y 1).val / 6, by have := idx2_lt1 y; omega⟩ : Fin 7) (⟨(y 1).val % 6, by omega⟩ : Fin 6) : S7x6.Idx)
        = (Rect.unit (s := S7x6) ![l, 0] S1x6.size (inb_row l hl)).idx (ix2 (0 : Fin 1) k) := by
      funext a; apply Fin.ext
      match a with
      | ⟨0, _⟩ => show (y 1).val / 6 = l + 1 * 0; omega
      | ⟨1, _⟩ => show (y 1).val % 6 = 0 + 1 * k.val; omega
    unfold blockG
    congr 1
    · exact congrArg x0 a0
    · exact congrArg x1 a1
    · exact congrArg x2 a1
  exact key _ (by rw [Rect.emb_apply]; show o + 1 * r.val = o + r.val; omega)
    (by rw [Rect.emb_apply]; show 0 + 1 * q.val = q.val; omega)

/-- A sine or cosine of a vector read at an index. -/
theorem sin_at {s : Shape} {φ : FTy} (a : FVec Ideal s φ) (i : s.Idx) : Idealize.ShloMosaic.sin a i = Ideal.sin (a i) := rfl
theorem cos_at {s : Shape} {φ : FTy} (a : FVec Ideal s φ) (i : s.Idx) : Idealize.ShloMosaic.cos a i = Ideal.cos (a i) := rfl

open Cert.Sph in
/-- What the eight stores of the body leave in the output's staging buffer is the block of the radial table of the
    distance block and the two tables: each store's payload, read at row r and column 6 l + k of its 1000 rows, is
    the entry's formula operation by operation. -/
theorem out0_eq (c : Dev nD) (i : grid0.Coords) (arg1 : Memref sig .tc .vmem S8000x1 .f32) (harg1 : arg1.IsWhole)
    (arg2 : Memref sig .tc .vmem S7x6 .f32) (harg2 : arg2.IsWhole) (arg3 : Memref sig .tc .vmem S7x6 .f32) (harg3 : arg3.IsWhole)
    (arg4 : Memref sig .tc .vmem S8000x42 .f32) (harg4 : arg4.IsWhole)
    (x0 : Vec Ideal S8000x1 .f32) (x1 : Vec Ideal S7x6 .f32) (x2 : Vec Ideal S7x6 .f32) :
    out0_A_3 (F := Ideal) c i arg1 harg1 arg2 harg2 arg3 harg3 arg4 harg4 x0 x1 x2 = blockG x0 x1 x2 := by
  unfold out0_A_3
  rw [View.read_writes_junk_eq_canon]
  funext y
  refine View.canon_apply_of_pieces (blockG x0 x1 x2) _ ?_ y (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread]
  intro p hp
  simp only [List.mem_cons, List.not_mem_nil, or_false] at hp
  rcases hp with rfl | rfl | rfl | rfl | rfl | rfl | rfl | rfl
  all_goals (
    intro x
    obtain ⟨r, q, rfl⟩ : ∃ (r : Fin 1000) (q : Fin 42), x = ix2 r q := ⟨x 0, x 1, eq_ix2 x⟩
    obtain ⟨l, hl, k, hq⟩ : ∃ (l : Nat) (_ : l < 7) (k : Fin 6), q.val = 6 * l + k.val :=
      ⟨q.val / 6, by have := q.isLt; omega, ⟨q.val % 6, by omega⟩, by show q.val = 6 * (q.val / 6) + q.val % 6; omega⟩
    dsimp only
    refine Eq.trans ?_ (blockG_at x0 x1 x2 _ _ r q l hl k hq).symm
    simp only [k0_pay23, k0_pay41, k0_pay56, k0_pay77, k0_pay95, k0_pay114, k0_pay135, k0_pay151]
    refine Eq.trans (concat7_apply _ _ _ _ _ _ _ _ r q l hl k hq) ?_
    interval_cases l <;>
      simp only [sel7,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151,
        mulf_apply, addf_apply, subf_apply, divf_apply, broadcast_apply, bcol_apply, brow_apply, sin_at, cos_at,
        shapeCast_self, Ideal.ofBits_def, Ideal.sin_def, Ideal.cos_def,
        rbfEntry, env, scaled, bessel, j0, j1, j2, j3, j4, j5, j6, jstep, lit])

/-! ## From the blocks to the array -/

section Array

variable (m : (ℓ : Loc nD τ sig) → Buf (Elt Ideal) ℓ) (ρ : Dev nD → PrngReg)

/-- The windows' block indices at grid point t: the distance column and the output move one block of 8000 rows per
    point, the two tables stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The distance column as the region finds it: the distance argument reshaped [400000] to [400000, 1]. -/
theorem V_dist (c : Dev nD) : (V1 m ρ c main_v0 : S400000x1.Idx → EReal)
    = shapeCast S400000x1 (m ((c.tc : Thread nD τ).loc main_arg0)) shapeCasts_S400000_S400000x1 := by
  show StableHlo.after hostOps0 (W0 m ρ c) (Proc.devRef .tc main_v0) = _
  after_results
  rfl

/-- The two tables as the region finds them: the arguments. -/
theorem V_zeros (c : Dev nD) : (V1 m ρ c main_arg2 : S7x6.Idx → EReal) = m ((c.tc : Thread nD τ).loc main_arg2) := by
  show StableHlo.after hostOps0 (W0 m ρ c) (Proc.devRef .tc main_arg2) = _
  after_results
theorem V_norm (c : Dev nD) : (V1 m ρ c main_arg3 : S7x6.Idx → EReal) = m ((c.tc : Thread nD τ).loc main_arg3) := by
  show StableHlo.after hostOps0 (W0 m ρ c) (Proc.devRef .tc main_arg3) = _
  after_results

/-- Row y of the distance block at point t is distance 8000 t + y. -/
theorem dist_blk (c : Dev nD) (t : Fin cfg0.N) (y0 : Fin 8000) (h : 8000 * t.val + y0.val < 400000) :
    (iblk0 (V1 m ρ) c 0 t : Vec Ideal S8000x1 .f32) (ix2 y0 (0 : Fin 1))
      = m ((c.tc : Thread nD τ).loc main_arg0) (ix1 (⟨8000 * t.val + y0.val, h⟩ : Fin 400000)) := by
  obtain ⟨e0, e1, -⟩ := idx_facts t
  unfold iblk0
  rw [View.read_apply]
  show V1 m ρ c main_v0 (((cfg0.win 0).blk t).view.emb (ix2 y0 (0 : Fin 1))) = _
  rw [V_dist]
  refine shapeCast_apply _ _ _ (ix1 (⟨8000 * t.val + y0.val, h⟩ : Fin 400000)) ?_
  rw [Shape.rowMajor_val_one, Shape.rowMajor_val_two]
  show 8000 * t.val + y0.val = (win0_0.index t 0 * 8000 + 1 * y0.val) * 1 + (win0_0.index t 1 * 1 + 1 * 0)
  rw [e0, e1]; omega

/-- The tables' one block is the whole table. -/
theorem zeros_blk (c : Dev nD) (t : Fin cfg0.N) :
    (iblk0 (V1 m ρ) c 1 t : Vec Ideal S7x6 .f32) = m ((c.tc : Thread nD τ).loc main_arg2) := by
  obtain ⟨-, -, e2, e3, -⟩ := idx_facts t
  funext y
  unfold iblk0
  rw [View.read_apply]
  show V1 m ρ c main_arg2 (((cfg0.win 1).blk t).view.emb y) = _
  rw [V_zeros]
  congr 1
  funext a
  apply Fin.ext
  match a with
  | ⟨0, _⟩ => show win0_1.index t 0 * 7 + 1 * (y 0).val = (y 0).val; rw [e2]; omega
  | ⟨1, _⟩ => show win0_1.index t 1 * 6 + 1 * (y 1).val = (y 1).val; rw [e3]; omega
theorem norm_blk (c : Dev nD) (t : Fin cfg0.N) :
    (iblk0 (V1 m ρ) c 2 t : Vec Ideal S7x6 .f32) = m ((c.tc : Thread nD τ).loc main_arg3) := by
  obtain ⟨-, -, -, -, e4, e5, -⟩ := idx_facts t
  funext y
  unfold iblk0
  rw [View.read_apply]
  show V1 m ρ c main_arg3 (((cfg0.win 2).blk t).view.emb y) = _
  rw [V_norm]
  congr 1
  funext a
  apply Fin.ext
  match a with
  | ⟨0, _⟩ => show win0_2.index t 0 * 7 + 1 * (y 0).val = (y 0).val; rw [e4]; omega
  | ⟨1, _⟩ => show win0_2.index t 1 * 6 + 1 * (y 1).val = (y 1).val; rw [e5]; omega

/-- The block of a distance block that is rows 8000 t .. of the distances, read at y, is the radial table at the
    array index with row 8000 t + y and the same column. -/
theorem blockG_eq_RBF (X0 : Vec Ideal S8000x1 .f32) (dist : (⟨1, ![400000]⟩ : Shape).Idx → EReal)
    (zeros norm : (⟨2, ![7, 6]⟩ : Shape).Idx → EReal) (tv : Nat)
    (hX0 : ∀ (y0 : Fin 8000) (h : 8000 * tv + y0.val < 400000), X0 (ix2 y0 (0 : Fin 1)) = dist (ix1 (⟨8000 * tv + y0.val, h⟩ : Fin 400000)))
    (y : S8000x42.Idx) (i : (⟨2, ![400000, 42]⟩ : Shape).Idx) (h0 : (i 0).val = 8000 * tv + (y 0).val) (h1 : (i 1).val = (y 1).val) :
    blockG X0 zeros norm y = Cert.Sph.RBF dist zeros norm i := by
  have hi0 : (i 0).val < 400000 := idx2_lt0 i
  have a0 : X0 (ix2 (⟨(y 0).val, idx2_lt0 y⟩ : Fin 8000) (0 : Fin 1)) = dist (ix1 (⟨(i 0).val, idx2_lt0 i⟩ : Fin 400000)) := by
    rw [hX0 ⟨(y 0).val, idx2_lt0 y⟩ (by show 8000 * tv + (y 0).val < 400000; omega)]
    congr 1
    funext a
    apply Fin.ext
    match a with
    | ⟨0, _⟩ => exact h0.symm
  have a1 : (ix2 (⟨(y 1).val / 6, by have := idx2_lt1 y; omega⟩ : Fin 7) (⟨(y 1).val % 6, by omega⟩ : Fin 6) : (⟨2, ![7, 6]⟩ : Shape).Idx)
      = ix2 (⟨(i 1).val / 6, by have := idx2_lt1 i; omega⟩ : Fin 7) (⟨(i 1).val % 6, by omega⟩ : Fin 6) := by
    funext a
    apply Fin.ext
    match a with
    | ⟨0, _⟩ => show (y 1).val / 6 = (i 1).val / 6; rw [h1]
    | ⟨1, _⟩ => show (y 1).val % 6 = (i 1).val % 6; rw [h1]
  unfold blockG Cert.Sph.RBF
  congr 1
  · exact congrArg zeros a1
  · exact congrArg norm a1
  · rw [h1]

/-- What point t writes back is block t of the radial table of the arguments. -/
theorem flushed_eq (c : Dev nD) (t : Fin cfg0.N) :
    (dat0 (F := Ideal) (V1 m ρ) c).flushed 3 t = ((cfg0.win 3).blk t).view.read (Elt Ideal)
      (Cert.Sph.RBF (m ((c.tc : Thread nD τ).loc main_arg0)) (m ((c.tc : Thread nD τ).loc main_arg2)) (m ((c.tc : Thread nD τ).loc main_arg3))) := by
  obtain ⟨-, -, -, -, -, -, e6, e7⟩ := idx_facts t
  show (cfg0.win 3).cut (grid0.coords t) ((dat0 (V1 m ρ) c).after 3 t) = _
  rw [after0_3]
  unfold outsAt0
  rw [out0_eq, zeros_blk, norm_blk]
  funext j
  rw [View.read_apply]
  show blockG (iblk0 (V1 m ρ) c 0 t) _ _ j = Cert.Sph.RBF _ _ _ (((cfg0.win 3).blk t).view.emb j)
  refine blockG_eq_RBF _ _ _ _ t.val (fun y0 h => dist_blk m ρ c t y0 h) j _ ?_ ?_
  · show win0_3.index t 0 * 8000 + 1 * (j 0).val = 8000 * t.val + (j 0).val; rw [e6]; omega
  · show win0_3.index t 1 * 42 + 1 * (j 1).val = (j 1).val; rw [e7]; omega

/-- An index of the output array is in point t's block iff each coordinate is in the block's range on its axis. -/
theorem mem_blk (t : Fin cfg0.N) (i : S400000x42.Idx) :
    i ∈ ((cfg0.win 3).blk t).view.set ↔ ∀ a : Fin 2, win0_3.index t a * S8000x42.size a ≤ (i a).val ∧ (i a).val < win0_3.index t a * S8000x42.size a + S8000x42.size a := by
  show i ∈ ((View.whole main_v1).slice (win0_3.rect t)).set ↔ _
  rw [View.set_slice_whole, Rect.mem_set_unit]
  exact Iff.rfl

end Array

/-- The radial region's output array after its 50 grid points is the radial table of the arguments. -/
theorem arr0 (m : (ℓ : Loc nD τ sig) → Buf (Elt Ideal) ℓ) (ρ : Dev nD → PrngReg) (c : Dev nD) :
    (dat0 (F := Ideal) (V1 m ρ) c).arrAt (3 : Fin cfg0.W) cfg0.N
      = Cert.Sph.RBF (m ((c.tc : Thread nD τ).loc main_arg0)) (m ((c.tc : Thread nD τ).loc main_arg2)) (m ((c.tc : Thread nD τ).loc main_arg3)) :=
  (dat0 (F := Ideal) (V1 m ρ) c).arrAt_eq_of_cover 3 _ (fun t _ => flushed_eq m ρ c t) fun i => by
    have hN : cfg0.N = 50 := N_0
    have h0 : (i 0).val < 400000 := (i 0).isLt
    have h1 : (i 1).val < 42 := (i 1).isLt
    obtain ⟨-, -, -, -, -, -, e6, e7⟩ := idx_facts (⟨(i 0).val / 8000, by rw [hN]; omega⟩ : Fin cfg0.N)
    refine ⟨⟨(i 0).val / 8000, by rw [hN]; omega⟩, flush0_3 _, ?_⟩
    rw [mem_blk]
    intro a
    match a with
    | ⟨0, _⟩ =>
      show win0_3.index _ (0 : Fin 2) * 8000 ≤ (i 0).val ∧ (i 0).val < win0_3.index _ (0 : Fin 2) * 8000 + 8000
      rw [e6]; dsimp only; omega
    | ⟨1, _⟩ =>
      show win0_3.index _ (1 : Fin 2) * 42 ≤ (i 1).val ∧ (i 1).val < win0_3.index _ (1 : Fin 2) * 42 + 42
      rw [e7]; omega

end Cert.KernelIdeal.Value0

end
-- ==== Proof.KRegion1.lean ====
/-
  What the angular kernel leaves in its output array: block t of 8000 rows in eight pieces of 1000 rows; entry (t, l) is
  pref_l * P_l(cos(angle[t])).

  One grid point reads 8000 angles and stores eight pieces of 1000 rows and 7 columns. Every piece is the
  concatenation along the columns of pref_l * P_l(c), c the cosine of the piece's 1000 angles and P_0 .. P_6 built by the
  Legendre recurrence in exactly the grouping of `Cert.Sph.pstep`; read at (r, l) a piece is therefore
  `Cert.Sph.cbfEntry` of its r-th angle at degree l, whatever the places at which the eight pieces' arithmetic was cut
  into named parts. The eight pieces tile the staging block, so the block is ONE function of the angle block; the angle
  block at point t is rows 8000 t .. 8000 t + 7999 of the angle argument seen as a column; the 250 output blocks tile the
  output array.
-/
import proofs.«429643_j30408368456387_3_alg».proof.Proof.Gen.KernelIdeal.Frame
import proofs.«429643_j30408368456387_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Value1

open Cert.KernelIdeal Cert.KernelIdeal.Gen Idealize.ShloMosaic Idealize.ShloMosaic.TcCoe Idealize.SL.Sem Idealize.ShloMosaic.ValueIdx

/-! ## One staging block as a function of its angle block -/

/-- One staging block of the angular table: entry (r, l) is the table's entry of the block's r-th angle at degree l. -/
abbrev Gblk (x0 : S8000x1.Idx → EReal) : S8000x7.Idx → EReal := fun y =>
  Cert.Sph.cbfEntry (x0 (ix2 ⟨(y 0).val, idx2_lt0 y⟩ (0 : Fin 1))) (y 1).val

/-- The cosine of a vector at an index is the cosine of the element. -/
theorem cosv_apply {s : Shape} {φ : FTy} (a : FVec Ideal s φ) (i : s.Idx) : cos a i = Ideal.cos (a i) := rfl

/-- Seven columns of 1000 rows concatenated along axis 1, read at (r, l): column l at row r. Column l starts at
    position l because the l columns before it have extent 1 each. -/
theorem concat7_apply {α : Type} (v0 v1 v2 v3 v4 v5 v6 : S1000x1.Idx → α)
    (h : Shape.Concatenates (([⟨S1000x1, v0⟩, ⟨S1000x1, v1⟩, ⟨S1000x1, v2⟩, ⟨S1000x1, v3⟩, ⟨S1000x1, v4⟩, ⟨S1000x1, v5⟩, ⟨S1000x1, v6⟩] : List ((s : Shape) × (s.Idx → α))).map (·.1)) S1000x7 1)
    (r : Fin 1000) (l : Fin 7) :
    concatenate S1000x7 1 [⟨S1000x1, v0⟩, ⟨S1000x1, v1⟩, ⟨S1000x1, v2⟩, ⟨S1000x1, v3⟩, ⟨S1000x1, v4⟩, ⟨S1000x1, v5⟩, ⟨S1000x1, v6⟩] h (ix2 r l)
      = (match l with | ⟨0, _⟩ => v0 | ⟨1, _⟩ => v1 | ⟨2, _⟩ => v2 | ⟨3, _⟩ => v3 | ⟨4, _⟩ => v4 | ⟨5, _⟩ => v5 | ⟨_ + 6, _⟩ => v6) (ix2 r (0 : Fin 1)) := by
  have P : ∀ (k : Nat) (hk : k < 7) (v : S1000x1.Idx → α)
      (hxk : ([⟨S1000x1, v0⟩, ⟨S1000x1, v1⟩, ⟨S1000x1, v2⟩, ⟨S1000x1, v3⟩, ⟨S1000x1, v4⟩, ⟨S1000x1, v5⟩, ⟨S1000x1, v6⟩] : List ((s : Shape) × (s.Idx → α)))[k]'hk = ⟨S1000x1, v⟩)
      (hpre : (((([⟨S1000x1, v0⟩, ⟨S1000x1, v1⟩, ⟨S1000x1, v2⟩, ⟨S1000x1, v3⟩, ⟨S1000x1, v4⟩, ⟨S1000x1, v5⟩, ⟨S1000x1, v6⟩] : List ((s : Shape) × (s.Idx → α))).take k).map (·.1)).map
          fun s => if h : s.rank = S1000x7.rank then s.size ((1 : Fin S1000x7.rank).cast h.symm) else 0).sum = k),
      concatenate S1000x7 1 [⟨S1000x1, v0⟩, ⟨S1000x1, v1⟩, ⟨S1000x1, v2⟩, ⟨S1000x1, v3⟩, ⟨S1000x1, v4⟩, ⟨S1000x1, v5⟩, ⟨S1000x1, v6⟩] h (ix2 r (⟨k, hk⟩ : Fin 7))
        = v (ix2 r (0 : Fin 1)) := fun k hk v hxk hpre =>
    concatenate_apply_piece (1 : Fin S1000x7.rank) _ h (ix2 r (⟨k, hk⟩ : Fin 7)) k hk S1000x1 v hxk rfl k hpre (ix2 r (0 : Fin 1))
      (fun b hb => match b with | ⟨0, _⟩ => rfl | ⟨1, _⟩ => absurd rfl hb) rfl
  match l with
  | ⟨0, _⟩ => exact P 0 _ v0 rfl rfl
  | ⟨1, _⟩ => exact P 1 _ v1 rfl rfl
  | ⟨2, _⟩ => exact P 2 _ v2 rfl rfl
  | ⟨3, _⟩ => exact P 3 _ v3 rfl rfl
  | ⟨4, _⟩ => exact P 4 _ v4 rfl rfl
  | ⟨5, _⟩ => exact P 5 _ v5 rfl rfl
  | ⟨6, _⟩ => exact P 6 _ v6 rfl rfl

/-- A piece of 1000 rows from row o lies inside the 8000 rows of the block. -/
theorem row_lt (o : Nat) (inb : ∀ a, (![o, 0] : Fin 2 → Nat) a + (![1000, 1] : Fin 2 → Nat) a ≤ S8000x1.size a) (r : Fin 1000) : o + r.val < 8000 := by
  have h : o + 1000 ≤ 8000 := inb 0
  omega

/-- Row r of the 1000 angles loaded from row o of the angle block is row o + r of the block. -/
theorem idx_rows (o : Nat) (inb : ∀ a, (![o, 0] : Fin 2 → Nat) a + (![1000, 1] : Fin 2 → Nat) a ≤ S8000x1.size a) (r : Fin 1000) :
    (Rect.unit (s := S8000x1) ![o, 0] ![1000, 1] inb).idx (ix2 r (0 : Fin 1)) = ix2 ⟨o + r.val, row_lt o inb r⟩ (0 : Fin 1) := by
  funext a
  apply Fin.ext
  match a with
  | ⟨0, _⟩ => show o + 1 * r.val = o + r.val; omega
  | ⟨1, _⟩ => rfl

/-- A piece stored at rows o .. o + 999 whose entry (r, l) is the table's entry of angle o + r at degree l is the
    block function `Gblk` under its rectangle: the rectangle places (r, l) at (o + r, l). -/
theorem piece_eq (x0 : S8000x1.Idx → EReal) (o : Nat)
    (inb : ∀ a, (![o, 0] : Fin 2 → Nat) a + (![1000, 7] : Fin 2 → Nat) a ≤ S8000x7.size a)
    (pay : S1000x7.Idx → EReal)
    (hpay : ∀ (r : Fin 1000) (l : Fin 7) (h : o + r.val < 8000), pay (ix2 r l) = Cert.Sph.cbfEntry (x0 (ix2 ⟨o + r.val, h⟩ (0 : Fin 1))) l.val)
    (x : (Rect.unit (s := S8000x7) ![o, 0] ![1000, 7] inb).shape.Idx) :
    pay x = Gblk x0 ((Rect.unit (s := S8000x7) ![o, 0] ![1000, 7] inb).emb x) := by
  have ho : o + 1000 ≤ 8000 := inb 0
  obtain ⟨r, l, rfl⟩ : ∃ (r : Fin 1000) (l : Fin 7), x = ix2 r l := ⟨x 0, x 1, eq_ix2 x⟩
  rw [hpay r l (by omega)]
  show Cert.Sph.cbfEntry (x0 _) _ = Cert.Sph.cbfEntry (x0 _) _
  congr 1
  · congr 1; funext a; apply Fin.ext
    match a with
    | ⟨0, _⟩ => show o + r.val = o + 1 * r.val; omega
    | ⟨1, _⟩ => rfl
  · show l.val = 0 + 1 * l.val; omega

-- the stored pieces' rectangles carry their in-bounds evidence at the offsets' printed names: the index lemma
-- `idx_rows` is matched against them up to the types of that evidence
set_option backward.isDefEq.respectTransparency.types false in
/-- WHAT ONE GRID POINT LEAVES in the output's staging block is `Gblk` of its angle block. The eight stored pieces
    tile the block; each is seven columns pref_l * P_l(cos(angle)) of its own 1000 angles, the Legendre values by the
    recurrence ((2l-1) c P_(l-1) - (l-1) P_(l-2)) / l grouped as in `Cert.Sph.pstep`, so column by column a piece's
    entry is `Cert.Sph.cbfEntry` by unfolding both sides. -/
theorem out1_eq (c : Dev nD) (i : grid1.Coords) (arg1 : Memref sig .tc .vmem S8000x1 .f32) (harg1 : arg1.IsWhole) (arg2 : Memref sig .tc .vmem S8000x7 .f32) (harg2 : arg2.IsWhole)
    (x0 : Vec Ideal S8000x1 .f32) : out1_A_1 (F := Ideal) c i arg1 harg1 arg2 harg2 x0 = Gblk x0 := by
  unfold out1_A_1
  rw [View.read_writes_eq_canon _ _ _ (cover1_A_1 c i arg1 harg1 arg2 harg2 x0)]
  funext y
  refine View.canon_apply_of_pieces (Gblk x0) _ ?_ y (cover1_A_1 c i arg1 harg1 arg2 harg2 x0 y)
  unfold kernelRun1_A
  dsimp only
  sl_unfold_words
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  all_goals
    refine piece_eq x0 _ (by decide) _ (fun r l h => ?_)
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, View.readAt_eq_ld, harg1.read_unread, shapeCast_self]
    refine (concat7_apply _ _ _ _ _ _ _ _ r l).trans ?_
    match l with
    | ⟨0, _⟩ =>
      dsimp only
      simp only [mulf_apply, subf_apply, divf_apply, broadcast_apply, cosv_apply, View.ld, idx_rows]
      rfl
    | ⟨1, _⟩ =>
      dsimp only
      simp only [mulf_apply, subf_apply, divf_apply, broadcast_apply, cosv_apply, View.ld, idx_rows]
      rfl
    | ⟨2, _⟩ =>
      dsimp only
      simp only [mulf_apply, subf_apply, divf_apply, broadcast_apply, cosv_apply, View.ld, idx_rows]
      rfl
    | ⟨3, _⟩ =>
      dsimp only
      simp only [mulf_apply, subf_apply, divf_apply, broadcast_apply, cosv_apply, View.ld, idx_rows]
      rfl
    | ⟨4, _⟩ =>
      dsimp only
      simp only [mulf_apply, subf_apply, divf_apply, broadcast_apply, cosv_apply, View.ld, idx_rows]
      rfl
    | ⟨5, _⟩ =>
      dsimp only
      simp only [mulf_apply, subf_apply, divf_apply, broadcast_apply, cosv_apply, View.ld, idx_rows]
      rfl
    | ⟨6, _⟩ =>
      dsimp only
      simp only [mulf_apply, subf_apply, divf_apply, broadcast_apply, cosv_apply, View.ld, idx_rows]
      rfl

/-! ## The angle block at a point -/

/-- An [a] array cast to [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section Entry

variable (m : (ℓ : Loc nD τ sig) → Buf (Elt Ideal) ℓ) (ρ : Dev nD → PrngReg)

/-- The angle argument is as launched when the radial region has ended: it is no array of that region, and the one
    host operation before that region writes another buffer. -/
theorem arg1_entry (c : Dev nD) : W2 (F := Ideal) m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The angle column the angular region is entered with is the angle argument reshaped to [2000000, 1]. -/
theorem v2_entry (c : Dev nD) :
    (V3 (F := Ideal) m ρ c main_v2 : S2000000x1.Idx → EReal)
      = shapeCast S2000000x1 (m ((c : Thread nD τ).loc main_arg1) : S2000000.Idx → EReal) shapeCasts_S2000000_S2000000x1 := by
  show StableHlo.after hostOps1 (W2 m ρ c) (Proc.devRef .tc main_v2) = _
  after_results
  rw [arg1_entry m ρ c]
  rfl

/-- Row i of that column is angle i. -/
theorem v2_apply (c : Dev nD) (i : Fin 2000000) (u : Fin 1) :
    (V3 (F := Ideal) m ρ c main_v2 : S2000000x1.Idx → EReal) (ix2 i u) = (m ((c : Thread nD τ).loc main_arg1) : S2000000.Idx → EReal) (ix1 i) := by
  rw [v2_entry m ρ c]
  exact shapeCast_a_a1_apply _ _ i u

/-- The block indices over the grid: at point t both windows are at block (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row y of the angle block at point t is angle 8000 t + y. -/
theorem iblk_rows (c : Dev nD) (t : Fin cfg1.N) (y : S8000x1.Idx) (h : 8000 * t.val + (y 0).val < 2000000) :
    (iblk1 (F := Ideal) (V3 m ρ) c 0 t : S8000x1.Idx → EReal) y
      = (m ((c : Thread nD τ).loc main_arg1) : S2000000.Idx → EReal) (ix1 ⟨8000 * t.val + (y 0).val, h⟩) := by
  obtain ⟨e0, e1, e2, e3⟩ := idx_facts1 t
  unfold iblk1
  rw [View.read_apply]
  show (V3 m ρ c main_v2 : S2000000x1.Idx → EReal) (((cfg1.win 0).blk t).view.emb y) = _
  have hy1 : (y 1).val < 1 := (y 1).isLt
  have hk : ((cfg1.win 0).blk t).view.emb y = ix2 (⟨8000 * t.val + (y 0).val, h⟩ : Fin 2000000) (0 : Fin 1) := by
    funext a
    apply Fin.ext
    match a with
    | ⟨0, _⟩ => show win1_0.index t (0 : Fin 2) * 8000 + 1 * (y 0).val = 8000 * t.val + (y 0).val; rw [e0]; omega
    | ⟨1, _⟩ => show win1_0.index t (1 : Fin 2) * 1 + 1 * (y 1).val = 0; rw [e1]; omega
  rw [hk]
  exact v2_apply m ρ c _ _

/-! ## From blocks to the array -/

/-- Block t of the angular table: when the angle block is rows 8000 t .. of the angles, the block function at (j0, j1)
    is the table at (8000 t + j0, j1). -/
theorem block_of_table (X : S8000x1.Idx → EReal) (A : S2000000.Idx → EReal) (t : Nat)
    (hX : ∀ (y : S8000x1.Idx) (h : 8000 * t + (y 0).val < 2000000), X y = A (ix1 ⟨8000 * t + (y 0).val, h⟩))
    (j : S8000x7.Idx) (k : S2000000x7.Idx) (h0 : (k 0).val = 8000 * t + (j 0).val) (h1 : (k 1).val = (j 1).val) :
    Gblk X j = Cert.Sph.CBF A k := by
  have hk0 : (k 0).val < 2000000 := (k 0).isLt
  show Cert.Sph.cbfEntry (X _) _ = Cert.Sph.cbfEntry (A _) _
  rw [hX _ (by show 8000 * t + (j 0).val < 2000000; omega), h1]
  congr 2
  funext a
  apply Fin.ext
  match a with
  | ⟨0, _⟩ => show 8000 * t + (j 0).val = (k 0).val; omega

/-- WHAT POINT t WRITES BACK is block t of the angular table of the angle argument. -/
theorem flushed1_eq (c : Dev nD) (t : Fin cfg1.N) :
    (dat1 (F := Ideal) (V3 m ρ) c).flushed 1 t
      = ((cfg1.win 1).blk t).view.read (Elt Ideal) (Cert.Sph.CBF (m ((c : Thread nD τ).loc main_arg1))) := by
  show (cfg1.win 1).cut (grid1.coords t) ((dat1 (V3 m ρ) c).after 1 t) = _
  rw [after1_1]
  unfold outsAt1
  rw [out1_eq c (grid1.coords t) (ms1_0 t) (hs1_0 t) (ms1_1 t) (hs1_1 t) (iblk1 (V3 m ρ) c 0 t)]
  obtain ⟨e0, e1, e2, e3⟩ := idx_facts1 t
  funext j
  rw [View.read_apply]
  refine block_of_table (iblk1 (V3 m ρ) c 0 t) (m ((c : Thread nD τ).loc main_arg1)) t.val (fun y h => iblk_rows m ρ c t y h) _ _ ?_ ?_
  · show win1_1.index t (0 : Fin 2) * 8000 + 1 * (j 0).val = 8000 * t.val + (j 0).val
    rw [e2]; omega
  · show win1_1.index t (1 : Fin 2) * 7 + 1 * (j 1).val = (j 1).val
    rw [e3]; omega

end Entry

/-- Every index of the output array is in some point's block: row i0 is in block i0 / 8000, and a block holds all
    seven columns. -/
theorem cover1 (i : S2000000x7.Idx) : ∃ t : Fin cfg1.N, (cfg1.win 1).flush t = true ∧ i ∈ ((cfg1.win 1).blk t).view.set := by
  have hN : grid1.N = 250 := N_1
  have hi0 : (i 0).val < 2000000 := (i 0).isLt
  have hi1 : (i 1).val < 7 := (i 1).isLt
  have ht : (i 0).val / 8000 < cfg1.N := by show _ < grid1.N; rw [hN]; omega
  obtain ⟨e0, e1, e2, e3⟩ := idx_facts1 ⟨(i 0).val / 8000, ht⟩
  refine ⟨⟨(i 0).val / 8000, ht⟩, flush1_1 _, ?_⟩
  show i ∈ ((View.whole main_v3).slice (win1_1.rect ⟨(i 0).val / 8000, ht⟩)).set
  rw [View.set_slice_whole, Rect.mem_set_unit]
  intro a
  match a with
  | ⟨0, _⟩ =>
    show win1_1.index ⟨(i 0).val / 8000, ht⟩ (0 : Fin 2) * 8000 ≤ (i 0).val ∧ (i 0).val < win1_1.index ⟨(i 0).val / 8000, ht⟩ (0 : Fin 2) * 8000 + 8000
    rw [e2]; show (i 0).val / 8000 * 8000 ≤ (i 0).val ∧ (i 0).val < (i 0).val / 8000 * 8000 + 8000; omega
  | ⟨1, _⟩ =>
    show win1_1.index ⟨(i 0).val / 8000, ht⟩ (1 : Fin 2) * 7 ≤ (i 1).val ∧ (i 1).val < win1_1.index ⟨(i 0).val / 8000, ht⟩ (1 : Fin 2) * 7 + 7
    rw [e3]; omega

/-- The angular region's output array after its 250 grid points is the angular table of the angle argument. -/
theorem arr1 (m : (ℓ : Loc nD τ sig) → Buf (Elt Ideal) ℓ) (ρ : Dev nD → PrngReg) (c : Dev nD) :
    (dat1 (F := Ideal) (V3 m ρ) c).arrAt (1 : Fin cfg1.W) cfg1.N
      = Cert.Sph.CBF (m ((c.tc : Thread nD τ).loc main_arg1)) :=
  (dat1 (F := Ideal) (V3 m ρ) c).arrAt_eq_of_cover 1 (Cert.Sph.CBF (m ((c.tc : Thread nD τ).loc main_arg1)))
    (fun t _ => flushed1_eq m ρ c t) (fun i => cover1 i)

end Cert.KernelIdeal.Value1

end
-- ==== Proof.PreRange.lean ====
/-
  The precondition's last conjunct read back: every entry of the index argument lies in [-400000, 400000).
-/
import proofs.«429643_j30408368456387_3_alg».proof.Defs
import proofs.«429643_j30408368456387_3_alg».proof.Proof.Gen.Pre_finite_inputs
import proofs.«429643_j30408368456387_3_alg».proof.Proof.Gen.KernelIdeal
import Idealize.ShloMosaic.Lib.ReduceAll
import Idealize.ShloMosaic.Lib.StableHlo.Predicate
import Idealize.ShloMosaic.Lib.ValueIdx

noncomputable section

namespace Cert.Proof.PreRange

open Idealize.ShloMosaic Idealize.ShloMosaic.TcCoe Idealize.SL.Sem Idealize.ShloMosaic.ValueIdx

/-- The scalar shape has exactly one index. -/
instance : Subsingleton Cert.Pre_finite_inputs.S_.Idx := ⟨fun a b => funext fun d => d.elim0⟩

/-- The lower bound's word, read signed, is -400000. -/
theorem toInt_lo : (4294567296#32 : BitVec 32).toInt = -400000 := by decide

/-- The upper bound's word, read signed, is 400000. -/
theorem toInt_hi : (400000#32 : BitVec 32).toInt = 400000 := by decide

/-- A signed "greater or equal" that came out true orders the signed values. -/
theorem sge_one (a b : BitVec 32) (h : IntOp.cmpi .sge a b = 1#1) : b.toInt ≤ a.toInt := by
  unfold IntOp.cmpi at h
  rw [StableHlo.Predicate.ofBool_eq_one_iff] at h
  simpa only [BitVec.sle, decide_eq_true_eq] using h

/-- A signed "less than" that came out true orders the signed values. -/
theorem slt_one (a b : BitVec 32) (h : IntOp.cmpi .slt a b = 1#1) : a.toInt < b.toInt := by
  unfold IntOp.cmpi at h
  rw [StableHlo.Predicate.ofBool_eq_one_iff] at h
  simpa only [BitVec.slt, decide_eq_true_eq] using h

/-- The tail of the printed predicate: if it is 1, its last conjunct — the conjunction over all positions of the two
    signed comparisons of the index word against -400000 and 400000 — holds at every position. -/
theorem part1_range [Cert.Pre_finite_inputs.Facts] (a4 : IVec Cert.Pre_finite_inputs.S2000000 32)
    (v13 : IVec Cert.Pre_finite_inputs.S_ 1) (v16 : IVec Cert.Pre_finite_inputs.S7x6 1)
    (h : Cert.Pre_finite_inputs.fn_part1 (F := Ideal) a4 v13 v16 ix0 = 1#1) (t : Fin 2000000) :
    -400000 ≤ (a4 (ix1 t)).toInt ∧ (a4 (ix1 t)).toInt < 400000 := by
  dsimp only [Cert.Pre_finite_inputs.fn_part1] at h
  -- the result is the conjunction of the float conjuncts with the reduction over all positions
  obtain ⟨-, h24⟩ := IntOp.andi_eq_one.1 h
  -- a conjunction over all positions that is 1 is 1 at position t
  have h23 := Host.reduce_andi_all _ _ _ _ _ h24 (ix1 t)
  obtain ⟨hge, hlt⟩ := IntOp.andi_eq_one.1 h23
  -- a broadcast scalar reads the scalar at every position
  change IntOp.cmpi .sge (a4 (ix1 t)) (4294567296#32) = 1#1 at hge
  change IntOp.cmpi .slt (a4 (ix1 t)) (400000#32) = 1#1 at hlt
  have h1 := sge_one _ _ hge
  have h2 := slt_one _ _ hlt
  rw [toInt_lo] at h1
  rw [toInt_hi] at h2
  exact ⟨h1, h2⟩

/-- Under the precondition every index is at least -400000 and below 400000, read as a signed word. -/
theorem range_of_pre [Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) (t : Fin 2000000) :
    -400000 ≤ ((m ((c.tc : Thread Cert.KernelIdeal.nD Cert.KernelIdeal.τ).loc Cert.KernelIdeal.main_arg4) : IVec Cert.KernelIdeal.S2000000 32) (ix1 t)).toInt
      ∧ ((m ((c.tc : Thread Cert.KernelIdeal.nD Cert.KernelIdeal.τ).loc Cert.KernelIdeal.main_arg4) : IVec Cert.KernelIdeal.S2000000 32) (ix1 t)).toInt < 400000 :=
  -- the printed predicate is its head's float conjuncts followed by the tail, by unfolding
  part1_range _ _ _ (congrFun (hpre c) ix0) t

end Cert.Proof.PreRange

end
-- ==== Proof.RefOps.lean ====
import proofs.«429643_j30408368456387_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The 60 operations of window `main_part0`, in order. -/
abbrev ops_part0 : List (HloOp τ sig (Elt F)) :=
  [ StableHlo.nullary main_cst (fun i => FloatOps.ofBits .f32 (lit0 (S7.rowMajor i))),
    StableHlo.nullary main_cst_0 (constant S_ .f32 0x40A00000#32),
    StableHlo.unary main_cst_0 main_v0 (broadcastInDim S400000 ![] bcast_S_S400000 : (⟨S_, .f32⟩ : BufTy).Contents (Elt F) → (⟨S400000, .f32⟩ : BufTy).Contents (Elt F)),
    StableHlo.binary main_arg0 main_v0 main_v1 (Host.divf : (⟨S400000, .f32⟩ : BufTy).Contents (Elt F) → (⟨S400000, .f32⟩ : BufTy).Contents (Elt F) → (⟨S400000, .f32⟩ : BufTy).Contents (Elt F)),
    StableHlo.binary main_v1 main_v1 main_v2 (mulf : (⟨S400000, .f32⟩ : BufTy).Contents (Elt F) → (⟨S400000, .f32⟩ : BufTy).Contents (Elt F) → (⟨S400000, .f32⟩ : BufTy).Contents (Elt F)),
    StableHlo.binary main_v2 main_v2 main_v3 (mulf : (⟨S400000, .f32⟩ : BufTy).Contents (Elt F) → (⟨S400000, .f32⟩ : BufTy).Contents (Elt F) → (⟨S400000, .f32⟩ : BufTy).Contents (Elt F)),
    StableHlo.binary main_v1 main_v3 main_v4 (mulf : (⟨S400000, .f32⟩ : BufTy).Contents (Elt F) → (⟨S400000, .f32⟩ : BufTy).Contents (Elt F) → (⟨S400000, .f32⟩ : BufTy).Contents (Elt F)),
    StableHlo.binary main_v4 main_v1 main_v5 (mulf : (⟨S400000, .f32⟩ : BufTy).Contents (Elt F) → (⟨S400000, .f32⟩ : BufTy).Contents (Elt F) → (⟨S400000, .f32⟩ : BufTy).Contents (Elt F)),
    StableHlo.binary main_v5 main_v1 main_v6 (mulf : (⟨S400000, .f32⟩ : BufTy).Contents (Elt F) → (⟨S400000, .f32⟩ : BufTy).Contents (Elt F) → (⟨S400000, .f32⟩ : BufTy).Contents (Elt F)),
    StableHlo.nullary main_cst_1 (constant S_ .f32 0x3F800000#32),
    StableHlo.unary main_cst_1 main_v7 (broadcastInDim S400000 ![] bcast_S_S400000 : (⟨S_, .f32⟩ : BufTy).Contents (Elt F) → (⟨S400000, .f32⟩ : BufTy).Contents (Elt F)),
    StableHlo.binary main_v7 main_v1 main_v8 (Host.divf : (⟨S400000, .f32⟩ : BufTy).Contents (Elt F) → (⟨S400000, .f32⟩ : BufTy).Contents (Elt F) → (⟨S400000, .f32⟩ : BufTy).Contents (Elt F)),
    StableHlo.nullary main_cst_2 (constant S_ .f32 0xC1E00000#32),
    StableHlo.unary main_cst_2 main_v9 (broadcastInDim S400000 ![] bcast_S_S400000 : (⟨S_, .f32⟩ : BufTy).Contents (Elt F) → (⟨S400000, .f32⟩ : BufTy).Contents (Elt F)),
    StableHlo.binary main_v9 main_v4 main_v10 (mulf : (⟨S400000, .f32⟩ : BufTy).Contents (Elt F) → (⟨S400000, .f32⟩ : BufTy).Contents (Elt F) → (⟨S400000, .f32⟩ : BufTy).Contents (Elt F)),
    StableHlo.binary main_v8 main_v10 main_v11 (addf : (⟨S400000, .f32⟩ : BufTy).Contents (Elt F) → (⟨S400000, .f32⟩ : BufTy).Contents (Elt F) → (⟨S400000, .f32⟩ : BufTy).Contents (Elt F)),
    StableHlo.nullary main_cst_3 (constant S_ .f32 0x42400000#32),
    StableHlo.unary main_cst_3 main_v12 (broadcastInDim S400000 ![] bcast_S_S400000 : (⟨S_, .f32⟩ : BufTy).Contents (Elt F) → (⟨S400000, .f32⟩ : BufTy).Contents (Elt F)),
    StableHlo.binary main_v12 main_v5 main_v13 (mulf : (⟨S400000, .f32⟩ : BufTy).Contents (Elt F) → (⟨S400000, .f32⟩ : BufTy).Contents (Elt F) → (⟨S400000, .f32⟩ : BufTy).Contents (Elt F)),
    StableHlo.binary main_v11 main_v13 main_v14 (addf : (⟨S400000, .f32⟩ : BufTy).Contents (Elt F) → (⟨S400000, .f32⟩ : BufTy).Contents (Elt F) → (⟨S400000, .f32⟩ : BufTy).Contents (Elt F)),
    StableHlo.nullary main_cst_4 (constant S_ .f32 0xC1A80000#32),
    StableHlo.unary main_cst_4 main_v15 (broadcastInDim S400000 ![] bcast_S_S400000 : (⟨S_, .f32⟩ : BufTy).Contents (Elt F) → (⟨S400000, .f32⟩ : BufTy).Contents (Elt F)),
    StableHlo.binary main_v15 main_v6 main_v16 (mulf : (⟨S400000, .f32⟩ : BufTy).Contents (Elt F) → (⟨S400000, .f32⟩ : BufTy).Contents (Elt F) → (⟨S400000, .f32⟩ : BufTy).Contents (Elt F)),
    StableHlo.binary main_v14 main_v16 main_v17 (addf : (⟨S400000, .f32⟩ : BufTy).Contents (Elt F) → (⟨S400000, .f32⟩ : BufTy).Contents (Elt F) → (⟨S400000, .f32⟩ : BufTy).Contents (Elt F)),
    StableHlo.unary main_arg2 main_v18 ((extractStridedSlice S1x6 ![0, 0] · slices_S7x6_S1x6_0_0) : (⟨S7x6, .f32⟩ : BufTy).Contents (Elt F) → (⟨S1x6, .f32⟩ : BufTy).Contents (Elt F)),
    StableHlo.reshape main_v18 main_v19 rfl shapeCasts_S1x6_S6,
    StableHlo.unary main_v19 main_v20 (broadcastInDim S6x1 ![0] bcast_S6_S6x1_0 : (⟨S6, .f32⟩ : BufTy).Contents (Elt F) → (⟨S6x1, .f32⟩ : BufTy).Contents (Elt F)),
    StableHlo.unary main_v1 main_v21 (broadcastInDim S1x400000 ![1] bcast_S400000_S1x400000_1 : (⟨S400000, .f32⟩ : BufTy).Contents (Elt F) → (⟨S1x400000, .f32⟩ : BufTy).Contents (Elt F)),
    StableHlo.unary main_v20 main_v22 (broadcastInDim S6x400000 ![0, 1] bcast_S6x1_S6x400000_0_1 : (⟨S6x1, .f32⟩ : BufTy).Contents (Elt F) → (⟨S6x400000, .f32⟩ : BufTy).Contents (Elt F)),
    StableHlo.unary main_v21 main_v23 (broadcastInDim S6x400000 ![0, 1] bcast_S1x400000_S6x400000_0_1 : (⟨S1x400000, .f32⟩ : BufTy).Contents (Elt F) → (⟨S6x400000, .f32⟩ : BufTy).Contents (Elt F)),
    StableHlo.binary main_v22 main_v23 main_v24 (mulf : (⟨S6x400000, .f32⟩ : BufTy).Contents (Elt F) → (⟨S6x400000, .f32⟩ : BufTy).Contents (Elt F) → (⟨S6x400000, .f32⟩ : BufTy).Contents (Elt F)),
    StableHlo.unary main_arg3 main_v25 ((extractStridedSlice S1x6 ![0, 0] · slices_S7x6_S1x6_0_0) : (⟨S7x6, .f32⟩ : BufTy).Contents (Elt F) → (⟨S1x6, .f32⟩ : BufTy).Contents (Elt F)),
    StableHlo.reshape main_v25 main_v26 rfl shapeCasts_S1x6_S6,
    StableHlo.unary main_v26 main_v27 (broadcastInDim S6x1 ![0] bcast_S6_S6x1_0 : (⟨S6, .f32⟩ : BufTy).Contents (Elt F) → (⟨S6x1, .f32⟩ : BufTy).Contents (Elt F)),
    StableHlo.unary main_v24 main_v28 (Host.sin : (⟨S6x400000, .f32⟩ : BufTy).Contents (Elt F) → (⟨S6x400000, .f32⟩ : BufTy).Contents (Elt F)),
    StableHlo.binary main_v28 main_v24 main_v29 (Host.divf : (⟨S6x400000, .f32⟩ : BufTy).Contents (Elt F) → (⟨S6x400000, .f32⟩ : BufTy).Contents (Elt F) → (⟨S6x400000, .f32⟩ : BufTy).Contents (Elt F)),
    StableHlo.unary main_v27 main_v30 (broadcastInDim S6x400000 ![0, 1] bcast_S6x1_S6x400000_0_1 : (⟨S6x1, .f32⟩ : BufTy).Contents (Elt F) → (⟨S6x400000, .f32⟩ : BufTy).Contents (Elt F)),
    StableHlo.binary main_v30 main_v29 main_v31 (mulf : (⟨S6x400000, .f32⟩ : BufTy).Contents (Elt F) → (⟨S6x400000, .f32⟩ : BufTy).Contents (Elt F) → (⟨S6x400000, .f32⟩ : BufTy).Contents (Elt F)),
    StableHlo.unary main_arg2 main_v32 ((extractStridedSlice S1x6 ![1, 0] · slices_S7x6_S1x6_1_0) : (⟨S7x6, .f32⟩ : BufTy).Contents (Elt F) → (⟨S1x6, .f32⟩ : BufTy).Contents (Elt F)),
    StableHlo.reshape main_v32 main_v33 rfl shapeCasts_S1x6_S6,
    StableHlo.unary main_v33 main_v34 (broadcastInDim S6x1 ![0] bcast_S6_S6x1_0 : (⟨S6, .f32⟩ : BufTy).Contents (Elt F) → (⟨S6x1, .f32⟩ : BufTy).Contents (Elt F)),
    StableHlo.unary main_v1 main_v35 (broadcastInDim S1x400000 ![1] bcast_S400000_S1x400000_1 : (⟨S400000, .f32⟩ : BufTy).Contents (Elt F) → (⟨S1x400000, .f32⟩ : BufTy).Contents (Elt F)),
    StableHlo.unary main_v34 main_v36 (broadcastInDim S6x400000 ![0, 1] bcast_S6x1_S6x400000_0_1 : (⟨S6x1, .f32⟩ : BufTy).Contents (Elt F) → (⟨S6x400000, .f32⟩ : BufTy).Contents (Elt F)),
    StableHlo.unary main_v35 main_v37 (broadcastInDim S6x400000 ![0, 1] bcast_S1x400000_S6x400000_0_1 : (⟨S1x400000, .f32⟩ : BufTy).Contents (Elt F) → (⟨S6x400000, .f32⟩ : BufTy).Contents (Elt F)),
    StableHlo.binary main_v36 main_v37 main_v38 (mulf : (⟨S6x400000, .f32⟩ : BufTy).Contents (Elt F) → (⟨S6x400000, .f32⟩ : BufTy).Contents (Elt F) → (⟨S6x400000, .f32⟩ : BufTy).Contents (Elt F)),
    StableHlo.unary main_arg3 main_v39 ((extractStridedSlice S1x6 ![1, 0] · slices_S7x6_S1x6_1_0) : (⟨S7x6, .f32⟩ : BufTy).Contents (Elt F) → (⟨S1x6, .f32⟩ : BufTy).Contents (Elt F)),
    StableHlo.reshape main_v39 main_v40 rfl shapeCasts_S1x6_S6,
    StableHlo.unary main_v40 main_v41 (broadcastInDim S6x1 ![0] bcast_S6_S6x1_0 : (⟨S6, .f32⟩ : BufTy).Contents (Elt F) → (⟨S6x1, .f32⟩ : BufTy).Contents (Elt F)),
    StableHlo.unary main_v38 main_v42 (Host.sin : (⟨S6x400000, .f32⟩ : BufTy).Contents (Elt F) → (⟨S6x400000, .f32⟩ : BufTy).Contents (Elt F)),
    StableHlo.binary main_v42 main_v38 main_v43 (Host.divf : (⟨S6x400000, .f32⟩ : BufTy).Contents (Elt F) → (⟨S6x400000, .f32⟩ : BufTy).Contents (Elt F) → (⟨S6x400000, .f32⟩ : BufTy).Contents (Elt F)),
    StableHlo.unary main_v38 main_v44 (Host.sin : (⟨S6x400000, .f32⟩ : BufTy).Contents (Elt F) → (⟨S6x400000, .f32⟩ : BufTy).Contents (Elt F)),
    StableHlo.binary main_v38 main_v38 main_v45 (mulf : (⟨S6x400000, .f32⟩ : BufTy).Contents (Elt F) → (⟨S6x400000, .f32⟩ : BufTy).Contents (Elt F) → (⟨S6x400000, .f32⟩ : BufTy).Contents (Elt F)),
    StableHlo.binary main_v44 main_v45 main_v46 (Host.divf : (⟨S6x400000, .f32⟩ : BufTy).Contents (Elt F) → (⟨S6x400000, .f32⟩ : BufTy).Contents (Elt F) → (⟨S6x400000, .f32⟩ : BufTy).Contents (Elt F)),
    StableHlo.unary main_v38 main_v47 (Host.cos : (⟨S6x400000, .f32⟩ : BufTy).Contents (Elt F) → (⟨S6x400000, .f32⟩ : BufTy).Contents (Elt F)),
    StableHlo.binary main_v47 main_v38 main_v48 (Host.divf : (⟨S6x400000, .f32⟩ : BufTy).Contents (Elt F) → (⟨S6x400000, .f32⟩ : BufTy).Contents (Elt F) → (⟨S6x400000, .f32⟩ : BufTy).Contents (Elt F)),
    StableHlo.binary main_v46 main_v48 main_v49 (subf : (⟨S6x400000, .f32⟩ : BufTy).Contents (Elt F) → (⟨S6x400000, .f32⟩ : BufTy).Contents (Elt F) → (⟨S6x400000, .f32⟩ : BufTy).Contents (Elt F)),
    StableHlo.unary main_v41 main_v50 (broadcastInDim S6x400000 ![0, 1] bcast_S6x1_S6x400000_0_1 : (⟨S6x1, .f32⟩ : BufTy).Contents (Elt F) → (⟨S6x400000, .f32⟩ : BufTy).Contents (Elt F)),
    StableHlo.binary main_v50 main_v49 main_v51 (mulf : (⟨S6x400000, .f32⟩ : BufTy).Contents (Elt F) → (⟨S6x400000, .f32⟩ : BufTy).Contents (Elt F) → (⟨S6x400000, .f32⟩ : BufTy).Contents (Elt F)),
    StableHlo.unary main_arg2 main_v52 ((extractStridedSlice S1x6 ![2, 0] · slices_S7x6_S1x6_2_0) : (⟨S7x6, .f32⟩ : BufTy).Contents (Elt F) → (⟨S1x6, .f32⟩ : BufTy).Contents (Elt F)),
    StableHlo.reshape main_v52 main_v53 rfl shapeCasts_S1x6_S6 ]

/-- The 60 operations of window `main_part1`, in order. -/
abbrev ops_part1 : List (HloOp τ sig (Elt F)) :=
  [ StableHlo.unary main_v53 main_v54 (broadcastInDim S6x1 ![0] bcast_S6_S6x1_0 : (⟨S6, .f32⟩ : BufTy).Contents (Elt F) → (⟨S6x1, .f32⟩ : BufTy).Contents (Elt F)),
    StableHlo.unary main_v1 main_v55 (broadcastInDim S1x400000 ![1] bcast_S400000_S1x400000_1 : (⟨S400000, .f32⟩ : BufTy).Contents (Elt F) → (⟨S1x400000, .f32⟩ : BufTy).Contents (Elt F)),
    StableHlo.unary main_v54 main_v56 (broadcastInDim S6x400000 ![0, 1] bcast_S6x1_S6x400000_0_1 : (⟨S6x1, .f32⟩ : BufTy).Contents (Elt F) → (⟨S6x400000, .f32⟩ : BufTy).Contents (Elt F)),
    StableHlo.unary main_v55 main_v57 (broadcastInDim S6x400000 ![0, 1] bcast_S1x400000_S6x400000_0_1 : (⟨S1x400000, .f32⟩ : BufTy).Contents (Elt F) → (⟨S6x400000, .f32⟩ : BufTy).Contents (Elt F)),
    StableHlo.binary main_v56 main_v57 main_v58 (mulf : (⟨S6x400000, .f32⟩ : BufTy).Contents (Elt F) → (⟨S6x400000, .f32⟩ : BufTy).Contents (Elt F) → (⟨S6x400000, .f32⟩ : BufTy).Contents (Elt F)),
    StableHlo.unary main_arg3 main_v59 ((extractStridedSlice S1x6 ![2, 0] · slices_S7x6_S1x6_2_0) : (⟨S7x6, .f32⟩ : BufTy).Contents (Elt F) → (⟨S1x6, .f32⟩ : BufTy).Contents (Elt F)),
    StableHlo.reshape main_v59 main_v60 rfl shapeCasts_S1x6_S6,
    StableHlo.unary main_v60 main_v61 (broadcastInDim S6x1 ![0] bcast_S6_S6x1_0 : (⟨S6, .f32⟩ : BufTy).Contents (Elt F) → (⟨S6x1, .f32⟩ : BufTy).Contents (Elt F)),
    StableHlo.unary main_v58 main_v62 (Host.sin : (⟨S6x400000, .f32⟩ : BufTy).Contents (Elt F) → (⟨S6x400000, .f32⟩ : BufTy).Contents (Elt F)),
    StableHlo.binary main_v62 main_v58 main_v63 (Host.divf : (⟨S6x400000, .f32⟩ : BufTy).Contents (Elt F) → (⟨S6x400000, .f32⟩ : BufTy).Contents (Elt F) → (⟨S6x400000, .f32⟩ : BufTy).Contents (Elt F)),
    StableHlo.unary main_v58 main_v64 (Host.sin : (⟨S6x400000, .f32⟩ : BufTy).Contents (Elt F) → (⟨S6x400000, .f32⟩ : BufTy).Contents (Elt F)),
    StableHlo.binary main_v58 main_v58 main_v65 (mulf : (⟨S6x400000, .f32⟩ : BufTy).Contents (Elt F) → (⟨S6x400000, .f32⟩ : BufTy).Contents (Elt F) → (⟨S6x400000, .f32⟩ : BufTy).Contents (Elt F)),
    StableHlo.binary main_v64 main_v65 main_v66 (Host.divf : (⟨S6x400000, .f32⟩ : BufTy).Contents (Elt F) → (⟨S6x400000, .f32⟩ : BufTy).Contents (Elt F) → (⟨S6x400000, .f32⟩ : BufTy).Contents (Elt F)),
    StableHlo.unary main_v58 main_v67 (Host.cos : (⟨S6x400000, .f32⟩ : BufTy).Contents (Elt F) → (⟨S6x400000, .f32⟩ : BufTy).Contents (Elt F)),
    StableHlo.binary main_v67 main_v58 main_v68 (Host.divf : (⟨S6x400000, .f32⟩ : BufTy).Contents (Elt F) → (⟨S6x400000, .f32⟩ : BufTy).Contents (Elt F) → (⟨S6x400000, .f32⟩ : BufTy).Contents (Elt F)),
    StableHlo.binary main_v66 main_v68 main_v69 (subf : (⟨S6x400000, .f32⟩ : BufTy).Contents (Elt F) → (⟨S6x400000, .f32⟩ : BufTy).Contents (Elt F) → (⟨S6x400000, .f32⟩ : BufTy).Contents (Elt F)),
    StableHlo.nullary main_cst_5 (constant S_ .f32 0x40400000#32),
    StableHlo.unary main_cst_5 main_v70 (broadcastInDim S6x400000 ![] bcast_S_S6x400000 : (⟨S_, .f32⟩ : BufTy).Contents (Elt F) → (⟨S6x400000, .f32⟩ : BufTy).Contents (Elt F)),
    StableHlo.binary main_v70 main_v58 main_v71 (Host.divf : (⟨S6x400000, .f32⟩ : BufTy).Contents (Elt F) → (⟨S6x400000, .f32⟩ : BufTy).Contents (Elt F) → (⟨S6x400000, .f32⟩ : BufTy).Contents (Elt F)),
    StableHlo.binary main_v71 main_v69 main_v72 (mulf : (⟨S6x400000, .f32⟩ : BufTy).Contents (Elt F) → (⟨S6x400000, .f32⟩ : BufTy).Contents (Elt F) → (⟨S6x400000, .f32⟩ : BufTy).Contents (Elt F)),
    StableHlo.binary main_v72 main_v63 main_v73 (subf : (⟨S6x400000, .f32⟩ : BufTy).Contents (Elt F) → (⟨S6x400000, .f32⟩ : BufTy).Contents (Elt F) → (⟨S6x400000, .f32⟩ : BufTy).Contents (Elt F)),
    StableHlo.unary main_v61 main_v74 (broadcastInDim S6x400000 ![0, 1] bcast_S6x1_S6x400000_0_1 : (⟨S6x1, .f32⟩ : BufTy).Contents (Elt F) → (⟨S6x400000, .f32⟩ : BufTy).Contents (Elt F)),
    StableHlo.binary main_v74 main_v73 main_v75 (mulf : (⟨S6x400000, .f32⟩ : BufTy).Contents (Elt F) → (⟨S6x400000, .f32⟩ : BufTy).Contents (Elt F) → (⟨S6x400000, .f32⟩ : BufTy).Contents (Elt F)),
    StableHlo.unary main_arg2 main_v76 ((extractStridedSlice S1x6 ![3, 0] · slices_S7x6_S1x6_3_0) : (⟨S7x6, .f32⟩ : BufTy).Contents (Elt F) → (⟨S1x6, .f32⟩ : BufTy).Contents (Elt F)),
    StableHlo.reshape main_v76 main_v77 rfl shapeCasts_S1x6_S6,
    StableHlo.unary main_v77 main_v78 (broadcastInDim S6x1 ![0] bcast_S6_S6x1_0 : (⟨S6, .f32⟩ : BufTy).Contents (Elt F) → (⟨S6x1, .f32⟩ : BufTy).Contents (Elt F)),
    StableHlo.unary main_v1 main_v79 (broadcastInDim S1x400000 ![1] bcast_S400000_S1x400000_1 : (⟨S400000, .f32⟩ : BufTy).Contents (Elt F) → (⟨S1x400000, .f32⟩ : BufTy).Contents (Elt F)),
    StableHlo.unary main_v78 main_v80 (broadcastInDim S6x400000 ![0, 1] bcast_S6x1_S6x400000_0_1 : (⟨S6x1, .f32⟩ : BufTy).Contents (Elt F) → (⟨S6x400000, .f32⟩ : BufTy).Contents (Elt F)),
    StableHlo.unary main_v79 main_v81 (broadcastInDim S6x400000 ![0, 1] bcast_S1x400000_S6x400000_0_1 : (⟨S1x400000, .f32⟩ : BufTy).Contents (Elt F) → (⟨S6x400000, .f32⟩ : BufTy).Contents (Elt F)),
    StableHlo.binary main_v80 main_v81 main_v82 (mulf : (⟨S6x400000, .f32⟩ : BufTy).Contents (Elt F) → (⟨S6x400000, .f32⟩ : BufTy).Contents (Elt F) → (⟨S6x400000, .f32⟩ : BufTy).Contents (Elt F)),
    StableHlo.unary main_arg3 main_v83 ((extractStridedSlice S1x6 ![3, 0] · slices_S7x6_S1x6_3_0) : (⟨S7x6, .f32⟩ : BufTy).Contents (Elt F) → (⟨S1x6, .f32⟩ : BufTy).Contents (Elt F)),
    StableHlo.reshape main_v83 main_v84 rfl shapeCasts_S1x6_S6,
    StableHlo.unary main_v84 main_v85 (broadcastInDim S6x1 ![0] bcast_S6_S6x1_0 : (⟨S6, .f32⟩ : BufTy).Contents (Elt F) → (⟨S6x1, .f32⟩ : BufTy).Contents (Elt F)),
    StableHlo.unary main_v82 main_v86 (Host.sin : (⟨S6x400000, .f32⟩ : BufTy).Contents (Elt F) → (⟨S6x400000, .f32⟩ : BufTy).Contents (Elt F)),
    StableHlo.binary main_v86 main_v82 main_v87 (Host.divf : (⟨S6x400000, .f32⟩ : BufTy).Contents (Elt F) → (⟨S6x400000, .f32⟩ : BufTy).Contents (Elt F) → (⟨S6x400000, .f32⟩ : BufTy).Contents (Elt F)),
    StableHlo.unary main_v82 main_v88 (Host.sin : (⟨S6x400000, .f32⟩ : BufTy).Contents (Elt F) → (⟨S6x400000, .f32⟩ : BufTy).Contents (Elt F)),
    StableHlo.binary main_v82 main_v82 main_v89 (mulf : (⟨S6x400000, .f32⟩ : BufTy).Contents (Elt F) → (⟨S6x400000, .f32⟩ : BufTy).Contents (Elt F) → (⟨S6x400000, .f32⟩ : BufTy).Contents (Elt F)),
    StableHlo.binary main_v88 main_v89 main_v90 (Host.divf : (⟨S6x400000, .f32⟩ : BufTy).Contents (Elt F) → (⟨S6x400000, .f32⟩ : BufTy).Contents (Elt F) → (⟨S6x400000, .f32⟩ : BufTy).Contents (Elt F)),
    StableHlo.unary main_v82 main_v91 (Host.cos : (⟨S6x400000, .f32⟩ : BufTy).Contents (Elt F) → (⟨S6x400000, .f32⟩ : BufTy).Contents (Elt F)),
    StableHlo.binary main_v91 main_v82 main_v92 (Host.divf : (⟨S6x400000, .f32⟩ : BufTy).Contents (Elt F) → (⟨S6x400000, .f32⟩ : BufTy).Contents (Elt F) → (⟨S6x400000, .f32⟩ : BufTy).Contents (Elt F)),
    StableHlo.binary main_v90 main_v92 main_v93 (subf : (⟨S6x400000, .f32⟩ : BufTy).Contents (Elt F) → (⟨S6x400000, .f32⟩ : BufTy).Contents (Elt F) → (⟨S6x400000, .f32⟩ : BufTy).Contents (Elt F)),
    StableHlo.nullary main_cst_6 (constant S_ .f32 0x40400000#32),
    StableHlo.unary main_cst_6 main_v94 (broadcastInDim S6x400000 ![] bcast_S_S6x400000 : (⟨S_, .f32⟩ : BufTy).Contents (Elt F) → (⟨S6x400000, .f32⟩ : BufTy).Contents (Elt F)),
    StableHlo.binary main_v94 main_v82 main_v95 (Host.divf : (⟨S6x400000, .f32⟩ : BufTy).Contents (Elt F) → (⟨S6x400000, .f32⟩ : BufTy).Contents (Elt F) → (⟨S6x400000, .f32⟩ : BufTy).Contents (Elt F)),
    StableHlo.binary main_v95 main_v93 main_v96 (mulf : (⟨S6x400000, .f32⟩ : BufTy).Contents (Elt F) → (⟨S6x400000, .f32⟩ : BufTy).Contents (Elt F) → (⟨S6x400000, .f32⟩ : BufTy).Contents (Elt F)),
    StableHlo.binary main_v96 main_v87 main_v97 (subf : (⟨S6x400000, .f32⟩ : BufTy).Contents (Elt F) → (⟨S6x400000, .f32⟩ : BufTy).Contents (Elt F) → (⟨S6x400000, .f32⟩ : BufTy).Contents (Elt F)),
    StableHlo.nullary main_cst_7 (constant S_ .f32 0x40A00000#32),
    StableHlo.unary main_cst_7 main_v98 (broadcastInDim S6x400000 ![] bcast_S_S6x400000 : (⟨S_, .f32⟩ : BufTy).Contents (Elt F) → (⟨S6x400000, .f32⟩ : BufTy).Contents (Elt F)),
    StableHlo.binary main_v98 main_v82 main_v99 (Host.divf : (⟨S6x400000, .f32⟩ : BufTy).Contents (Elt F) → (⟨S6x400000, .f32⟩ : BufTy).Contents (Elt F) → (⟨S6x400000, .f32⟩ : BufTy).Contents (Elt F)),
    StableHlo.binary main_v99 main_v97 main_v100 (mulf : (⟨S6x400000, .f32⟩ : BufTy).Contents (Elt F) → (⟨S6x400000, .f32⟩ : BufTy).Contents (Elt F) → (⟨S6x400000, .f32⟩ : BufTy).Contents (Elt F)),
    StableHlo.binary main_v100 main_v93 main_v101 (subf : (⟨S6x400000, .f32⟩ : BufTy).Contents (Elt F) → (⟨S6x400000, .f32⟩ : BufTy).Contents (Elt F) → (⟨S6x400000, .f32⟩ : BufTy).Contents (Elt F)),
    StableHlo.unary main_v85 main_v102 (broadcastInDim S6x400000 ![0, 1] bcast_S6x1_S6x400000_0_1 : (⟨S6x1, .f32⟩ : BufTy).Contents (Elt F) → (⟨S6x400000, .f32⟩ : BufTy).Contents (Elt F)),
    StableHlo.binary main_v102 main_v101 main_v103 (mulf : (⟨S6x400000, .f32⟩ : BufTy).Contents (Elt F) → (⟨S6x400000, .f32⟩ : BufTy).Contents (Elt F) → (⟨S6x400000, .f32⟩ : BufTy).Contents (Elt F)),
    StableHlo.unary main_arg2 main_v104 ((extractStridedSlice S1x6 ![4, 0] · slices_S7x6_S1x6_4_0) : (⟨S7x6, .f32⟩ : BufTy).Contents (Elt F) → (⟨S1x6, .f32⟩ : BufTy).Contents (Elt F)),
    StableHlo.reshape main_v104 main_v105 rfl shapeCasts_S1x6_S6,
    StableHlo.unary main_v105 main_v106 (broadcastInDim S6x1 ![0] bcast_S6_S6x1_0 : (⟨S6, .f32⟩ : BufTy).Contents (Elt F) → (⟨S6x1, .f32⟩ : BufTy).Contents (Elt F)),
    StableHlo.unary main_v1 main_v107 (broadcastInDim S1x400000 ![1] bcast_S400000_S1x400000_1 : (⟨S400000, .f32⟩ : BufTy).Contents (Elt F) → (⟨S1x400000, .f32⟩ : BufTy).Contents (Elt F)),
    StableHlo.unary main_v106 main_v108 (broadcastInDim S6x400000 ![0, 1] bcast_S6x1_S6x400000_0_1 : (⟨S6x1, .f32⟩ : BufTy).Contents (Elt F) → (⟨S6x400000, .f32⟩ : BufTy).Contents (Elt F)),
    StableHlo.unary main_v107 main_v109 (broadcastInDim S6x400000 ![0, 1] bcast_S1x400000_S6x400000_0_1 : (⟨S1x400000, .f32⟩ : BufTy).Contents (Elt F) → (⟨S6x400000, .f32⟩ : BufTy).Contents (Elt F)),
    StableHlo.binary main_v108 main_v109 main_v110 (mulf : (⟨S6x400000, .f32⟩ : BufTy).Contents (Elt F) → (⟨S6x400000, .f32⟩ : BufTy).Contents (Elt F) → (⟨S6x400000, .f32⟩ : BufTy).Contents (Elt F)) ]

/-- The 60 operations of window `main_part2`, in order. -/
abbrev ops_part2 : List (HloOp τ sig (Elt F)) :=
  [ StableHlo.unary main_arg3 main_v111 ((extractStridedSlice S1x6 ![4, 0] · slices_S7x6_S1x6_4_0) : (⟨S7x6, .f32⟩ : BufTy).Contents (Elt F) → (⟨S1x6, .f32⟩ : BufTy).Contents (Elt F)),
    StableHlo.reshape main_v111 main_v112 rfl shapeCasts_S1x6_S6,
    StableHlo.unary main_v112 main_v113 (broadcastInDim S6x1 ![0] bcast_S6_S6x1_0 : (⟨S6, .f32⟩ : BufTy).Contents (Elt F) → (⟨S6x1, .f32⟩ : BufTy).Contents (Elt F)),
    StableHlo.unary main_v110 main_v114 (Host.sin : (⟨S6x400000, .f32⟩ : BufTy).Contents (Elt F) → (⟨S6x400000, .f32⟩ : BufTy).Contents (Elt F)),
    StableHlo.binary main_v114 main_v110 main_v115 (Host.divf : (⟨S6x400000, .f32⟩ : BufTy).Contents (Elt F) → (⟨S6x400000, .f32⟩ : BufTy).Contents (Elt F) → (⟨S6x400000, .f32⟩ : BufTy).Contents (Elt F)),
    StableHlo.unary main_v110 main_v116 (Host.sin : (⟨S6x400000, .f32⟩ : BufTy).Contents (Elt F) → (⟨S6x400000, .f32⟩ : BufTy).Contents (Elt F)),
    StableHlo.binary main_v110 main_v110 main_v117 (mulf : (⟨S6x400000, .f32⟩ : BufTy).Contents (Elt F) → (⟨S6x400000, .f32⟩ : BufTy).Contents (Elt F) → (⟨S6x400000, .f32⟩ : BufTy).Contents (Elt F)),
    StableHlo.binary main_v116 main_v117 main_v118 (Host.divf : (⟨S6x400000, .f32⟩ : BufTy).Contents (Elt F) → (⟨S6x400000, .f32⟩ : BufTy).Contents (Elt F) → (⟨S6x400000, .f32⟩ : BufTy).Contents (Elt F)),
    StableHlo.unary main_v110 main_v119 (Host.cos : (⟨S6x400000, .f32⟩ : BufTy).Contents (Elt F) → (⟨S6x400000, .f32⟩ : BufTy).Contents (Elt F)),
    StableHlo.binary main_v119 main_v110 main_v120 (Host.divf : (⟨S6x400000, .f32⟩ : BufTy).Contents (Elt F) → (⟨S6x400000, .f32⟩ : BufTy).Contents (Elt F) → (⟨S6x400000, .f32⟩ : BufTy).Contents (Elt F)),
    StableHlo.binary main_v118 main_v120 main_v121 (subf : (⟨S6x400000, .f32⟩ : BufTy).Contents (Elt F) → (⟨S6x400000, .f32⟩ : BufTy).Contents (Elt F) → (⟨S6x400000, .f32⟩ : BufTy).Contents (Elt F)),
    StableHlo.nullary main_cst_8 (constant S_ .f32 0x40400000#32),
    StableHlo.unary main_cst_8 main_v122 (broadcastInDim S6x400000 ![] bcast_S_S6x400000 : (⟨S_, .f32⟩ : BufTy).Contents (Elt F) → (⟨S6x400000, .f32⟩ : BufTy).Contents (Elt F)),
    StableHlo.binary main_v122 main_v110 main_v123 (Host.divf : (⟨S6x400000, .f32⟩ : BufTy).Contents (Elt F) → (⟨S6x400000, .f32⟩ : BufTy).Contents (Elt F) → (⟨S6x400000, .f32⟩ : BufTy).Contents (Elt F)),
    StableHlo.binary main_v123 main_v121 main_v124 (mulf : (⟨S6x400000, .f32⟩ : BufTy).Contents (Elt F) → (⟨S6x400000, .f32⟩ : BufTy).Contents (Elt F) → (⟨S6x400000, .f32⟩ : BufTy).Contents (Elt F)),
    StableHlo.binary main_v124 main_v115 main_v125 (subf : (⟨S6x400000, .f32⟩ : BufTy).Contents (Elt F) → (⟨S6x400000, .f32⟩ : BufTy).Contents (Elt F) → (⟨S6x400000, .f32⟩ : BufTy).Contents (Elt F)),
    StableHlo.nullary main_cst_9 (constant S_ .f32 0x40A00000#32),
    StableHlo.unary main_cst_9 main_v126 (broadcastInDim S6x400000 ![] bcast_S_S6x400000 : (⟨S_, .f32⟩ : BufTy).Contents (Elt F) → (⟨S6x400000, .f32⟩ : BufTy).Contents (Elt F)),
    StableHlo.binary main_v126 main_v110 main_v127 (Host.divf : (⟨S6x400000, .f32⟩ : BufTy).Contents (Elt F) → (⟨S6x400000, .f32⟩ : BufTy).Contents (Elt F) → (⟨S6x400000, .f32⟩ : BufTy).Contents (Elt F)),
    StableHlo.binary main_v127 main_v125 main_v128 (mulf : (⟨S6x400000, .f32⟩ : BufTy).Contents (Elt F) → (⟨S6x400000, .f32⟩ : BufTy).Contents (Elt F) → (⟨S6x400000, .f32⟩ : BufTy).Contents (Elt F)),
    StableHlo.binary main_v128 main_v121 main_v129 (subf : (⟨S6x400000, .f32⟩ : BufTy).Contents (Elt F) → (⟨S6x400000, .f32⟩ : BufTy).Contents (Elt F) → (⟨S6x400000, .f32⟩ : BufTy).Contents (Elt F)),
    StableHlo.nullary main_cst_10 (constant S_ .f32 0x40E00000#32),
    StableHlo.unary main_cst_10 main_v130 (broadcastInDim S6x400000 ![] bcast_S_S6x400000 : (⟨S_, .f32⟩ : BufTy).Contents (Elt F) → (⟨S6x400000, .f32⟩ : BufTy).Contents (Elt F)),
    StableHlo.binary main_v130 main_v110 main_v131 (Host.divf : (⟨S6x400000, .f32⟩ : BufTy).Contents (Elt F) → (⟨S6x400000, .f32⟩ : BufTy).Contents (Elt F) → (⟨S6x400000, .f32⟩ : BufTy).Contents (Elt F)),
    StableHlo.binary main_v131 main_v129 main_v132 (mulf : (⟨S6x400000, .f32⟩ : BufTy).Contents (Elt F) → (⟨S6x400000, .f32⟩ : BufTy).Contents (Elt F) → (⟨S6x400000, .f32⟩ : BufTy).Contents (Elt F)),
    StableHlo.binary main_v132 main_v125 main_v133 (subf : (⟨S6x400000, .f32⟩ : BufTy).Contents (Elt F) → (⟨S6x400000, .f32⟩ : BufTy).Contents (Elt F) → (⟨S6x400000, .f32⟩ : BufTy).Contents (Elt F)),
    StableHlo.unary main_v113 main_v134 (broadcastInDim S6x400000 ![0, 1] bcast_S6x1_S6x400000_0_1 : (⟨S6x1, .f32⟩ : BufTy).Contents (Elt F) → (⟨S6x400000, .f32⟩ : BufTy).Contents (Elt F)),
    StableHlo.binary main_v134 main_v133 main_v135 (mulf : (⟨S6x400000, .f32⟩ : BufTy).Contents (Elt F) → (⟨S6x400000, .f32⟩ : BufTy).Contents (Elt F) → (⟨S6x400000, .f32⟩ : BufTy).Contents (Elt F)),
    StableHlo.unary main_arg2 main_v136 ((extractStridedSlice S1x6 ![5, 0] · slices_S7x6_S1x6_5_0) : (⟨S7x6, .f32⟩ : BufTy).Contents (Elt F) → (⟨S1x6, .f32⟩ : BufTy).Contents (Elt F)),
    StableHlo.reshape main_v136 main_v137 rfl shapeCasts_S1x6_S6,
    StableHlo.unary main_v137 main_v138 (broadcastInDim S6x1 ![0] bcast_S6_S6x1_0 : (⟨S6, .f32⟩ : BufTy).Contents (Elt F) → (⟨S6x1, .f32⟩ : BufTy).Contents (Elt F)),
    StableHlo.unary main_v1 main_v139 (broadcastInDim S1x400000 ![1] bcast_S400000_S1x400000_1 : (⟨S400000, .f32⟩ : BufTy).Contents (Elt F) → (⟨S1x400000, .f32⟩ : BufTy).Contents (Elt F)),
    StableHlo.unary main_v138 main_v140 (broadcastInDim S6x400000 ![0, 1] bcast_S6x1_S6x400000_0_1 : (⟨S6x1, .f32⟩ : BufTy).Contents (Elt F) → (⟨S6x400000, .f32⟩ : BufTy).Contents (Elt F)),
    StableHlo.unary main_v139 main_v141 (broadcastInDim S6x400000 ![0, 1] bcast_S1x400000_S6x400000_0_1 : (⟨S1x400000, .f32⟩ : BufTy).Contents (Elt F) → (⟨S6x400000, .f32⟩ : BufTy).Contents (Elt F)),
    StableHlo.binary main_v140 main_v141 main_v142 (mulf : (⟨S6x400000, .f32⟩ : BufTy).Contents (Elt F) → (⟨S6x400000, .f32⟩ : BufTy).Contents (Elt F) → (⟨S6x400000, .f32⟩ : BufTy).Contents (Elt F)),
    StableHlo.unary main_arg3 main_v143 ((extractStridedSlice S1x6 ![5, 0] · slices_S7x6_S1x6_5_0) : (⟨S7x6, .f32⟩ : BufTy).Contents (Elt F) → (⟨S1x6, .f32⟩ : BufTy).Contents (Elt F)),
    StableHlo.reshape main_v143 main_v144 rfl shapeCasts_S1x6_S6,
    StableHlo.unary main_v144 main_v145 (broadcastInDim S6x1 ![0] bcast_S6_S6x1_0 : (⟨S6, .f32⟩ : BufTy).Contents (Elt F) → (⟨S6x1, .f32⟩ : BufTy).Contents (Elt F)),
    StableHlo.unary main_v142 main_v146 (Host.sin : (⟨S6x400000, .f32⟩ : BufTy).Contents (Elt F) → (⟨S6x400000, .f32⟩ : BufTy).Contents (Elt F)),
    StableHlo.binary main_v146 main_v142 main_v147 (Host.divf : (⟨S6x400000, .f32⟩ : BufTy).Contents (Elt F) → (⟨S6x400000, .f32⟩ : BufTy).Contents (Elt F) → (⟨S6x400000, .f32⟩ : BufTy).Contents (Elt F)),
    StableHlo.unary main_v142 main_v148 (Host.sin : (⟨S6x400000, .f32⟩ : BufTy).Contents (Elt F) → (⟨S6x400000, .f32⟩ : BufTy).Contents (Elt F)),
    StableHlo.binary main_v142 main_v142 main_v149 (mulf : (⟨S6x400000, .f32⟩ : BufTy).Contents (Elt F) → (⟨S6x400000, .f32⟩ : BufTy).Contents (Elt F) → (⟨S6x400000, .f32⟩ : BufTy).Contents (Elt F)),
    StableHlo.binary main_v148 main_v149 main_v150 (Host.divf : (⟨S6x400000, .f32⟩ : BufTy).Contents (Elt F) → (⟨S6x400000, .f32⟩ : BufTy).Contents (Elt F) → (⟨S6x400000, .f32⟩ : BufTy).Contents (Elt F)),
    StableHlo.unary main_v142 main_v151 (Host.cos : (⟨S6x400000, .f32⟩ : BufTy).Contents (Elt F) → (⟨S6x400000, .f32⟩ : BufTy).Contents (Elt F)),
    StableHlo.binary main_v151 main_v142 main_v152 (Host.divf : (⟨S6x400000, .f32⟩ : BufTy).Contents (Elt F) → (⟨S6x400000, .f32⟩ : BufTy).Contents (Elt F) → (⟨S6x400000, .f32⟩ : BufTy).Contents (Elt F)),
    StableHlo.binary main_v150 main_v152 main_v153 (subf : (⟨S6x400000, .f32⟩ : BufTy).Contents (Elt F) → (⟨S6x400000, .f32⟩ : BufTy).Contents (Elt F) → (⟨S6x400000, .f32⟩ : BufTy).Contents (Elt F)),
    StableHlo.nullary main_cst_11 (constant S_ .f32 0x40400000#32),
    StableHlo.unary main_cst_11 main_v154 (broadcastInDim S6x400000 ![] bcast_S_S6x400000 : (⟨S_, .f32⟩ : BufTy).Contents (Elt F) → (⟨S6x400000, .f32⟩ : BufTy).Contents (Elt F)),
    StableHlo.binary main_v154 main_v142 main_v155 (Host.divf : (⟨S6x400000, .f32⟩ : BufTy).Contents (Elt F) → (⟨S6x400000, .f32⟩ : BufTy).Contents (Elt F) → (⟨S6x400000, .f32⟩ : BufTy).Contents (Elt F)),
    StableHlo.binary main_v155 main_v153 main_v156 (mulf : (⟨S6x400000, .f32⟩ : BufTy).Contents (Elt F) → (⟨S6x400000, .f32⟩ : BufTy).Contents (Elt F) → (⟨S6x400000, .f32⟩ : BufTy).Contents (Elt F)),
    StableHlo.binary main_v156 main_v147 main_v157 (subf : (⟨S6x400000, .f32⟩ : BufTy).Contents (Elt F) → (⟨S6x400000, .f32⟩ : BufTy).Contents (Elt F) → (⟨S6x400000, .f32⟩ : BufTy).Contents (Elt F)),
    StableHlo.nullary main_cst_12 (constant S_ .f32 0x40A00000#32),
    StableHlo.unary main_cst_12 main_v158 (broadcastInDim S6x400000 ![] bcast_S_S6x400000 : (⟨S_, .f32⟩ : BufTy).Contents (Elt F) → (⟨S6x400000, .f32⟩ : BufTy).Contents (Elt F)),
    StableHlo.binary main_v158 main_v142 main_v159 (Host.divf : (⟨S6x400000, .f32⟩ : BufTy).Contents (Elt F) → (⟨S6x400000, .f32⟩ : BufTy).Contents (Elt F) → (⟨S6x400000, .f32⟩ : BufTy).Contents (Elt F)),
    StableHlo.binary main_v159 main_v157 main_v160 (mulf : (⟨S6x400000, .f32⟩ : BufTy).Contents (Elt F) → (⟨S6x400000, .f32⟩ : BufTy).Contents (Elt F) → (⟨S6x400000, .f32⟩ : BufTy).Contents (Elt F)),
    StableHlo.binary main_v160 main_v153 main_v161 (subf : (⟨S6x400000, .f32⟩ : BufTy).Contents (Elt F) → (⟨S6x400000, .f32⟩ : BufTy).Contents (Elt F) → (⟨S6x400000, .f32⟩ : BufTy).Contents (Elt F)),
    StableHlo.nullary main_cst_13 (constant S_ .f32 0x40E00000#32),
    StableHlo.unary main_cst_13 main_v162 (broadcastInDim S6x400000 ![] bcast_S_S6x400000 : (⟨S_, .f32⟩ : BufTy).Contents (Elt F) → (⟨S6x400000, .f32⟩ : BufTy).Contents (Elt F)),
    StableHlo.binary main_v162 main_v142 main_v163 (Host.divf : (⟨S6x400000, .f32⟩ : BufTy).Contents (Elt F) → (⟨S6x400000, .f32⟩ : BufTy).Contents (Elt F) → (⟨S6x400000, .f32⟩ : BufTy).Contents (Elt F)),
    StableHlo.binary main_v163 main_v161 main_v164 (mulf : (⟨S6x400000, .f32⟩ : BufTy).Contents (Elt F) → (⟨S6x400000, .f32⟩ : BufTy).Contents (Elt F) → (⟨S6x400000, .f32⟩ : BufTy).Contents (Elt F)) ]

/-- The 60 operations of window `main_part3`, in order. -/
abbrev ops_part3 : List (HloOp τ sig (Elt F)) :=
  [ StableHlo.binary main_v164 main_v157 main_v165 (subf : (⟨S6x400000, .f32⟩ : BufTy).Contents (Elt F) → (⟨S6x400000, .f32⟩ : BufTy).Contents (Elt F) → (⟨S6x400000, .f32⟩ : BufTy).Contents (Elt F)),
    StableHlo.nullary main_cst_14 (constant S_ .f32 0x41100000#32),
    StableHlo.unary main_cst_14 main_v166 (broadcastInDim S6x400000 ![] bcast_S_S6x400000 : (⟨S_, .f32⟩ : BufTy).Contents (Elt F) → (⟨S6x400000, .f32⟩ : BufTy).Contents (Elt F)),
    StableHlo.binary main_v166 main_v142 main_v167 (Host.divf : (⟨S6x400000, .f32⟩ : BufTy).Contents (Elt F) → (⟨S6x400000, .f32⟩ : BufTy).Contents (Elt F) → (⟨S6x400000, .f32⟩ : BufTy).Contents (Elt F)),
    StableHlo.binary main_v167 main_v165 main_v168 (mulf : (⟨S6x400000, .f32⟩ : BufTy).Contents (Elt F) → (⟨S6x400000, .f32⟩ : BufTy).Contents (Elt F) → (⟨S6x400000, .f32⟩ : BufTy).Contents (Elt F)),
    StableHlo.binary main_v168 main_v161 main_v169 (subf : (⟨S6x400000, .f32⟩ : BufTy).Contents (Elt F) → (⟨S6x400000, .f32⟩ : BufTy).Contents (Elt F) → (⟨S6x400000, .f32⟩ : BufTy).Contents (Elt F)),
    StableHlo.unary main_v145 main_v170 (broadcastInDim S6x400000 ![0, 1] bcast_S6x1_S6x400000_0_1 : (⟨S6x1, .f32⟩ : BufTy).Contents (Elt F) → (⟨S6x400000, .f32⟩ : BufTy).Contents (Elt F)),
    StableHlo.binary main_v170 main_v169 main_v171 (mulf : (⟨S6x400000, .f32⟩ : BufTy).Contents (Elt F) → (⟨S6x400000, .f32⟩ : BufTy).Contents (Elt F) → (⟨S6x400000, .f32⟩ : BufTy).Contents (Elt F)),
    StableHlo.unary main_arg2 main_v172 ((extractStridedSlice S1x6 ![6, 0] · slices_S7x6_S1x6_6_0) : (⟨S7x6, .f32⟩ : BufTy).Contents (Elt F) → (⟨S1x6, .f32⟩ : BufTy).Contents (Elt F)),
    StableHlo.reshape main_v172 main_v173 rfl shapeCasts_S1x6_S6,
    StableHlo.unary main_v173 main_v174 (broadcastInDim S6x1 ![0] bcast_S6_S6x1_0 : (⟨S6, .f32⟩ : BufTy).Contents (Elt F) → (⟨S6x1, .f32⟩ : BufTy).Contents (Elt F)),
    StableHlo.unary main_v1 main_v175 (broadcastInDim S1x400000 ![1] bcast_S400000_S1x400000_1 : (⟨S400000, .f32⟩ : BufTy).Contents (Elt F) → (⟨S1x400000, .f32⟩ : BufTy).Contents (Elt F)),
    StableHlo.unary main_v174 main_v176 (broadcastInDim S6x400000 ![0, 1] bcast_S6x1_S6x400000_0_1 : (⟨S6x1, .f32⟩ : BufTy).Contents (Elt F) → (⟨S6x400000, .f32⟩ : BufTy).Contents (Elt F)),
    StableHlo.unary main_v175 main_v177 (broadcastInDim S6x400000 ![0, 1] bcast_S1x400000_S6x400000_0_1 : (⟨S1x400000, .f32⟩ : BufTy).Contents (Elt F) → (⟨S6x400000, .f32⟩ : BufTy).Contents (Elt F)),
    StableHlo.binary main_v176 main_v177 main_v178 (mulf : (⟨S6x400000, .f32⟩ : BufTy).Contents (Elt F) → (⟨S6x400000, .f32⟩ : BufTy).Contents (Elt F) → (⟨S6x400000, .f32⟩ : BufTy).Contents (Elt F)),
    StableHlo.unary main_arg3 main_v179 ((extractStridedSlice S1x6 ![6, 0] · slices_S7x6_S1x6_6_0) : (⟨S7x6, .f32⟩ : BufTy).Contents (Elt F) → (⟨S1x6, .f32⟩ : BufTy).Contents (Elt F)),
    StableHlo.reshape main_v179 main_v180 rfl shapeCasts_S1x6_S6,
    StableHlo.unary main_v180 main_v181 (broadcastInDim S6x1 ![0] bcast_S6_S6x1_0 : (⟨S6, .f32⟩ : BufTy).Contents (Elt F) → (⟨S6x1, .f32⟩ : BufTy).Contents (Elt F)),
    StableHlo.unary main_v178 main_v182 (Host.sin : (⟨S6x400000, .f32⟩ : BufTy).Contents (Elt F) → (⟨S6x400000, .f32⟩ : BufTy).Contents (Elt F)),
    StableHlo.binary main_v182 main_v178 main_v183 (Host.divf : (⟨S6x400000, .f32⟩ : BufTy).Contents (Elt F) → (⟨S6x400000, .f32⟩ : BufTy).Contents (Elt F) → (⟨S6x400000, .f32⟩ : BufTy).Contents (Elt F)),
    StableHlo.unary main_v178 main_v184 (Host.sin : (⟨S6x400000, .f32⟩ : BufTy).Contents (Elt F) → (⟨S6x400000, .f32⟩ : BufTy).Contents (Elt F)),
    StableHlo.binary main_v178 main_v178 main_v185 (mulf : (⟨S6x400000, .f32⟩ : BufTy).Contents (Elt F) → (⟨S6x400000, .f32⟩ : BufTy).Contents (Elt F) → (⟨S6x400000, .f32⟩ : BufTy).Contents (Elt F)),
    StableHlo.binary main_v184 main_v185 main_v186 (Host.divf : (⟨S6x400000, .f32⟩ : BufTy).Contents (Elt F) → (⟨S6x400000, .f32⟩ : BufTy).Contents (Elt F) → (⟨S6x400000, .f32⟩ : BufTy).Contents (Elt F)),
    StableHlo.unary main_v178 main_v187 (Host.cos : (⟨S6x400000, .f32⟩ : BufTy).Contents (Elt F) → (⟨S6x400000, .f32⟩ : BufTy).Contents (Elt F)),
    StableHlo.binary main_v187 main_v178 main_v188 (Host.divf : (⟨S6x400000, .f32⟩ : BufTy).Contents (Elt F) → (⟨S6x400000, .f32⟩ : BufTy).Contents (Elt F) → (⟨S6x400000, .f32⟩ : BufTy).Contents (Elt F)),
    StableHlo.binary main_v186 main_v188 main_v189 (subf : (⟨S6x400000, .f32⟩ : BufTy).Contents (Elt F) → (⟨S6x400000, .f32⟩ : BufTy).Contents (Elt F) → (⟨S6x400000, .f32⟩ : BufTy).Contents (Elt F)),
    StableHlo.nullary main_cst_15 (constant S_ .f32 0x40400000#32),
    StableHlo.unary main_cst_15 main_v190 (broadcastInDim S6x400000 ![] bcast_S_S6x400000 : (⟨S_, .f32⟩ : BufTy).Contents (Elt F) → (⟨S6x400000, .f32⟩ : BufTy).Contents (Elt F)),
    StableHlo.binary main_v190 main_v178 main_v191 (Host.divf : (⟨S6x400000, .f32⟩ : BufTy).Contents (Elt F) → (⟨S6x400000, .f32⟩ : BufTy).Contents (Elt F) → (⟨S6x400000, .f32⟩ : BufTy).Contents (Elt F)),
    StableHlo.binary main_v191 main_v189 main_v192 (mulf : (⟨S6x400000, .f32⟩ : BufTy).Contents (Elt F) → (⟨S6x400000, .f32⟩ : BufTy).Contents (Elt F) → (⟨S6x400000, .f32⟩ : BufTy).Contents (Elt F)),
    StableHlo.binary main_v192 main_v183 main_v193 (subf : (⟨S6x400000, .f32⟩ : BufTy).Contents (Elt F) → (⟨S6x400000, .f32⟩ : BufTy).Contents (Elt F) → (⟨S6x400000, .f32⟩ : BufTy).Contents (Elt F)),
    StableHlo.nullary main_cst_16 (constant S_ .f32 0x40A00000#32),
    StableHlo.unary main_cst_16 main_v194 (broadcastInDim S6x400000 ![] bcast_S_S6x400000 : (⟨S_, .f32⟩ : BufTy).Contents (Elt F) → (⟨S6x400000, .f32⟩ : BufTy).Contents (Elt F)),
    StableHlo.binary main_v194 main_v178 main_v195 (Host.divf : (⟨S6x400000, .f32⟩ : BufTy).Contents (Elt F) → (⟨S6x400000, .f32⟩ : BufTy).Contents (Elt F) → (⟨S6x400000, .f32⟩ : BufTy).Contents (Elt F)),
    StableHlo.binary main_v195 main_v193 main_v196 (mulf : (⟨S6x400000, .f32⟩ : BufTy).Contents (Elt F) → (⟨S6x400000, .f32⟩ : BufTy).Contents (Elt F) → (⟨S6x400000, .f32⟩ : BufTy).Contents (Elt F)),
    StableHlo.binary main_v196 main_v189 main_v197 (subf : (⟨S6x400000, .f32⟩ : BufTy).Contents (Elt F) → (⟨S6x400000, .f32⟩ : BufTy).Contents (Elt F) → (⟨S6x400000, .f32⟩ : BufTy).Contents (Elt F)),
    StableHlo.nullary main_cst_17 (constant S_ .f32 0x40E00000#32),
    StableHlo.unary main_cst_17 main_v198 (broadcastInDim S6x400000 ![] bcast_S_S6x400000 : (⟨S_, .f32⟩ : BufTy).Contents (Elt F) → (⟨S6x400000, .f32⟩ : BufTy).Contents (Elt F)),
    StableHlo.binary main_v198 main_v178 main_v199 (Host.divf : (⟨S6x400000, .f32⟩ : BufTy).Contents (Elt F) → (⟨S6x400000, .f32⟩ : BufTy).Contents (Elt F) → (⟨S6x400000, .f32⟩ : BufTy).Contents (Elt F)),
    StableHlo.binary main_v199 main_v197 main_v200 (mulf : (⟨S6x400000, .f32⟩ : BufTy).Contents (Elt F) → (⟨S6x400000, .f32⟩ : BufTy).Contents (Elt F) → (⟨S6x400000, .f32⟩ : BufTy).Contents (Elt F)),
    StableHlo.binary main_v200 main_v193 main_v201 (subf : (⟨S6x400000, .f32⟩ : BufTy).Contents (Elt F) → (⟨S6x400000, .f32⟩ : BufTy).Contents (Elt F) → (⟨S6x400000, .f32⟩ : BufTy).Contents (Elt F)),
    StableHlo.nullary main_cst_18 (constant S_ .f32 0x41100000#32),
    StableHlo.unary main_cst_18 main_v202 (broadcastInDim S6x400000 ![] bcast_S_S6x400000 : (⟨S_, .f32⟩ : BufTy).Contents (Elt F) → (⟨S6x400000, .f32⟩ : BufTy).Contents (Elt F)),
    StableHlo.binary main_v202 main_v178 main_v203 (Host.divf : (⟨S6x400000, .f32⟩ : BufTy).Contents (Elt F) → (⟨S6x400000, .f32⟩ : BufTy).Contents (Elt F) → (⟨S6x400000, .f32⟩ : BufTy).Contents (Elt F)),
    StableHlo.binary main_v203 main_v201 main_v204 (mulf : (⟨S6x400000, .f32⟩ : BufTy).Contents (Elt F) → (⟨S6x400000, .f32⟩ : BufTy).Contents (Elt F) → (⟨S6x400000, .f32⟩ : BufTy).Contents (Elt F)),
    StableHlo.binary main_v204 main_v197 main_v205 (subf : (⟨S6x400000, .f32⟩ : BufTy).Contents (Elt F) → (⟨S6x400000, .f32⟩ : BufTy).Contents (Elt F) → (⟨S6x400000, .f32⟩ : BufTy).Contents (Elt F)),
    StableHlo.nullary main_cst_19 (constant S_ .f32 0x41300000#32),
    StableHlo.unary main_cst_19 main_v206 (broadcastInDim S6x400000 ![] bcast_S_S6x400000 : (⟨S_, .f32⟩ : BufTy).Contents (Elt F) → (⟨S6x400000, .f32⟩ : BufTy).Contents (Elt F)),
    StableHlo.binary main_v206 main_v178 main_v207 (Host.divf : (⟨S6x400000, .f32⟩ : BufTy).Contents (Elt F) → (⟨S6x400000, .f32⟩ : BufTy).Contents (Elt F) → (⟨S6x400000, .f32⟩ : BufTy).Contents (Elt F)),
    StableHlo.binary main_v207 main_v205 main_v208 (mulf : (⟨S6x400000, .f32⟩ : BufTy).Contents (Elt F) → (⟨S6x400000, .f32⟩ : BufTy).Contents (Elt F) → (⟨S6x400000, .f32⟩ : BufTy).Contents (Elt F)),
    StableHlo.binary main_v208 main_v201 main_v209 (subf : (⟨S6x400000, .f32⟩ : BufTy).Contents (Elt F) → (⟨S6x400000, .f32⟩ : BufTy).Contents (Elt F) → (⟨S6x400000, .f32⟩ : BufTy).Contents (Elt F)),
    StableHlo.unary main_v181 main_v210 (broadcastInDim S6x400000 ![0, 1] bcast_S6x1_S6x400000_0_1 : (⟨S6x1, .f32⟩ : BufTy).Contents (Elt F) → (⟨S6x400000, .f32⟩ : BufTy).Contents (Elt F)),
    StableHlo.binary main_v210 main_v209 main_v211 (mulf : (⟨S6x400000, .f32⟩ : BufTy).Contents (Elt F) → (⟨S6x400000, .f32⟩ : BufTy).Contents (Elt F) → (⟨S6x400000, .f32⟩ : BufTy).Contents (Elt F)),
    StableHlo.nary ![main_v31, main_v51, main_v75, main_v103, main_v135, main_v171, main_v211] main_v212 (fun u => concatenate S42x400000 0 [⟨S6x400000, u 0⟩, ⟨S6x400000, u 1⟩, ⟨S6x400000, u 2⟩, ⟨S6x400000, u 3⟩, ⟨S6x400000, u 4⟩, ⟨S6x400000, u 5⟩, ⟨S6x400000, u 6⟩] concatenates_S6x400000_S6x400000_S6x400000_S6x400000_S6x400000_S6x400000_S6x400000_S42x400000_d0),
    StableHlo.unary main_v212 main_v213 ((transpose S400000x42 [1, 0] · transposes_S42x400000_S400000x42_1_0) : (⟨S42x400000, .f32⟩ : BufTy).Contents (Elt F) → (⟨S400000x42, .f32⟩ : BufTy).Contents (Elt F)),
    StableHlo.unary main_v17 main_v214 (broadcastInDim S400000x1 ![0] bcast_S400000_S400000x1_0 : (⟨S400000, .f32⟩ : BufTy).Contents (Elt F) → (⟨S400000x1, .f32⟩ : BufTy).Contents (Elt F)),
    StableHlo.unary main_v214 main_v215 (broadcastInDim S400000x42 ![0, 1] bcast_S400000x1_S400000x42_0_1 : (⟨S400000x1, .f32⟩ : BufTy).Contents (Elt F) → (⟨S400000x42, .f32⟩ : BufTy).Contents (Elt F)),
    StableHlo.binary main_v215 main_v213 main_v216 (mulf : (⟨S400000x42, .f32⟩ : BufTy).Contents (Elt F) → (⟨S400000x42, .f32⟩ : BufTy).Contents (Elt F) → (⟨S400000x42, .f32⟩ : BufTy).Contents (Elt F)),
    StableHlo.unary main_arg1 main_v217 (Host.cos : (⟨S2000000, .f32⟩ : BufTy).Contents (Elt F) → (⟨S2000000, .f32⟩ : BufTy).Contents (Elt F)),
    StableHlo.nullary main_cst_20 (constant S_ .f32 0x3F800000#32) ]

/-- The 60 operations of window `main_part4`, in order. -/
abbrev ops_part4 : List (HloOp τ sig (Elt F)) :=
  [ StableHlo.unary main_cst_20 main_v218 (broadcastInDim S2000000 ![] bcast_S_S2000000 : (⟨S_, .f32⟩ : BufTy).Contents (Elt F) → (⟨S2000000, .f32⟩ : BufTy).Contents (Elt F)),
    StableHlo.nullary main_cst_21 (constant S_ .f32 0x40400000#32),
    StableHlo.unary main_cst_21 main_v219 (broadcastInDim S2000000 ![] bcast_S_S2000000 : (⟨S_, .f32⟩ : BufTy).Contents (Elt F) → (⟨S2000000, .f32⟩ : BufTy).Contents (Elt F)),
    StableHlo.binary main_v219 main_v217 main_v220 (mulf : (⟨S2000000, .f32⟩ : BufTy).Contents (Elt F) → (⟨S2000000, .f32⟩ : BufTy).Contents (Elt F) → (⟨S2000000, .f32⟩ : BufTy).Contents (Elt F)),
    StableHlo.binary main_v220 main_v217 main_v221 (mulf : (⟨S2000000, .f32⟩ : BufTy).Contents (Elt F) → (⟨S2000000, .f32⟩ : BufTy).Contents (Elt F) → (⟨S2000000, .f32⟩ : BufTy).Contents (Elt F)),
    StableHlo.nullary main_cst_22 (constant S_ .f32 0x3F800000#32),
    StableHlo.unary main_cst_22 main_v222 (broadcastInDim S2000000 ![] bcast_S_S2000000 : (⟨S_, .f32⟩ : BufTy).Contents (Elt F) → (⟨S2000000, .f32⟩ : BufTy).Contents (Elt F)),
    StableHlo.binary main_v222 main_v218 main_v223 (mulf : (⟨S2000000, .f32⟩ : BufTy).Contents (Elt F) → (⟨S2000000, .f32⟩ : BufTy).Contents (Elt F) → (⟨S2000000, .f32⟩ : BufTy).Contents (Elt F)),
    StableHlo.binary main_v221 main_v223 main_v224 (subf : (⟨S2000000, .f32⟩ : BufTy).Contents (Elt F) → (⟨S2000000, .f32⟩ : BufTy).Contents (Elt F) → (⟨S2000000, .f32⟩ : BufTy).Contents (Elt F)),
    StableHlo.nullary main_cst_23 (constant S_ .f32 0x40000000#32),
    StableHlo.unary main_cst_23 main_v225 (broadcastInDim S2000000 ![] bcast_S_S2000000 : (⟨S_, .f32⟩ : BufTy).Contents (Elt F) → (⟨S2000000, .f32⟩ : BufTy).Contents (Elt F)),
    StableHlo.binary main_v224 main_v225 main_v226 (Host.divf : (⟨S2000000, .f32⟩ : BufTy).Contents (Elt F) → (⟨S2000000, .f32⟩ : BufTy).Contents (Elt F) → (⟨S2000000, .f32⟩ : BufTy).Contents (Elt F)),
    StableHlo.nullary main_cst_24 (constant S_ .f32 0x40A00000#32),
    StableHlo.unary main_cst_24 main_v227 (broadcastInDim S2000000 ![] bcast_S_S2000000 : (⟨S_, .f32⟩ : BufTy).Contents (Elt F) → (⟨S2000000, .f32⟩ : BufTy).Contents (Elt F)),
    StableHlo.binary main_v227 main_v217 main_v228 (mulf : (⟨S2000000, .f32⟩ : BufTy).Contents (Elt F) → (⟨S2000000, .f32⟩ : BufTy).Contents (Elt F) → (⟨S2000000, .f32⟩ : BufTy).Contents (Elt F)),
    StableHlo.binary main_v228 main_v226 main_v229 (mulf : (⟨S2000000, .f32⟩ : BufTy).Contents (Elt F) → (⟨S2000000, .f32⟩ : BufTy).Contents (Elt F) → (⟨S2000000, .f32⟩ : BufTy).Contents (Elt F)),
    StableHlo.nullary main_cst_25 (constant S_ .f32 0x40000000#32),
    StableHlo.unary main_cst_25 main_v230 (broadcastInDim S2000000 ![] bcast_S_S2000000 : (⟨S_, .f32⟩ : BufTy).Contents (Elt F) → (⟨S2000000, .f32⟩ : BufTy).Contents (Elt F)),
    StableHlo.binary main_v230 main_v217 main_v231 (mulf : (⟨S2000000, .f32⟩ : BufTy).Contents (Elt F) → (⟨S2000000, .f32⟩ : BufTy).Contents (Elt F) → (⟨S2000000, .f32⟩ : BufTy).Contents (Elt F)),
    StableHlo.binary main_v229 main_v231 main_v232 (subf : (⟨S2000000, .f32⟩ : BufTy).Contents (Elt F) → (⟨S2000000, .f32⟩ : BufTy).Contents (Elt F) → (⟨S2000000, .f32⟩ : BufTy).Contents (Elt F)),
    StableHlo.nullary main_cst_26 (constant S_ .f32 0x40400000#32),
    StableHlo.unary main_cst_26 main_v233 (broadcastInDim S2000000 ![] bcast_S_S2000000 : (⟨S_, .f32⟩ : BufTy).Contents (Elt F) → (⟨S2000000, .f32⟩ : BufTy).Contents (Elt F)),
    StableHlo.binary main_v232 main_v233 main_v234 (Host.divf : (⟨S2000000, .f32⟩ : BufTy).Contents (Elt F) → (⟨S2000000, .f32⟩ : BufTy).Contents (Elt F) → (⟨S2000000, .f32⟩ : BufTy).Contents (Elt F)),
    StableHlo.nullary main_cst_27 (constant S_ .f32 0x40E00000#32),
    StableHlo.unary main_cst_27 main_v235 (broadcastInDim S2000000 ![] bcast_S_S2000000 : (⟨S_, .f32⟩ : BufTy).Contents (Elt F) → (⟨S2000000, .f32⟩ : BufTy).Contents (Elt F)),
    StableHlo.binary main_v235 main_v217 main_v236 (mulf : (⟨S2000000, .f32⟩ : BufTy).Contents (Elt F) → (⟨S2000000, .f32⟩ : BufTy).Contents (Elt F) → (⟨S2000000, .f32⟩ : BufTy).Contents (Elt F)),
    StableHlo.binary main_v236 main_v234 main_v237 (mulf : (⟨S2000000, .f32⟩ : BufTy).Contents (Elt F) → (⟨S2000000, .f32⟩ : BufTy).Contents (Elt F) → (⟨S2000000, .f32⟩ : BufTy).Contents (Elt F)),
    StableHlo.nullary main_cst_28 (constant S_ .f32 0x40400000#32),
    StableHlo.unary main_cst_28 main_v238 (broadcastInDim S2000000 ![] bcast_S_S2000000 : (⟨S_, .f32⟩ : BufTy).Contents (Elt F) → (⟨S2000000, .f32⟩ : BufTy).Contents (Elt F)),
    StableHlo.binary main_v238 main_v226 main_v239 (mulf : (⟨S2000000, .f32⟩ : BufTy).Contents (Elt F) → (⟨S2000000, .f32⟩ : BufTy).Contents (Elt F) → (⟨S2000000, .f32⟩ : BufTy).Contents (Elt F)),
    StableHlo.binary main_v237 main_v239 main_v240 (subf : (⟨S2000000, .f32⟩ : BufTy).Contents (Elt F) → (⟨S2000000, .f32⟩ : BufTy).Contents (Elt F) → (⟨S2000000, .f32⟩ : BufTy).Contents (Elt F)),
    StableHlo.nullary main_cst_29 (constant S_ .f32 0x40800000#32),
    StableHlo.unary main_cst_29 main_v241 (broadcastInDim S2000000 ![] bcast_S_S2000000 : (⟨S_, .f32⟩ : BufTy).Contents (Elt F) → (⟨S2000000, .f32⟩ : BufTy).Contents (Elt F)),
    StableHlo.binary main_v240 main_v241 main_v242 (Host.divf : (⟨S2000000, .f32⟩ : BufTy).Contents (Elt F) → (⟨S2000000, .f32⟩ : BufTy).Contents (Elt F) → (⟨S2000000, .f32⟩ : BufTy).Contents (Elt F)),
    StableHlo.nullary main_cst_30 (constant S_ .f32 0x41100000#32),
    StableHlo.unary main_cst_30 main_v243 (broadcastInDim S2000000 ![] bcast_S_S2000000 : (⟨S_, .f32⟩ : BufTy).Contents (Elt F) → (⟨S2000000, .f32⟩ : BufTy).Contents (Elt F)),
    StableHlo.binary main_v243 main_v217 main_v244 (mulf : (⟨S2000000, .f32⟩ : BufTy).Contents (Elt F) → (⟨S2000000, .f32⟩ : BufTy).Contents (Elt F) → (⟨S2000000, .f32⟩ : BufTy).Contents (Elt F)),
    StableHlo.binary main_v244 main_v242 main_v245 (mulf : (⟨S2000000, .f32⟩ : BufTy).Contents (Elt F) → (⟨S2000000, .f32⟩ : BufTy).Contents (Elt F) → (⟨S2000000, .f32⟩ : BufTy).Contents (Elt F)),
    StableHlo.nullary main_cst_31 (constant S_ .f32 0x40800000#32),
    StableHlo.unary main_cst_31 main_v246 (broadcastInDim S2000000 ![] bcast_S_S2000000 : (⟨S_, .f32⟩ : BufTy).Contents (Elt F) → (⟨S2000000, .f32⟩ : BufTy).Contents (Elt F)),
    StableHlo.binary main_v246 main_v234 main_v247 (mulf : (⟨S2000000, .f32⟩ : BufTy).Contents (Elt F) → (⟨S2000000, .f32⟩ : BufTy).Contents (Elt F) → (⟨S2000000, .f32⟩ : BufTy).Contents (Elt F)),
    StableHlo.binary main_v245 main_v247 main_v248 (subf : (⟨S2000000, .f32⟩ : BufTy).Contents (Elt F) → (⟨S2000000, .f32⟩ : BufTy).Contents (Elt F) → (⟨S2000000, .f32⟩ : BufTy).Contents (Elt F)),
    StableHlo.nullary main_cst_32 (constant S_ .f32 0x40A00000#32),
    StableHlo.unary main_cst_32 main_v249 (broadcastInDim S2000000 ![] bcast_S_S2000000 : (⟨S_, .f32⟩ : BufTy).Contents (Elt F) → (⟨S2000000, .f32⟩ : BufTy).Contents (Elt F)),
    StableHlo.binary main_v248 main_v249 main_v250 (Host.divf : (⟨S2000000, .f32⟩ : BufTy).Contents (Elt F) → (⟨S2000000, .f32⟩ : BufTy).Contents (Elt F) → (⟨S2000000, .f32⟩ : BufTy).Contents (Elt F)),
    StableHlo.nullary main_cst_33 (constant S_ .f32 0x41300000#32),
    StableHlo.unary main_cst_33 main_v251 (broadcastInDim S2000000 ![] bcast_S_S2000000 : (⟨S_, .f32⟩ : BufTy).Contents (Elt F) → (⟨S2000000, .f32⟩ : BufTy).Contents (Elt F)),
    StableHlo.binary main_v251 main_v217 main_v252 (mulf : (⟨S2000000, .f32⟩ : BufTy).Contents (Elt F) → (⟨S2000000, .f32⟩ : BufTy).Contents (Elt F) → (⟨S2000000, .f32⟩ : BufTy).Contents (Elt F)),
    StableHlo.binary main_v252 main_v250 main_v253 (mulf : (⟨S2000000, .f32⟩ : BufTy).Contents (Elt F) → (⟨S2000000, .f32⟩ : BufTy).Contents (Elt F) → (⟨S2000000, .f32⟩ : BufTy).Contents (Elt F)),
    StableHlo.nullary main_cst_34 (constant S_ .f32 0x40A00000#32),
    StableHlo.unary main_cst_34 main_v254 (broadcastInDim S2000000 ![] bcast_S_S2000000 : (⟨S_, .f32⟩ : BufTy).Contents (Elt F) → (⟨S2000000, .f32⟩ : BufTy).Contents (Elt F)),
    StableHlo.binary main_v254 main_v242 main_v255 (mulf : (⟨S2000000, .f32⟩ : BufTy).Contents (Elt F) → (⟨S2000000, .f32⟩ : BufTy).Contents (Elt F) → (⟨S2000000, .f32⟩ : BufTy).Contents (Elt F)),
    StableHlo.binary main_v253 main_v255 main_v256 (subf : (⟨S2000000, .f32⟩ : BufTy).Contents (Elt F) → (⟨S2000000, .f32⟩ : BufTy).Contents (Elt F) → (⟨S2000000, .f32⟩ : BufTy).Contents (Elt F)),
    StableHlo.nullary main_cst_35 (constant S_ .f32 0x40C00000#32),
    StableHlo.unary main_cst_35 main_v257 (broadcastInDim S2000000 ![] bcast_S_S2000000 : (⟨S_, .f32⟩ : BufTy).Contents (Elt F) → (⟨S2000000, .f32⟩ : BufTy).Contents (Elt F)),
    StableHlo.binary main_v256 main_v257 main_v258 (Host.divf : (⟨S2000000, .f32⟩ : BufTy).Contents (Elt F) → (⟨S2000000, .f32⟩ : BufTy).Contents (Elt F) → (⟨S2000000, .f32⟩ : BufTy).Contents (Elt F)),
    StableHlo.unary main_v218 main_v259 (broadcastInDim S2000000x1 ![0] bcast_S2000000_S2000000x1_0 : (⟨S2000000, .f32⟩ : BufTy).Contents (Elt F) → (⟨S2000000x1, .f32⟩ : BufTy).Contents (Elt F)),
    StableHlo.unary main_v217 main_v260 (broadcastInDim S2000000x1 ![0] bcast_S2000000_S2000000x1_0 : (⟨S2000000, .f32⟩ : BufTy).Contents (Elt F) → (⟨S2000000x1, .f32⟩ : BufTy).Contents (Elt F)),
    StableHlo.unary main_v226 main_v261 (broadcastInDim S2000000x1 ![0] bcast_S2000000_S2000000x1_0 : (⟨S2000000, .f32⟩ : BufTy).Contents (Elt F) → (⟨S2000000x1, .f32⟩ : BufTy).Contents (Elt F)),
    StableHlo.unary main_v234 main_v262 (broadcastInDim S2000000x1 ![0] bcast_S2000000_S2000000x1_0 : (⟨S2000000, .f32⟩ : BufTy).Contents (Elt F) → (⟨S2000000x1, .f32⟩ : BufTy).Contents (Elt F)) ]

/-- The 21 operations of window `main_part5`, in order. -/
abbrev ops_part5 : List (HloOp τ sig (Elt F)) :=
  [ StableHlo.unary main_v242 main_v263 (broadcastInDim S2000000x1 ![0] bcast_S2000000_S2000000x1_0 : (⟨S2000000, .f32⟩ : BufTy).Contents (Elt F) → (⟨S2000000x1, .f32⟩ : BufTy).Contents (Elt F)),
    StableHlo.unary main_v250 main_v264 (broadcastInDim S2000000x1 ![0] bcast_S2000000_S2000000x1_0 : (⟨S2000000, .f32⟩ : BufTy).Contents (Elt F) → (⟨S2000000x1, .f32⟩ : BufTy).Contents (Elt F)),
    StableHlo.unary main_v258 main_v265 (broadcastInDim S2000000x1 ![0] bcast_S2000000_S2000000x1_0 : (⟨S2000000, .f32⟩ : BufTy).Contents (Elt F) → (⟨S2000000x1, .f32⟩ : BufTy).Contents (Elt F)),
    StableHlo.nary ![main_v259, main_v260, main_v261, main_v262, main_v263, main_v264, main_v265] main_v266 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1),
    StableHlo.unary main_cst main_v267 (broadcastInDim S1x7 ![1] bcast_S7_S1x7_1 : (⟨S7, .f32⟩ : BufTy).Contents (Elt F) → (⟨S1x7, .f32⟩ : BufTy).Contents (Elt F)),
    StableHlo.unary main_v267 main_v268 (broadcastInDim S2000000x7 ![0, 1] bcast_S1x7_S2000000x7_0_1 : (⟨S1x7, .f32⟩ : BufTy).Contents (Elt F) → (⟨S2000000x7, .f32⟩ : BufTy).Contents (Elt F)),
    StableHlo.binary main_v266 main_v268 main_v269 (mulf : (⟨S2000000x7, .f32⟩ : BufTy).Contents (Elt F) → (⟨S2000000x7, .f32⟩ : BufTy).Contents (Elt F) → (⟨S2000000x7, .f32⟩ : BufTy).Contents (Elt F)),
    StableHlo.nullary main_c (constantI S_ 32 0#32),
    StableHlo.unary main_c main_v270 (broadcastInDim S2000000 ![] bcast_S_S2000000 : (⟨S_, .i32⟩ : BufTy).Contents (Elt F) → (⟨S2000000, .i32⟩ : BufTy).Contents (Elt F)),
    StableHlo.binary main_arg4 main_v270 main_v271 (cmpi .slt : (⟨S2000000, .i32⟩ : BufTy).Contents (Elt F) → (⟨S2000000, .i32⟩ : BufTy).Contents (Elt F) → (⟨S2000000, .i1⟩ : BufTy).Contents (Elt F)),
    StableHlo.nullary main_c_36 (constantI S_ 32 400000#32),
    StableHlo.unary main_c_36 main_v272 (broadcastInDim S2000000 ![] bcast_S_S2000000 : (⟨S_, .i32⟩ : BufTy).Contents (Elt F) → (⟨S2000000, .i32⟩ : BufTy).Contents (Elt F)),
    StableHlo.binary main_arg4 main_v272 main_v273 (addi : (⟨S2000000, .i32⟩ : BufTy).Contents (Elt F) → (⟨S2000000, .i32⟩ : BufTy).Contents (Elt F) → (⟨S2000000, .i32⟩ : BufTy).Contents (Elt F)),
    StableHlo.ternary main_v271 main_v273 main_arg4 main_v274 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v274 main_v275 (broadcastInDim S2000000x1 ![0] bcast_S2000000_S2000000x1_0 : (⟨S2000000, .i32⟩ : BufTy).Contents (Elt F) → (⟨S2000000x1, .i32⟩ : BufTy).Contents (Elt F)),
    StableHlo.binary main_v216 main_v275 main_v276 ((fun x i => Host.gather gather_S400000x42_S2000000x1_S2000000x42_1_0_n_n_0_1_142 x i) : (⟨S400000x42, .f32⟩ : BufTy).Contents (Elt F) → (⟨S2000000x1, .i32⟩ : BufTy).Contents (Elt F) → (⟨S2000000x42, .f32⟩ : BufTy).Contents (Elt F)),
    StableHlo.reshape main_v276 main_v277 rfl shapeCasts_S2000000x42_S2000000x7x6,
    StableHlo.unary main_v269 main_v278 (broadcastInDim S2000000x7x1 ![0, 1] bcast_S2000000x7_S2000000x7x1_0_1 : (⟨S2000000x7, .f32⟩ : BufTy).Contents (Elt F) → (⟨S2000000x7x1, .f32⟩ : BufTy).Contents (Elt F)),
    StableHlo.unary main_v278 main_v279 (broadcastInDim S2000000x7x6 ![0, 1, 2] bcast_S2000000x7x1_S2000000x7x6_0_1_2 : (⟨S2000000x7x1, .f32⟩ : BufTy).Contents (Elt F) → (⟨S2000000x7x6, .f32⟩ : BufTy).Contents (Elt F)),
    StableHlo.binary main_v277 main_v279 main_v280 (mulf : (⟨S2000000x7x6, .f32⟩ : BufTy).Contents (Elt F) → (⟨S2000000x7x6, .f32⟩ : BufTy).Contents (Elt F) → (⟨S2000000x7x6, .f32⟩ : BufTy).Contents (Elt F)),
    StableHlo.reshape main_v280 main_v281 rfl shapeCasts_S2000000x7x6_S2000000x42 ]

/-- @main's 321 operations, in order: the windows' lists one after another. -/
abbrev ops : List (HloOp τ sig (Elt F)) :=
  ops_part0 ++ ops_part1 ++ ops_part2 ++ ops_part3 ++ ops_part4 ++ ops_part5

end Cert.ReferenceIdeal.HandRun

end
-- ==== Proof.RefRun.lean ====
/-
  The reference program runs: @main is its 321 host operations in order, so every weakly fair execution terminates with
  each buffer at the operations' fold over the launch contents; no operation writes an argument.
-/
import proofs.«429643_j30408368456387_3_alg».proof.Proof.RefOps
import Idealize.ShloMosaic.Lib.StableHlo.Run
import Idealize.ShloMosaic.Lib.Pipeline.Frame
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.ValueIdx Idealize.ShloMosaic.StableHlo

variable {F : FTy → Type} [FloatOps F]

/-! ## Each window of @main is its window of the operations

A window is a line of `hlo` steps that bind nothing; the line of its operations is the same term once the binds are
unfolded. -/

theorem part0_eq (c : Dev nD) : main_part0 (F := F) c = seq ops_part0 := rfl
theorem part1_eq (c : Dev nD) : main_part1 (F := F) c = seq ops_part1 := rfl
theorem part2_eq (c : Dev nD) : main_part2 (F := F) c = seq ops_part2 := rfl
theorem part3_eq (c : Dev nD) : main_part3 (F := F) c = seq ops_part3 := rfl
theorem part4_eq (c : Dev nD) : main_part4 (F := F) c = seq ops_part4 := rfl
theorem part5_eq (c : Dev nD) : main_part5 (F := F) c = seq ops_part5 := rfl

/-- @main is its operations, window after window. -/
theorem main_eq (c : Dev nD) : main (F := F) c = seq ops := by
  show (main_part0 c >>= fun _ => main_part1 c >>= fun _ => main_part2 c >>= fun _ => main_part3 c >>= fun _ =>
      main_part4 c >>= fun _ => main_part5 c)
    = seq (ops_part0 ++ ops_part1 ++ ops_part2 ++ ops_part3 ++ ops_part4 ++ ops_part5)
  -- the line of a concatenation is the lines one after the other; both sides then nest their binds to the right
  rw [seq_append, seq_append, seq_append, seq_append, seq_append]
  simp only [bind_assoc]
  rw [part0_eq c, part1_eq c, part2_eq c, part3_eq c, part4_eq c, part5_eq c]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

theorem part0_sub : (ops_part0 : List (HloOp τ sig (Elt F))).Forall fun op => op.bufs ⊆ tcRefs τ sig := by
  simp only [List.Forall, nullary_bufs_sub, unary_bufs_sub, binary_bufs_sub, reshape_bufs_sub, and_self]
theorem part1_sub : (ops_part1 : List (HloOp τ sig (Elt F))).Forall fun op => op.bufs ⊆ tcRefs τ sig := by
  simp only [List.Forall, nullary_bufs_sub, unary_bufs_sub, binary_bufs_sub, reshape_bufs_sub, and_self]
theorem part2_sub : (ops_part2 : List (HloOp τ sig (Elt F))).Forall fun op => op.bufs ⊆ tcRefs τ sig := by
  simp only [List.Forall, nullary_bufs_sub, unary_bufs_sub, binary_bufs_sub, reshape_bufs_sub, and_self]
theorem part3_sub : (ops_part3 : List (HloOp τ sig (Elt F))).Forall fun op => op.bufs ⊆ tcRefs τ sig := by
  simp only [List.Forall, nullary_bufs_sub, unary_bufs_sub, binary_bufs_sub, reshape_bufs_sub, nary_bufs_sub, and_self]
theorem part4_sub : (ops_part4 : List (HloOp τ sig (Elt F))).Forall fun op => op.bufs ⊆ tcRefs τ sig := by
  simp only [List.Forall, nullary_bufs_sub, unary_bufs_sub, binary_bufs_sub, and_self]
theorem part5_sub : (ops_part5 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr
    ⟨part0_sub, part1_sub⟩, part2_sub⟩, part3_sub⟩, part4_sub⟩, part5_sub⟩

/-! ## Every operation determines its results

None of the builders used here leaves a buffer's contents open. -/

section Fresh

variable (x a b c y : Ref sig .tc)

theorem nullary_fresh (v : y.ty.Contents (Elt F)) (hy) : (nullary (τ := τ) y v hy).fresh = ∅ := rfl
theorem unary_fresh (f : x.ty.Contents (Elt F) → y.ty.Contents (Elt F)) (hx hy) : (unary (τ := τ) x y f hx hy).fresh = ∅ := rfl
theorem binary_fresh (f : a.ty.Contents (Elt F) → b.ty.Contents (Elt F) → y.ty.Contents (Elt F)) (ha hb hy) :
    (binary (τ := τ) a b y f ha hb hy).fresh = ∅ := rfl
theorem ternary_fresh (f : c.ty.Contents (Elt F) → a.ty.Contents (Elt F) → b.ty.Contents (Elt F) → y.ty.Contents (Elt F)) (hc ha hb hy) :
    (ternary (τ := τ) c a b y f hc ha hb hy).fresh = ∅ := rfl
theorem reshape_fresh (he hn hx hy) : (reshape (τ := τ) (Val := Elt F) x y he hn hx hy).fresh = ∅ := rfl
theorem nary_fresh {n : Nat} (xs : Fin n → Ref sig .tc) (f : ((k : Fin n) → (xs k).ty.Contents (Elt F)) → y.ty.Contents (Elt F)) (hxs hy) :
    (nary (τ := τ) xs y f hxs hy).fresh = ∅ := rfl

end Fresh

theorem part0_fresh : (ops_part0 : List (HloOp τ sig (Elt F))).Forall fun op => op.fresh = ∅ := by
  simp only [List.Forall, nullary_fresh, unary_fresh, binary_fresh, reshape_fresh, and_self]
theorem part1_fresh : (ops_part1 : List (HloOp τ sig (Elt F))).Forall fun op => op.fresh = ∅ := by
  simp only [List.Forall, nullary_fresh, unary_fresh, binary_fresh, reshape_fresh, and_self]
theorem part2_fresh : (ops_part2 : List (HloOp τ sig (Elt F))).Forall fun op => op.fresh = ∅ := by
  simp only [List.Forall, nullary_fresh, unary_fresh, binary_fresh, reshape_fresh, and_self]
theorem part3_fresh : (ops_part3 : List (HloOp τ sig (Elt F))).Forall fun op => op.fresh = ∅ := by
  simp only [List.Forall, nullary_fresh, unary_fresh, binary_fresh, reshape_fresh, nary_fresh, and_self]
theorem part4_fresh : (ops_part4 : List (HloOp τ sig (Elt F))).Forall fun op => op.fresh = ∅ := by
  simp only [List.Forall, nullary_fresh, unary_fresh, binary_fresh, and_self]
theorem part5_fresh : (ops_part5 : List (HloOp τ sig (Elt F))).Forall fun op => op.fresh = ∅ := by
  simp only [List.Forall, nullary_fresh, unary_fresh, binary_fresh, ternary_fresh, reshape_fresh, nary_fresh, and_self]

theorem ops_fresh : ∀ op ∈ (ops : List (HloOp τ sig (Elt F))), op.fresh = ∅ :=
  List.forall_iff_forall_mem.mp (List.forall_append.mpr ⟨List.forall_append.mpr ⟨List.forall_append.mpr ⟨List.forall_append.mpr
    ⟨List.forall_append.mpr ⟨part0_fresh, part1_fresh⟩, part2_fresh⟩, part3_fresh⟩, part4_fresh⟩, part5_fresh⟩)

/-! ## No operation writes an argument

Window by window: every operation's result reference differs from each of the five arguments, so the fold leaves the
arguments' contents where they were. -/

set_option maxHeartbeats 1000000 in -- five passes over the window's sixty operations
theorem part0_args (V : Valuation τ sig (Elt F)) :
    after ops_part0 V (Proc.devRef .tc main_arg0) = V (Proc.devRef .tc main_arg0)
    ∧ after ops_part0 V (Proc.devRef .tc main_arg1) = V (Proc.devRef .tc main_arg1)
    ∧ after ops_part0 V (Proc.devRef .tc main_arg2) = V (Proc.devRef .tc main_arg2)
    ∧ after ops_part0 V (Proc.devRef .tc main_arg3) = V (Proc.devRef .tc main_arg3)
    ∧ after ops_part0 V (Proc.devRef .tc main_arg4) = V (Proc.devRef .tc main_arg4) := by
  refine ⟨?_, ?_, ?_, ?_, ?_⟩ <;> after_results_simp

set_option maxHeartbeats 1000000 in -- five passes over the window's sixty operations
theorem part1_args (V : Valuation τ sig (Elt F)) :
    after ops_part1 V (Proc.devRef .tc main_arg0) = V (Proc.devRef .tc main_arg0)
    ∧ after ops_part1 V (Proc.devRef .tc main_arg1) = V (Proc.devRef .tc main_arg1)
    ∧ after ops_part1 V (Proc.devRef .tc main_arg2) = V (Proc.devRef .tc main_arg2)
    ∧ after ops_part1 V (Proc.devRef .tc main_arg3) = V (Proc.devRef .tc main_arg3)
    ∧ after ops_part1 V (Proc.devRef .tc main_arg4) = V (Proc.devRef .tc main_arg4) := by
  refine ⟨?_, ?_, ?_, ?_, ?_⟩ <;> after_results_simp

set_option maxHeartbeats 1000000 in -- five passes over the window's sixty operations
theorem part2_args (V : Valuation τ sig (Elt F)) :
    after ops_part2 V (Proc.devRef .tc main_arg0) = V (Proc.devRef .tc main_arg0)
    ∧ after ops_part2 V (Proc.devRef .tc main_arg1) = V (Proc.devRef .tc main_arg1)
    ∧ after ops_part2 V (Proc.devRef .tc main_arg2) = V (Proc.devRef .tc main_arg2)
    ∧ after ops_part2 V (Proc.devRef .tc main_arg3) = V (Proc.devRef .tc main_arg3)
    ∧ after ops_part2 V (Proc.devRef .tc main_arg4) = V (Proc.devRef .tc main_arg4) := by
  refine ⟨?_, ?_, ?_, ?_, ?_⟩ <;> after_results_simp

set_option maxHeartbeats 1000000 in -- five passes over the window's sixty operations
theorem part3_args (V : Valuation τ sig (Elt F)) :
    after ops_part3 V (Proc.devRef .tc main_arg0) = V (Proc.devRef .tc main_arg0)
    ∧ after ops_part3 V (Proc.devRef .tc main_arg1) = V (Proc.devRef .tc main_arg1)
    ∧ after ops_part3 V (Proc.devRef .tc main_arg2) = V (Proc.devRef .tc main_arg2)
    ∧ after ops_part3 V (Proc.devRef .tc main_arg3) = V (Proc.devRef .tc main_arg3)
    ∧ after ops_part3 V (Proc.devRef .tc main_arg4) = V (Proc.devRef .tc main_arg4) := by
  refine ⟨?_, ?_, ?_, ?_, ?_⟩ <;> after_results_simp

set_option maxHeartbeats 1000000 in -- five passes over the window's sixty operations
theorem part4_args (V : Valuation τ sig (Elt F)) :
    after ops_part4 V (Proc.devRef .tc main_arg0) = V (Proc.devRef .tc main_arg0)
    ∧ after ops_part4 V (Proc.devRef .tc main_arg1) = V (Proc.devRef .tc main_arg1)
    ∧ after ops_part4 V (Proc.devRef .tc main_arg2) = V (Proc.devRef .tc main_arg2)
    ∧ after ops_part4 V (Proc.devRef .tc main_arg3) = V (Proc.devRef .tc main_arg3)
    ∧ after ops_part4 V (Proc.devRef .tc main_arg4) = V (Proc.devRef .tc main_arg4) := by
  refine ⟨?_, ?_, ?_, ?_, ?_⟩ <;> after_results_simp

set_option maxHeartbeats 1000000 in -- five passes over the window's twenty-one operations
theorem part5_args (V : Valuation τ sig (Elt F)) :
    after ops_part5 V (Proc.devRef .tc main_arg0) = V (Proc.devRef .tc main_arg0)
    ∧ after ops_part5 V (Proc.devRef .tc main_arg1) = V (Proc.devRef .tc main_arg1)
    ∧ after ops_part5 V (Proc.devRef .tc main_arg2) = V (Proc.devRef .tc main_arg2)
    ∧ after ops_part5 V (Proc.devRef .tc main_arg3) = V (Proc.devRef .tc main_arg3)
    ∧ after ops_part5 V (Proc.devRef .tc main_arg4) = V (Proc.devRef .tc main_arg4) := by
  refine ⟨?_, ?_, ?_, ?_, ?_⟩ <;> after_results_simp

/-- The whole line leaves the five arguments where they were: the fold over a concatenation is the folds in turn, and
    each window's fold keeps them. -/
theorem ops_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4) := by
  have h : after (ops : List (HloOp τ sig (Elt F))) V
      = after ops_part5 (after ops_part4 (after ops_part3 (after ops_part2 (after ops_part1 (after ops_part0 V))))) := by
    show after (ops_part0 ++ ops_part1 ++ ops_part2 ++ ops_part3 ++ ops_part4 ++ ops_part5) V = _
    rw [after_append, after_append, after_append, after_append, after_append]
  rw [h]
  refine ⟨?_, ?_, ?_, ?_, ?_⟩
  · rw [(part5_args _).1, (part4_args _).1, (part3_args _).1, (part2_args _).1, (part1_args _).1, (part0_args _).1]
  · rw [(part5_args _).2.1, (part4_args _).2.1, (part3_args _).2.1, (part2_args _).2.1, (part1_args _).2.1, (part0_args _).2.1]
  · rw [(part5_args _).2.2.1, (part4_args _).2.2.1, (part3_args _).2.2.1, (part2_args _).2.2.1, (part1_args _).2.2.1,
      (part0_args _).2.2.1]
  · rw [(part5_args _).2.2.2.1, (part4_args _).2.2.2.1, (part3_args _).2.2.2.1, (part2_args _).2.2.2.1, (part1_args _).2.2.2.1,
      (part0_args _).2.2.2.1]
  · rw [(part5_args _).2.2.2.2, (part4_args _).2.2.2.2, (part3_args _).2.2.2.2, (part2_args _).2.2.2.2, (part1_args _).2.2.2.2,
      (part0_args _).2.2.2.2]

/-! ## The run -/

/-- Every weakly fair execution of the reference terminates; the result buffer ends at the operations' fold over the
    launch contents and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v281) = after ops (launchContents m c) (Proc.devRef .tc main_v281)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v281,
      (h c main_arg0).trans (ops_args (launchContents m c)).1,
      (h c main_arg1).trans (ops_args (launchContents m c)).2.1,
      (h c main_arg2).trans (ops_args (launchContents m c)).2.2.1,
      (h c main_arg3).trans (ops_args (launchContents m c)).2.2.2.1,
      (h c main_arg4).trans (ops_args (launchContents m c)).2.2.2.2⟩)
    (run_seq scopedRefs_eq scopedSems_eq defs main (fun _ => ops) main_eq (fun _ => ops_sub) m ρ (fun _ => ops_fresh))

end Cert.ReferenceIdeal.HandRun

end
-- ==== Proof.RefTail.lean ====
/-
  The reference's last twelve operations as one function of its radial table (buffer v216), its angular table (buffer
  v269) and the index argument: the rows of the table at the wrapped indices times the angular table broadcast along
  the radial index.
-/
import proofs.«429643_j30408368456387_3_alg».proof.Proof.RefOps
import Idealize.ShloMosaic.Lib.StableHlo.Run
import Idealize.ShloMosaic.Lib.Pipeline.Frame
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.ValueIdx Idealize.ShloMosaic.StableHlo

variable {F : FTy → Type} [FloatOps F]

/-- A negative index is wrapped once by the table's 400000 rows; any other index is kept. -/
def wrapIdx (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 400000#32))) idx

/-- The wrapped indices as the gather's [2000000, 1] array of start indices. -/
def idxCol (idx : IVec S2000000 32) : IVec S2000000x1 32 :=
  broadcastInDim S2000000x1 ![0] bcast_S2000000_S2000000x1_0 (wrapIdx idx)

/-- Row t of the result is row (wrapped idx t) of the table. -/
def gathered (A : FVec F S400000x42 .f32) (idx : IVec S2000000 32) : FVec F S2000000x42 .f32 :=
  Host.gather gather_S400000x42_S2000000x1_S2000000x42_1_0_n_n_0_1_142 A (idxCol idx)

/-- Entry (t, 6l+k) of the gathered rows times entry (t, l) of the angular table. -/
def combine (G : FVec F S2000000x42 .f32) (C : FVec F S2000000x7 .f32) : FVec F S2000000x42 .f32 :=
  shapeCast S2000000x42 (mulf (shapeCast S2000000x7x6 G shapeCasts_S2000000x42_S2000000x7x6)
    (broadcastInDim S2000000x7x6 ![0, 1, 2] bcast_S2000000x7x1_S2000000x7x6_0_1_2
      (broadcastInDim S2000000x7x1 ![0, 1] bcast_S2000000x7_S2000000x7x1_0_1 C))) shapeCasts_S2000000x7x6_S2000000x42

/-- The reference's result from its two tables and the index argument. -/
def tailR (A : FVec F S400000x42 .f32) (C : FVec F S2000000x7 .f32) (idx : IVec S2000000 32) : FVec F S2000000x42 .f32 :=
  combine (gathered A idx) C

/-- No operation of a window writes the index argument: it reads after the window what it read before. -/
theorem tail_arg4_part0 (W : Valuation τ sig (Elt F)) :
    after ops_part0 W (Proc.devRef .tc main_arg4) = W (Proc.devRef .tc main_arg4) := by
  after_results_simp
theorem tail_arg4_part1 (W : Valuation τ sig (Elt F)) :
    after ops_part1 W (Proc.devRef .tc main_arg4) = W (Proc.devRef .tc main_arg4) := by
  after_results_simp
theorem tail_arg4_part2 (W : Valuation τ sig (Elt F)) :
    after ops_part2 W (Proc.devRef .tc main_arg4) = W (Proc.devRef .tc main_arg4) := by
  after_results_simp
theorem tail_arg4_part3 (W : Valuation τ sig (Elt F)) :
    after ops_part3 W (Proc.devRef .tc main_arg4) = W (Proc.devRef .tc main_arg4) := by
  after_results_simp
theorem tail_arg4_part4 (W : Valuation τ sig (Elt F)) :
    after ops_part4 W (Proc.devRef .tc main_arg4) = W (Proc.devRef .tc main_arg4) := by
  after_results_simp

/-- The last window does not write the radial table's buffer. -/
theorem tail_v216_part5 (W : Valuation τ sig (Elt F)) :
    after ops_part5 W (Proc.devRef .tc main_v216) = W (Proc.devRef .tc main_v216) := by
  after_results_simp

/-- The last window's result buffer, from the contents before the window: the window's last twelve operations composed
    are `tailR` of the radial table's buffer (not written in the window), the angular table's buffer as the window
    leaves it, and the index argument. Both sides open to the same composed term over the contents before the window. -/
theorem tail_out_part5 (W : Valuation τ sig (Elt F)) :
    after ops_part5 W (Proc.devRef .tc main_v281)
      = tailR (W (Proc.devRef .tc main_v216)) (after ops_part5 W (Proc.devRef .tc main_v269)) (W (Proc.devRef .tc main_arg4)) := by
  after_results_simp
  rfl

/-- The result buffer after all operations is `tailR` of buffers v216 and v269 after all operations and the index argument. -/
theorem out_eq (V0 : Valuation τ sig (Elt Ideal)) :
    after ops V0 (Proc.devRef .tc main_v281)
      = tailR (F := Ideal) (after ops V0 (Proc.devRef .tc main_v216)) (after ops V0 (Proc.devRef .tc main_v269)) (V0 (Proc.devRef .tc main_arg4)) := by
  simp only [ops, StableHlo.after_append]
  rw [tail_out_part5, tail_v216_part5, tail_arg4_part4, tail_arg4_part3, tail_arg4_part2, tail_arg4_part1, tail_arg4_part0]

end Cert.ReferenceIdeal.HandRun

end
-- ==== Proof.RefRbf.lean ====
/-
  The reference's radial table (buffer v216, after operations 1 to 216) is the radial table of the arguments: it computes
  env(x_e) * (norm[l,k] * j_l(zeros[l,k] * x_e)) with x^5 as x (x^2 x^2), the same factors grouped otherwise.

  The 321 operations are cut at the orders' boundaries: the envelope (operations 1 to 24), one stretch per order
  l = 0 .. 6 ending in that order's [6, 400000] block, the stretch that concatenates, transposes and multiplies
  (234 to 238), and the rest, which does not write v216. Each stretch is read at an index over ANY entry contents; the
  stretches after it leave a finished block alone.
-/
import proofs.«429643_j30408368456387_3_alg».proof.Proof.RefOps
import proofs.«429643_j30408368456387_3_alg».proof.Proof.Spec
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueLayout

noncomputable section

namespace Cert.ReferenceIdeal.HandRbf

open Cert.ReferenceIdeal Cert.ReferenceIdeal.Gen Idealize.ShloMosaic Idealize.ShloMosaic.TcCoe Idealize.SL.Sem Idealize.ShloMosaic.ValueIdx Idealize.ShloMosaic.StableHlo Cert.ReferenceIdeal.HandRun

/-! ## The stretches -/

/-- Operations 1 to 24: the scaled distance and the envelope. -/
def segE : List (HloOp τ sig (Elt Ideal)) := (ops_part0 (F := Ideal)).take 24
/-- Operations 25 to 38: order 0. -/
def seg0 : List (HloOp τ sig (Elt Ideal)) := ((ops_part0 (F := Ideal)).drop 24).take 14
/-- Operations 39 to 58: order 1. -/
def seg1 : List (HloOp τ sig (Elt Ideal)) := ((ops_part0 (F := Ideal)).drop 38).take 20
def t0 : List (HloOp τ sig (Elt Ideal)) := (ops_part0 (F := Ideal)).drop 58
def h1 : List (HloOp τ sig (Elt Ideal)) := (ops_part1 (F := Ideal)).take 23
/-- Operations 59 to 83: order 2. -/
def seg2 : List (HloOp τ sig (Elt Ideal)) := t0 ++ h1
/-- Operations 84 to 113: order 3. -/
def seg3 : List (HloOp τ sig (Elt Ideal)) := ((ops_part1 (F := Ideal)).drop 23).take 30
def t1 : List (HloOp τ sig (Elt Ideal)) := (ops_part1 (F := Ideal)).drop 53
def h2 : List (HloOp τ sig (Elt Ideal)) := (ops_part2 (F := Ideal)).take 28
/-- Operations 114 to 148: order 4. -/
def seg4 : List (HloOp τ sig (Elt Ideal)) := t1 ++ h2
def t2 : List (HloOp τ sig (Elt Ideal)) := (ops_part2 (F := Ideal)).drop 28
def h3 : List (HloOp τ sig (Elt Ideal)) := (ops_part3 (F := Ideal)).take 8
/-- Operations 149 to 188: order 5. -/
def seg5 : List (HloOp τ sig (Elt Ideal)) := t2 ++ h3
/-- Operations 189 to 233: order 6. -/
def seg6 : List (HloOp τ sig (Elt Ideal)) := ((ops_part3 (F := Ideal)).drop 8).take 45
/-- Operations 234 to 238: the seven blocks concatenated, transposed and multiplied by the envelope. -/
def segT : List (HloOp τ sig (Elt Ideal)) := ((ops_part3 (F := Ideal)).drop 53).take 5
def t3 : List (HloOp τ sig (Elt Ideal)) := (ops_part3 (F := Ideal)).drop 58
/-- Operations 239 to 321. -/
def segR : List (HloOp τ sig (Elt Ideal)) := t3 ++ (ops_part4 (F := Ideal) ++ ops_part5 (F := Ideal))

theorem part0_cut : ops_part0 (F := Ideal) = segE ++ (seg0 ++ (seg1 ++ t0)) := rfl
theorem part1_cut : ops_part1 (F := Ideal) = h1 ++ (seg3 ++ t1) := rfl
theorem part2_cut : ops_part2 (F := Ideal) = h2 ++ t2 := rfl
theorem part3_cut : ops_part3 (F := Ideal) = h3 ++ (seg6 ++ (segT ++ t3)) := rfl

/-- The 321 operations are the stretches one after another. -/
theorem ops_cut : ops (F := Ideal)
    = segE ++ (seg0 ++ (seg1 ++ (seg2 ++ (seg3 ++ (seg4 ++ (seg5 ++ (seg6 ++ (segT ++ segR)))))))) := by
  show ops_part0 (F := Ideal) ++ ops_part1 ++ ops_part2 ++ ops_part3 ++ ops_part4 ++ ops_part5 = _
  rw [part0_cut, part1_cut, part2_cut, part3_cut]
  simp only [seg2, seg4, seg5, segR, List.append_assoc]

/-! ## Host operations read at an index, over the extended reals -/

theorem hdiv_apply {s : Shape} {φ : FTy} (a b : FVec Ideal s φ) (i : s.Idx) : Host.divf a b i = Ideal.div (a i) (b i) := rfl
theorem hsin_apply {s : Shape} {φ : FTy} (a : FVec Ideal s φ) (i : s.Idx) : Host.sin a i = Ideal.sin (a i) := rfl
theorem hcos_apply {s : Shape} {φ : FTy} (a : FVec Ideal s φ) (i : s.Idx) : Host.cos a i = Ideal.cos (a i) := rfl

/-! ## The leaves of a block, of the envelope and of the table -/

/-- Row l of a 7 x 6 table, sliced, flattened and broadcast along the second axis, read at (k, e): the table at (l, k). -/
theorem row_apply (Z : S7x6.Idx → EReal) (l : Nat) (hl : l < 7) (h : S7x6.Slices ![l, 0] S1x6) (k : Fin 6) (e : Fin 400000) :
    broadcastInDim S6x400000 ![0, 1] bcast_S6x1_S6x400000_0_1
        (broadcastInDim S6x1 ![0] bcast_S6_S6x1_0 fun i =>
          shapeCast S6 (extractStridedSlice S1x6 ![l, 0] Z h) shapeCasts_S1x6_S6 i) (ix2 k e)
      = Z (ix2 (⟨l, hl⟩ : Fin 7) k) := by
  refine (broadcastInDim_apply _ _ _ (ix2 k e) (ix2 k (0 : Fin 1)) ?_).trans ?_
  · intro a; match a with
    | ⟨0, _⟩ => rfl
    | ⟨1, _⟩ => rfl
  refine (broadcastInDim_apply _ _ _ (ix2 k (0 : Fin 1)) (ix1 k) ?_).trans ?_
  · intro a; match a with
    | ⟨0, _⟩ => rfl
  refine (shapeCast_apply _ _ (ix1 k) (ix2 (0 : Fin 1) k) ?_).trans ?_
  · rw [Shape.rowMajor_val_two, Shape.rowMajor_val_one]
    show (0 : Nat) * 6 + k.val = k.val
    omega
  refine extractStridedSlice_apply _ _ _ (ix2 (0 : Fin 1) k) (ix2 (⟨l, hl⟩ : Fin 7) k) ?_
  intro a; match a with
  | ⟨0, _⟩ => (show l = l + 0; omega)
  | ⟨1, _⟩ => (show k.val = 0 + k.val; omega)

/-- A [400000] vector broadcast to [1, 400000] and then to [6, 400000], read at (k, e): the vector at e. -/
theorem col_apply (X : S400000.Idx → EReal) (k : Fin 6) (e : Fin 400000) :
    broadcastInDim S6x400000 ![0, 1] bcast_S1x400000_S6x400000_0_1
        (broadcastInDim S1x400000 ![1] bcast_S400000_S1x400000_1 X) (ix2 k e)
      = X (ix1 e) := by
  refine (broadcastInDim_apply _ _ _ (ix2 k e) (ix2 (0 : Fin 1) e) ?_).trans ?_
  · intro a; match a with
    | ⟨0, _⟩ => rfl
    | ⟨1, _⟩ => rfl
  refine broadcastInDim_apply _ _ _ (ix2 (0 : Fin 1) e) (ix1 e) ?_
  intro a; match a with
  | ⟨0, _⟩ => rfl

/-- A splat constant broadcast to [6, 400000] reads the extended real of its word. -/
theorem cst_apply (w : BitVec 32) (j : S6x400000.Idx) :
    broadcastInDim S6x400000 ![] bcast_S_S6x400000 (constant (F := Ideal) S_ .f32 w) j = Cert.Sph.lit w := rfl

/-- A splat constant broadcast to [400000] reads the extended real of its word. -/
theorem cst1_apply (w : BitVec 32) (j : S400000.Idx) :
    broadcastInDim S400000 ![] bcast_S_S400000 (constant (F := Ideal) S_ .f32 w) j = Cert.Sph.lit w := rfl

/-- A [400000] vector broadcast to [400000, 1] and then to [400000, 42], read at (e, q): the vector at e. -/
theorem ubc_apply (U : S400000.Idx → EReal) (e : Fin 400000) (q : Fin 42) :
    broadcastInDim S400000x42 ![0, 1] bcast_S400000x1_S400000x42_0_1
        (broadcastInDim S400000x1 ![0] bcast_S400000_S400000x1_0 U) (ix2 e q)
      = U (ix1 e) := by
  refine (broadcastInDim_apply _ _ _ (ix2 e q) (ix2 e (0 : Fin 1)) ?_).trans ?_
  · intro a; match a with
    | ⟨0, _⟩ => rfl
    | ⟨1, _⟩ => rfl
  refine broadcastInDim_apply _ _ _ (ix2 e (0 : Fin 1)) (ix1 e) ?_
  intro a; match a with
  | ⟨0, _⟩ => rfl

/-- Pieces of shape [6, 400000] concatenated along the first axis into [42, 400000] and transposed, read at (e, q) with
    q = 6 l + k: piece l at (k, e). -/
theorem cat_apply (xs : List ((s : Shape) × (s.Idx → EReal)))
    (h : Shape.Concatenates (xs.map (·.1)) S42x400000 0) (e : Fin 400000) (q : Fin 42) (k : Fin 6)
    (l : Nat) (hl : l < xs.length) (B : S6x400000.Idx → EReal) (hB : xs[l] = ⟨S6x400000, B⟩)
    (hpre : (((xs.take l).map (·.1)).map fun s =>
        if h : s.rank = S42x400000.rank then s.size ((0 : Fin S42x400000.rank).cast h.symm) else 0).sum = 6 * l)
    (hq : q.val = 6 * l + k.val) :
    transpose S400000x42 [1, 0] (concatenate S42x400000 0 xs h) transposes_S42x400000_S400000x42_1_0 (ix2 e q)
      = B (ix2 k e) := by
  refine (transpose_apply _ _ _ (ix2 e q) (ix2 q e) ?_).trans ?_
  · intro b; match b with
    | ⟨0, _⟩ => rfl
    | ⟨1, _⟩ => rfl
  refine concatenate_apply_piece 0 xs h (ix2 q e) l hl S6x400000 B hB rfl (6 * l) hpre (ix2 k e) ?_ ?_
  · intro b hb; match b, hb with
    | ⟨0, _⟩, hb => exact absurd rfl hb
    | ⟨1, _⟩, _ => rfl
  · show 6 * l + k.val = q.val
    omega

/-! ## The buffers the stretches pass on, typed as arrays of extended reals -/

/-- The 7 x 6 table of roots held in a valuation. -/
abbrev Zt (W : Valuation τ sig (Elt Ideal)) : S7x6.Idx → EReal := W (Proc.devRef .tc main_arg2)
/-- The 7 x 6 table of normalisers held in a valuation. -/
abbrev Nt (W : Valuation τ sig (Elt Ideal)) : S7x6.Idx → EReal := W (Proc.devRef .tc main_arg3)
/-- The distances held in a valuation. -/
abbrev Dv (W : Valuation τ sig (Elt Ideal)) : S400000.Idx → EReal := W (Proc.devRef .tc main_arg0)
/-- The scaled distances (buffer v1) held in a valuation. -/
abbrev Xv (W : Valuation τ sig (Elt Ideal)) : S400000.Idx → EReal := W (Proc.devRef .tc main_v1)
/-- The envelope (buffer v17) held in a valuation. -/
abbrev Uv (W : Valuation τ sig (Elt Ideal)) : S400000.Idx → EReal := W (Proc.devRef .tc main_v17)
/-- The block of order 0 .. 6 held in a valuation. -/
abbrev Bk0 (W : Valuation τ sig (Elt Ideal)) : S6x400000.Idx → EReal := W (Proc.devRef .tc main_v31)
abbrev Bk1 (W : Valuation τ sig (Elt Ideal)) : S6x400000.Idx → EReal := W (Proc.devRef .tc main_v51)
abbrev Bk2 (W : Valuation τ sig (Elt Ideal)) : S6x400000.Idx → EReal := W (Proc.devRef .tc main_v75)
abbrev Bk3 (W : Valuation τ sig (Elt Ideal)) : S6x400000.Idx → EReal := W (Proc.devRef .tc main_v103)
abbrev Bk4 (W : Valuation τ sig (Elt Ideal)) : S6x400000.Idx → EReal := W (Proc.devRef .tc main_v135)
abbrev Bk5 (W : Valuation τ sig (Elt Ideal)) : S6x400000.Idx → EReal := W (Proc.devRef .tc main_v171)
abbrev Bk6 (W : Valuation τ sig (Elt Ideal)) : S6x400000.Idx → EReal := W (Proc.devRef .tc main_v211)
/-- The table (buffer v216) held in a valuation. -/
abbrev Tv (W : Valuation τ sig (Elt Ideal)) : S400000x42.Idx → EReal := W (Proc.devRef .tc main_v216)

/-- The block of order l held in a valuation. -/
def blkOf (W : Valuation τ sig (Elt Ideal)) : Nat → S6x400000.Idx → EReal
  | 0 => Bk0 W | 1 => Bk1 W | 2 => Bk2 W | 3 => Bk3 W | 4 => Bk4 W | 5 => Bk5 W | _ => Bk6 W

/-! ## One order at a time

Each stretch is opened into its composed term over the entry contents W, read at (k, e) operation by operation, and its
leaves read: the root and the normaliser of row l at k, the scaled distance at e, the odd numbers 3 .. 11. What is left is
the recurrence of the specification, term for term. -/

/-- Order 0: the block's entry (k, e) is norm[0,k] * j_0(zeros[0,k] * x_e), whatever the entry contents. -/
theorem seg0_apply (W : Valuation τ sig (Elt Ideal)) (k : Fin 6) (e : Fin 400000) :
    Bk0 (after seg0 W) (ix2 k e)
      = Nt W (ix2 (⟨0, by omega⟩ : Fin 7) k) * Cert.Sph.j0 (Zt W (ix2 (⟨0, by omega⟩ : Fin 7) k) * Xv W (ix1 e)) := by
  simp only [seg0, ops_part0, List.drop_succ_cons, List.drop_zero, List.take_succ_cons, List.take_zero, List.cons_append, List.nil_append]
  after_results_simp
  simp only [mulf_apply, subf_apply, addf_apply, hdiv_apply, hsin_apply, hcos_apply]
  rw [col_apply]
  repeat rw [cst_apply]
  erw [row_apply (Nt W) 0 (by omega), row_apply (Zt W) 0 (by omega)]
  rfl

/-- Order 1: the block's entry (k, e) is norm[1,k] * j_1(zeros[1,k] * x_e), whatever the entry contents. -/
theorem seg1_apply (W : Valuation τ sig (Elt Ideal)) (k : Fin 6) (e : Fin 400000) :
    Bk1 (after seg1 W) (ix2 k e)
      = Nt W (ix2 (⟨1, by omega⟩ : Fin 7) k) * Cert.Sph.j1 (Zt W (ix2 (⟨1, by omega⟩ : Fin 7) k) * Xv W (ix1 e)) := by
  simp only [seg1, ops_part0, List.drop_succ_cons, List.drop_zero, List.take_succ_cons, List.take_zero, List.cons_append, List.nil_append]
  after_results_simp
  simp only [mulf_apply, subf_apply, addf_apply, hdiv_apply, hsin_apply, hcos_apply]
  rw [col_apply]
  repeat rw [cst_apply]
  erw [row_apply (Nt W) 1 (by omega), row_apply (Zt W) 1 (by omega)]
  rfl

/-- Order 2: the block's entry (k, e) is norm[2,k] * j_2(zeros[2,k] * x_e), whatever the entry contents. -/
theorem seg2_apply (W : Valuation τ sig (Elt Ideal)) (k : Fin 6) (e : Fin 400000) :
    Bk2 (after seg2 W) (ix2 k e)
      = Nt W (ix2 (⟨2, by omega⟩ : Fin 7) k) * Cert.Sph.j2 (Zt W (ix2 (⟨2, by omega⟩ : Fin 7) k) * Xv W (ix1 e)) := by
  simp only [seg2, t0, h1, ops_part0, ops_part1, List.drop_succ_cons, List.drop_zero, List.take_succ_cons, List.take_zero, List.cons_append, List.nil_append]
  after_results_simp
  simp only [mulf_apply, subf_apply, addf_apply, hdiv_apply, hsin_apply, hcos_apply]
  rw [col_apply]
  repeat rw [cst_apply]
  erw [row_apply (Nt W) 2 (by omega), row_apply (Zt W) 2 (by omega)]
  rfl

/-- Order 3: the block's entry (k, e) is norm[3,k] * j_3(zeros[3,k] * x_e), whatever the entry contents. -/
theorem seg3_apply (W : Valuation τ sig (Elt Ideal)) (k : Fin 6) (e : Fin 400000) :
    Bk3 (after seg3 W) (ix2 k e)
      = Nt W (ix2 (⟨3, by omega⟩ : Fin 7) k) * Cert.Sph.j3 (Zt W (ix2 (⟨3, by omega⟩ : Fin 7) k) * Xv W (ix1 e)) := by
  simp only [seg3, ops_part1, List.drop_succ_cons, List.drop_zero, List.take_succ_cons, List.take_zero, List.cons_append, List.nil_append]
  after_results_simp
  simp only [mulf_apply, subf_apply, addf_apply, hdiv_apply, hsin_apply, hcos_apply]
  rw [col_apply]
  repeat rw [cst_apply]
  erw [row_apply (Nt W) 3 (by omega), row_apply (Zt W) 3 (by omega)]
  rfl

/-- Order 4: the block's entry (k, e) is norm[4,k] * j_4(zeros[4,k] * x_e), whatever the entry contents. -/
theorem seg4_apply (W : Valuation τ sig (Elt Ideal)) (k : Fin 6) (e : Fin 400000) :
    Bk4 (after seg4 W) (ix2 k e)
      = Nt W (ix2 (⟨4, by omega⟩ : Fin 7) k) * Cert.Sph.j4 (Zt W (ix2 (⟨4, by omega⟩ : Fin 7) k) * Xv W (ix1 e)) := by
  simp only [seg4, t1, h2, ops_part1, ops_part2, List.drop_succ_cons, List.drop_zero, List.take_succ_cons, List.take_zero, List.cons_append, List.nil_append]
  after_results_simp
  simp only [mulf_apply, subf_apply, addf_apply, hdiv_apply, hsin_apply, hcos_apply]
  rw [col_apply]
  repeat rw [cst_apply]
  erw [row_apply (Nt W) 4 (by omega), row_apply (Zt W) 4 (by omega)]
  rfl

/-- Order 5: the block's entry (k, e) is norm[5,k] * j_5(zeros[5,k] * x_e), whatever the entry contents. -/
theorem seg5_apply (W : Valuation τ sig (Elt Ideal)) (k : Fin 6) (e : Fin 400000) :
    Bk5 (after seg5 W) (ix2 k e)
      = Nt W (ix2 (⟨5, by omega⟩ : Fin 7) k) * Cert.Sph.j5 (Zt W (ix2 (⟨5, by omega⟩ : Fin 7) k) * Xv W (ix1 e)) := by
  simp only [seg5, t2, h3, ops_part2, ops_part3, List.drop_succ_cons, List.drop_zero, List.take_succ_cons, List.take_zero, List.cons_append, List.nil_append]
  after_results_simp
  simp only [mulf_apply, subf_apply, addf_apply, hdiv_apply, hsin_apply, hcos_apply]
  rw [col_apply]
  repeat rw [cst_apply]
  erw [row_apply (Nt W) 5 (by omega), row_apply (Zt W) 5 (by omega)]
  rfl

/-- Order 6: the block's entry (k, e) is norm[6,k] * j_6(zeros[6,k] * x_e), whatever the entry contents. -/
theorem seg6_apply (W : Valuation τ sig (Elt Ideal)) (k : Fin 6) (e : Fin 400000) :
    Bk6 (after seg6 W) (ix2 k e)
      = Nt W (ix2 (⟨6, by omega⟩ : Fin 7) k) * Cert.Sph.j6 (Zt W (ix2 (⟨6, by omega⟩ : Fin 7) k) * Xv W (ix1 e)) := by
  simp only [seg6, ops_part3, List.drop_succ_cons, List.drop_zero, List.take_succ_cons, List.take_zero, List.cons_append, List.nil_append]
  after_results_simp
  simp only [mulf_apply, subf_apply, addf_apply, hdiv_apply, hsin_apply, hcos_apply]
  rw [col_apply]
  repeat rw [cst_apply]
  erw [row_apply (Nt W) 6 (by omega), row_apply (Zt W) 6 (by omega)]
  rfl

/-! ## The envelope, the table, and the specification's table at an index -/

/-- The table's entry (e, 6 l + k) is the envelope at e times block l at (k, e), whatever the entry contents. -/
theorem segT_apply (W : Valuation τ sig (Elt Ideal)) (e : Fin 400000) (q : Fin 42) (k : Fin 6) (l : Nat) (hl : l < 7)
    (hq : q.val = 6 * l + k.val) :
    Tv (after segT W) (ix2 e q) = Uv W (ix1 e) * blkOf W l (ix2 k e) := by
  simp only [segT, ops_part3, List.drop_succ_cons, List.drop_zero, List.take_succ_cons, List.take_zero, List.cons_append, List.nil_append]
  after_results_simp
  rw [mulf_apply, ubc_apply]
  refine congrArg (fun t => Uv W (ix1 e) * t) ?_
  interval_cases l
  · exact cat_apply _ _ e q k 0 (by show (0 : Nat) < 7; omega) (Bk0 W) rfl rfl hq
  · exact cat_apply _ _ e q k 1 (by show (1 : Nat) < 7; omega) (Bk1 W) rfl rfl hq
  · exact cat_apply _ _ e q k 2 (by show (2 : Nat) < 7; omega) (Bk2 W) rfl rfl hq
  · exact cat_apply _ _ e q k 3 (by show (3 : Nat) < 7; omega) (Bk3 W) rfl rfl hq
  · exact cat_apply _ _ e q k 4 (by show (4 : Nat) < 7; omega) (Bk4 W) rfl rfl hq
  · exact cat_apply _ _ e q k 5 (by show (5 : Nat) < 7; omega) (Bk5 W) rfl rfl hq
  · exact cat_apply _ _ e q k 6 (by show (6 : Nat) < 7; omega) (Bk6 W) rfl rfl hq

/-- The scaled distance at e is the distance at e over 5. -/
theorem segE_x (W : Valuation τ sig (Elt Ideal)) (e : Fin 400000) :
    Xv (after segE W) (ix1 e) = Cert.Sph.scaled (Dv W (ix1 e)) := by
  simp only [segE, ops_part0, List.drop_succ_cons, List.drop_zero, List.take_succ_cons, List.take_zero, List.cons_append, List.nil_append]
  after_results_simp
  simp only [mulf_apply, subf_apply, addf_apply, hdiv_apply, hsin_apply, hcos_apply]
  repeat rw [cst1_apply]
  rfl

/-- The envelope at e is the envelope of the scaled distance at e: the fifth power regrouped. -/
theorem segE_u (W : Valuation τ sig (Elt Ideal)) (e : Fin 400000) :
    Uv (after segE W) (ix1 e) = Cert.Sph.env (Cert.Sph.scaled (Dv W (ix1 e))) := by
  simp only [segE, ops_part0, List.drop_succ_cons, List.drop_zero, List.take_succ_cons, List.take_zero, List.cons_append, List.nil_append]
  after_results_simp
  simp only [mulf_apply, subf_apply, addf_apply, hdiv_apply, hsin_apply, hcos_apply]
  repeat rw [cst1_apply]
  rw [Cert.Sph.mul5]
  rfl

/-- The table of the specification at (e, 6 l + k). -/
theorem RBF_apply (d : S400000.Idx → EReal) (z n : S7x6.Idx → EReal) (e : Fin 400000) (q : Fin 42) (l : Nat) (hl : l < 7)
    (k : Fin 6) (hq : q.val = 6 * l + k.val) :
    Cert.Sph.RBF d z n (ix2 e q)
      = Cert.Sph.rbfEntry (d (ix1 e)) (z (ix2 (⟨l, hl⟩ : Fin 7) k)) (n (ix2 (⟨l, hl⟩ : Fin 7) k)) l := by
  obtain rfl : l = q.val / 6 := by omega
  obtain rfl : k = ⟨q.val % 6, Nat.mod_lt _ (by decide)⟩ := Fin.ext (by show k.val = q.val % 6; omega)
  rfl

/-! ## What each stretch leaves as it found it -/

theorem segE_keep (W : Valuation τ sig (Elt Ideal)) :
    Zt (after segE W) = Zt W ∧ Nt (after segE W) = Nt W := by
  simp only [segE, ops_part0, List.drop_succ_cons, List.drop_zero, List.take_succ_cons, List.take_zero, List.cons_append, List.nil_append]
  refine ⟨?_, ?_⟩ <;> after_results_simp

theorem seg0_keep (W : Valuation τ sig (Elt Ideal)) :
    Zt (after seg0 W) = Zt W ∧ Nt (after seg0 W) = Nt W ∧ Xv (after seg0 W) = Xv W ∧ Uv (after seg0 W) = Uv W := by
  simp only [seg0, ops_part0, List.drop_succ_cons, List.drop_zero, List.take_succ_cons, List.take_zero, List.cons_append, List.nil_append]
  refine ⟨?_, ?_, ?_, ?_⟩ <;> after_results_simp

theorem seg1_keep (W : Valuation τ sig (Elt Ideal)) :
    Zt (after seg1 W) = Zt W ∧ Nt (after seg1 W) = Nt W ∧ Xv (after seg1 W) = Xv W ∧ Uv (after seg1 W) = Uv W
      ∧ Bk0 (after seg1 W) = Bk0 W := by
  simp only [seg1, ops_part0, List.drop_succ_cons, List.drop_zero, List.take_succ_cons, List.take_zero, List.cons_append, List.nil_append]
  refine ⟨?_, ?_, ?_, ?_, ?_⟩ <;> after_results_simp

theorem seg2_keep (W : Valuation τ sig (Elt Ideal)) :
    Zt (after seg2 W) = Zt W ∧ Nt (after seg2 W) = Nt W ∧ Xv (after seg2 W) = Xv W ∧ Uv (after seg2 W) = Uv W
      ∧ Bk0 (after seg2 W) = Bk0 W ∧ Bk1 (after seg2 W) = Bk1 W := by
  simp only [seg2, t0, h1, ops_part0, ops_part1, List.drop_succ_cons, List.drop_zero, List.take_succ_cons, List.take_zero, List.cons_append, List.nil_append]
  refine ⟨?_, ?_, ?_, ?_, ?_, ?_⟩ <;> after_results_simp

theorem seg3_keep (W : Valuation τ sig (Elt Ideal)) :
    Zt (after seg3 W) = Zt W ∧ Nt (after seg3 W) = Nt W ∧ Xv (after seg3 W) = Xv W ∧ Uv (after seg3 W) = Uv W
      ∧ Bk0 (after seg3 W) = Bk0 W ∧ Bk1 (after seg3 W) = Bk1 W ∧ Bk2 (after seg3 W) = Bk2 W := by
  simp only [seg3, ops_part1, List.drop_succ_cons, List.drop_zero, List.take_succ_cons, List.take_zero, List.cons_append, List.nil_append]
  refine ⟨?_, ?_, ?_, ?_, ?_, ?_, ?_⟩ <;> after_results_simp

set_option maxHeartbeats 1000000 in
theorem seg4_keep (W : Valuation τ sig (Elt Ideal)) :
    Zt (after seg4 W) = Zt W ∧ Nt (after seg4 W) = Nt W ∧ Xv (after seg4 W) = Xv W ∧ Uv (after seg4 W) = Uv W
      ∧ Bk0 (after seg4 W) = Bk0 W ∧ Bk1 (after seg4 W) = Bk1 W ∧ Bk2 (after seg4 W) = Bk2 W
      ∧ Bk3 (after seg4 W) = Bk3 W := by
  simp only [seg4, t1, h2, ops_part1, ops_part2, List.drop_succ_cons, List.drop_zero, List.take_succ_cons, List.take_zero, List.cons_append, List.nil_append]
  refine ⟨?_, ?_, ?_, ?_, ?_, ?_, ?_, ?_⟩ <;> after_results_simp

set_option maxHeartbeats 1000000 in
theorem seg5_keep (W : Valuation τ sig (Elt Ideal)) :
    Zt (after seg5 W) = Zt W ∧ Nt (after seg5 W) = Nt W ∧ Xv (after seg5 W) = Xv W ∧ Uv (after seg5 W) = Uv W
      ∧ Bk0 (after seg5 W) = Bk0 W ∧ Bk1 (after seg5 W) = Bk1 W ∧ Bk2 (after seg5 W) = Bk2 W
      ∧ Bk3 (after seg5 W) = Bk3 W ∧ Bk4 (after seg5 W) = Bk4 W := by
  simp only [seg5, t2, h3, ops_part2, ops_part3, List.drop_succ_cons, List.drop_zero, List.take_succ_cons, List.take_zero, List.cons_append, List.nil_append]
  refine ⟨?_, ?_, ?_, ?_, ?_, ?_, ?_, ?_, ?_⟩ <;> after_results_simp

set_option maxHeartbeats 1000000 in
theorem seg6_keep (W : Valuation τ sig (Elt Ideal)) :
    Uv (after seg6 W) = Uv W
      ∧ Bk0 (after seg6 W) = Bk0 W ∧ Bk1 (after seg6 W) = Bk1 W ∧ Bk2 (after seg6 W) = Bk2 W
      ∧ Bk3 (after seg6 W) = Bk3 W ∧ Bk4 (after seg6 W) = Bk4 W ∧ Bk5 (after seg6 W) = Bk5 W := by
  simp only [seg6, ops_part3, List.drop_succ_cons, List.drop_zero, List.take_succ_cons, List.take_zero, List.cons_append, List.nil_append]
  refine ⟨?_, ?_, ?_, ?_, ?_, ?_, ?_⟩ <;> after_results_simp

/-- The operations after 238 do not write the table. -/
theorem segR_keep (W : Valuation τ sig (Elt Ideal)) : Tv (after segR W) = Tv W := by
  simp only [segR, t3, ops_part3, ops_part4, ops_part5, List.drop_succ_cons, List.drop_zero, List.take_succ_cons, List.take_zero, List.cons_append, List.nil_append]
  after_results_simp

/-! ## The radial table -/

/-- Buffer v216 after all operations is the radial table of the distance argument and the two 7 x 6 tables. -/
theorem rbf_ref (V0 : Valuation τ sig (Elt Ideal)) :
    after (ops (F := Ideal)) V0 (Proc.devRef .tc main_v216)
      = Cert.Sph.RBF (V0 (Proc.devRef .tc main_arg0)) (V0 (Proc.devRef .tc main_arg2)) (V0 (Proc.devRef .tc main_arg3)) := by
  rw [ops_cut]
  simp only [after_append]
  -- the contents between the stretches
  generalize hW0 : after segE V0 = W0
  generalize hW1 : after seg0 W0 = W1
  generalize hW2 : after seg1 W1 = W2
  generalize hW3 : after seg2 W2 = W3
  generalize hW4 : after seg3 W3 = W4
  generalize hW5 : after seg4 W4 = W5
  generalize hW6 : after seg5 W5 = W6
  generalize hW7 : after seg6 W6 = W7
  show Tv (after segR (after segT W7)) = _
  rw [segR_keep]
  -- the two tables, the scaled distance and the envelope reach every later stretch as they were; a finished block stays
  obtain ⟨zE, nE⟩ := segE_keep V0
  rw [hW0] at zE nE
  obtain ⟨z0, n0, x0, u0⟩ := seg0_keep W0
  rw [hW1] at z0 n0 x0 u0
  obtain ⟨z1, n1, x1, u1, a10⟩ := seg1_keep W1
  rw [hW2] at z1 n1 x1 u1 a10
  obtain ⟨z2, n2, x2, u2, a20, a21⟩ := seg2_keep W2
  rw [hW3] at z2 n2 x2 u2 a20 a21
  obtain ⟨z3, n3, x3, u3, a30, a31, a32⟩ := seg3_keep W3
  rw [hW4] at z3 n3 x3 u3 a30 a31 a32
  obtain ⟨z4, n4, x4, u4, a40, a41, a42, a43⟩ := seg4_keep W4
  rw [hW5] at z4 n4 x4 u4 a40 a41 a42 a43
  obtain ⟨z5, n5, x5, u5, a50, a51, a52, a53, a54⟩ := seg5_keep W5
  rw [hW6] at z5 n5 x5 u5 a50 a51 a52 a53 a54
  obtain ⟨u6, a60, a61, a62, a63, a64, a65⟩ := seg6_keep W6
  rw [hW7] at u6 a60 a61 a62 a63 a64 a65
  have Z1 : Zt W1 = Zt V0 := z0.trans zE
  have Z2 : Zt W2 = Zt V0 := z1.trans Z1
  have Z3 : Zt W3 = Zt V0 := z2.trans Z2
  have Z4 : Zt W4 = Zt V0 := z3.trans Z3
  have Z5 : Zt W5 = Zt V0 := z4.trans Z4
  have Z6 : Zt W6 = Zt V0 := z5.trans Z5
  have N1 : Nt W1 = Nt V0 := n0.trans nE
  have N2 : Nt W2 = Nt V0 := n1.trans N1
  have N3 : Nt W3 = Nt V0 := n2.trans N2
  have N4 : Nt W4 = Nt V0 := n3.trans N3
  have N5 : Nt W5 = Nt V0 := n4.trans N4
  have N6 : Nt W6 = Nt V0 := n5.trans N5
  have X1 : Xv W1 = Xv W0 := x0
  have X2 : Xv W2 = Xv W0 := x1.trans X1
  have X3 : Xv W3 = Xv W0 := x2.trans X2
  have X4 : Xv W4 = Xv W0 := x3.trans X3
  have X5 : Xv W5 = Xv W0 := x4.trans X4
  have X6 : Xv W6 = Xv W0 := x5.trans X5
  have U7 : Uv W7 = Uv W0 := u6.trans (u5.trans (u4.trans (u3.trans (u2.trans (u1.trans u0)))))
  have hx : ∀ e, Xv W0 (ix1 e) = Cert.Sph.scaled (Dv V0 (ix1 e)) := fun e => by
    rw [← hW0]; exact segE_x V0 e
  have hu : ∀ e, Uv W0 (ix1 e) = Cert.Sph.env (Cert.Sph.scaled (Dv V0 (ix1 e))) := fun e => by
    rw [← hW0]; exact segE_u V0 e
  -- the seven blocks as the table's stretch finds them
  have b0 : ∀ k e, Bk0 W7 (ix2 k e)
      = Nt V0 (ix2 (⟨0, by omega⟩ : Fin 7) k) * Cert.Sph.j0 (Zt V0 (ix2 (⟨0, by omega⟩ : Fin 7) k) * Xv W0 (ix1 e)) := fun k e => by
    rw [a60, a50, a40, a30, a20, a10, ← hW1, seg0_apply, zE, nE]
  have b1 : ∀ k e, Bk1 W7 (ix2 k e)
      = Nt V0 (ix2 (⟨1, by omega⟩ : Fin 7) k) * Cert.Sph.j1 (Zt V0 (ix2 (⟨1, by omega⟩ : Fin 7) k) * Xv W0 (ix1 e)) := fun k e => by
    rw [a61, a51, a41, a31, a21, ← hW2, seg1_apply, Z1, N1, X1]
  have b2 : ∀ k e, Bk2 W7 (ix2 k e)
      = Nt V0 (ix2 (⟨2, by omega⟩ : Fin 7) k) * Cert.Sph.j2 (Zt V0 (ix2 (⟨2, by omega⟩ : Fin 7) k) * Xv W0 (ix1 e)) := fun k e => by
    rw [a62, a52, a42, a32, ← hW3, seg2_apply, Z2, N2, X2]
  have b3 : ∀ k e, Bk3 W7 (ix2 k e)
      = Nt V0 (ix2 (⟨3, by omega⟩ : Fin 7) k) * Cert.Sph.j3 (Zt V0 (ix2 (⟨3, by omega⟩ : Fin 7) k) * Xv W0 (ix1 e)) := fun k e => by
    rw [a63, a53, a43, ← hW4, seg3_apply, Z3, N3, X3]
  have b4 : ∀ k e, Bk4 W7 (ix2 k e)
      = Nt V0 (ix2 (⟨4, by omega⟩ : Fin 7) k) * Cert.Sph.j4 (Zt V0 (ix2 (⟨4, by omega⟩ : Fin 7) k) * Xv W0 (ix1 e)) := fun k e => by
    rw [a64, a54, ← hW5, seg4_apply, Z4, N4, X4]
  have b5 : ∀ k e, Bk5 W7 (ix2 k e)
      = Nt V0 (ix2 (⟨5, by omega⟩ : Fin 7) k) * Cert.Sph.j5 (Zt V0 (ix2 (⟨5, by omega⟩ : Fin 7) k) * Xv W0 (ix1 e)) := fun k e => by
    rw [a65, ← hW6, seg5_apply, Z5, N5, X5]
  have b6 : ∀ k e, Bk6 W7 (ix2 k e)
      = Nt V0 (ix2 (⟨6, by omega⟩ : Fin 7) k) * Cert.Sph.j6 (Zt V0 (ix2 (⟨6, by omega⟩ : Fin 7) k) * Xv W0 (ix1 e)) := fun k e => by
    rw [← hW7, seg6_apply, Z6, N6, X6]
  -- entry (e, q), q = 6 l + k
  funext j
  obtain ⟨e, q, rfl⟩ : ∃ e q, j = ix2 e q := ⟨j 0, j 1, eq_ix2 j⟩
  have hq := q.isLt
  have hk : q.val % 6 < 6 := Nat.mod_lt _ (by decide)
  obtain ⟨l, hl⟩ : ∃ l, q.val / 6 = l := ⟨_, rfl⟩
  have hl7 : l < 7 := by omega
  have hqk : q.val = 6 * l + (⟨q.val % 6, hk⟩ : Fin 6).val := by
    show q.val = 6 * l + q.val % 6
    omega
  rw [RBF_apply _ _ _ e q l hl7 ⟨q.val % 6, hk⟩ hqk]
  refine (segT_apply W7 e q ⟨q.val % 6, hk⟩ l hl7 hqk).trans ?_
  rw [U7, hu e]
  -- the envelope times (the normaliser times the Bessel value) is the specification's grouping
  interval_cases l
  · show _ * Bk0 W7 _ = _
    rw [b0, hx e]
    exact Cert.Sph.mul_env _ _ _
  · show _ * Bk1 W7 _ = _
    rw [b1, hx e]
    exact Cert.Sph.mul_env _ _ _
  · show _ * Bk2 W7 _ = _
    rw [b2, hx e]
    exact Cert.Sph.mul_env _ _ _
  · show _ * Bk3 W7 _ = _
    rw [b3, hx e]
    exact Cert.Sph.mul_env _ _ _
  · show _ * Bk4 W7 _ = _
    rw [b4, hx e]
    exact Cert.Sph.mul_env _ _ _
  · show _ * Bk5 W7 _ = _
    rw [b5, hx e]
    exact Cert.Sph.mul_env _ _ _
  · show _ * Bk6 W7 _ = _
    rw [b6, hx e]
    exact Cert.Sph.mul_env _ _ _

end Cert.ReferenceIdeal.HandRbf

end
-- ==== Proof.RefCbf.lean ====
/-
  The reference's angular table (buffer v269) is the angular table of the angle argument: it computes P_l(cos angle) * pref_l,
  the two factors in the other order.

  The operations run window after window. The prefactor table is written by the first operation and kept until the last
  window reads it; the angle argument is never written. The fourth window ends with the cosine vector c and the scalar
  one; the fifth computes the Legendre vectors P_2 .. P_6 from c and the vector of ones by the three-term recurrence,
  each step ((w1 c) P_(l-1) - w2 P_(l-2)) / w3 with the three words broadcast; the last window sets the seven vectors side
  by side as columns and multiplies by the prefactor row repeated down the rows. Read at (t, l) this is
  P_l(cos angle_t) * pref_l, and multiplication on the extended reals is commutative.
-/
import proofs.«429643_j30408368456387_3_alg».proof.Proof.RefOps
import proofs.«429643_j30408368456387_3_alg».proof.Proof.Spec
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueLayout

noncomputable section

namespace Cert.ReferenceIdeal.HandCbf

open Cert.ReferenceIdeal Cert.ReferenceIdeal.Gen Idealize.ShloMosaic Idealize.ShloMosaic.TcCoe Idealize.SL.Sem Idealize.ShloMosaic.ValueIdx Idealize.ShloMosaic.StableHlo Cert.ReferenceIdeal.HandRun

open Cert.Sph

/-- A vector as a one-column array. -/
abbrev col (x : FVec Ideal S2000000 .f32) : FVec Ideal S2000000x1 .f32 :=
  broadcastInDim S2000000x1 ![0] bcast_S2000000_S2000000x1_0 x

/-- The one column at row t is the vector at t. -/
theorem col_apply (x : FVec Ideal S2000000 .f32) (t : Fin 2000000) : col x (ix2 t (0 : Fin 1)) = x (ix1 t) :=
  broadcastInDim_apply _ _ x (ix2 t (0 : Fin 1)) (ix1 t) fun a => by
    match a with
    | ⟨0, _⟩ => exact (if_neg (show ¬((2000000 : Nat) = 1) by decide)).symm

/-- The scalar of word w at every index of the vector. -/
def kc (w : BitVec 32) : FVec Ideal S2000000 .f32 :=
  broadcastInDim S2000000 ![] bcast_S_S2000000 (constant S_ .f32 w)

theorem kc_apply (w : BitVec 32) (i : S2000000.Idx) : kc w i = lit w := rfl

/-- One Legendre step on vectors: ((w1 c) p1 - w2 p2) / w3, the three words broadcast. -/
def stepV (w1 w2 w3 : BitVec 32) (c p1 p2 : FVec Ideal S2000000 .f32) : FVec Ideal S2000000 .f32 :=
  Host.divf (subf (mulf (mulf (kc w1) c) p1) (mulf (kc w2) p2)) (kc w3)

theorem stepV_apply (w1 w2 w3 : BitVec 32) (c p1 p2 : FVec Ideal S2000000 .f32) (i : S2000000.Idx) :
    stepV w1 w2 w3 c p1 p2 i = pstep w1 w2 w3 (c i) (p1 i) (p2 i) := rfl

/-- The Legendre vectors of degrees 2 to 6 from the cosine vector c and the vector o of degree 0. -/
def P2V (c o : FVec Ideal S2000000 .f32) : FVec Ideal S2000000 .f32 :=
  stepV 0x40400000#32 0x3F800000#32 0x40000000#32 c c o
def P3V (c o : FVec Ideal S2000000 .f32) : FVec Ideal S2000000 .f32 :=
  stepV 0x40A00000#32 0x40000000#32 0x40400000#32 c (P2V c o) c
def P4V (c o : FVec Ideal S2000000 .f32) : FVec Ideal S2000000 .f32 :=
  stepV 0x40E00000#32 0x40400000#32 0x40800000#32 c (P3V c o) (P2V c o)
def P5V (c o : FVec Ideal S2000000 .f32) : FVec Ideal S2000000 .f32 :=
  stepV 0x41100000#32 0x40800000#32 0x40A00000#32 c (P4V c o) (P3V c o)
def P6V (c o : FVec Ideal S2000000 .f32) : FVec Ideal S2000000 .f32 :=
  stepV 0x41300000#32 0x40A00000#32 0x40C00000#32 c (P5V c o) (P4V c o)

/-- With o the constant one, each Legendre vector at an index is the Legendre polynomial of the cosine there. -/
theorem P2V_apply (c : FVec Ideal S2000000 .f32) (i : S2000000.Idx) : P2V c (kc 0x3F800000#32) i = p2 (c i) := rfl
theorem P3V_apply (c : FVec Ideal S2000000 .f32) (i : S2000000.Idx) : P3V c (kc 0x3F800000#32) i = p3 (c i) := by
  unfold P3V p3; rw [stepV_apply, P2V_apply]
theorem P4V_apply (c : FVec Ideal S2000000 .f32) (i : S2000000.Idx) : P4V c (kc 0x3F800000#32) i = p4 (c i) := by
  unfold P4V p4; rw [stepV_apply, P3V_apply, P2V_apply]
theorem P5V_apply (c : FVec Ideal S2000000 .f32) (i : S2000000.Idx) : P5V c (kc 0x3F800000#32) i = p5 (c i) := by
  unfold P5V p5; rw [stepV_apply, P4V_apply, P3V_apply]
theorem P6V_apply (c : FVec Ideal S2000000 .f32) (i : S2000000.Idx) : P6V c (kc 0x3F800000#32) i = p6 (c i) := by
  unfold P6V p6; rw [stepV_apply, P5V_apply, P4V_apply]

/-- Seven one-column arrays side by side, read at (t, l): the l-th of them at row t. -/
theorem concat7_apply (x0 x1 x2 x3 x4 x5 x6 : FVec Ideal S2000000x1 .f32) (t : Fin 2000000) (l : Fin 7) :
    concatenate S2000000x7 1
        [⟨S2000000x1, x0⟩, ⟨S2000000x1, x1⟩, ⟨S2000000x1, x2⟩, ⟨S2000000x1, x3⟩, ⟨S2000000x1, x4⟩, ⟨S2000000x1, x5⟩, ⟨S2000000x1, x6⟩]
        concatenates_S2000000x1_S2000000x1_S2000000x1_S2000000x1_S2000000x1_S2000000x1_S2000000x1_S2000000x7_d1 (ix2 t l)
      = (![x0, x1, x2, x3, x4, x5, x6] l) (ix2 t (0 : Fin 1)) := by
  have hi : ∀ (l : Fin 7) (b : Fin S2000000x1.rank), b.cast (rfl : S2000000x1.rank = S2000000x7.rank) ≠ (1 : Fin S2000000x7.rank) →
      ((ix2 t (0 : Fin 1)) b).val = ((ix2 t l) (b.cast rfl)).val := fun l b hb => by
    match b with
    | ⟨0, _⟩ => rfl
    | ⟨1, _⟩ => exact absurd rfl hb
  match l with
  | ⟨0, h⟩ =>
    refine concatenate_apply_piece (1 : Fin 2) _ _ (ix2 t (⟨0, h⟩ : Fin 7)) 0 ?_ S2000000x1 x0 ?_ rfl 0 ?_ (ix2 t (0 : Fin 1)) (hi _) ?_
    · show 0 < 7; decide
    · rfl
    · rfl
    · rfl
  | ⟨1, h⟩ =>
    refine concatenate_apply_piece (1 : Fin 2) _ _ (ix2 t (⟨1, h⟩ : Fin 7)) 1 ?_ S2000000x1 x1 ?_ rfl 1 ?_ (ix2 t (0 : Fin 1)) (hi _) ?_
    · show 1 < 7; decide
    · rfl
    · rfl
    · rfl
  | ⟨2, h⟩ =>
    refine concatenate_apply_piece (1 : Fin 2) _ _ (ix2 t (⟨2, h⟩ : Fin 7)) 2 ?_ S2000000x1 x2 ?_ rfl 2 ?_ (ix2 t (0 : Fin 1)) (hi _) ?_
    · show 2 < 7; decide
    · rfl
    · rfl
    · rfl
  | ⟨3, h⟩ =>
    refine concatenate_apply_piece (1 : Fin 2) _ _ (ix2 t (⟨3, h⟩ : Fin 7)) 3 ?_ S2000000x1 x3 ?_ rfl 3 ?_ (ix2 t (0 : Fin 1)) (hi _) ?_
    · show 3 < 7; decide
    · rfl
    · rfl
    · rfl
  | ⟨4, h⟩ =>
    refine concatenate_apply_piece (1 : Fin 2) _ _ (ix2 t (⟨4, h⟩ : Fin 7)) 4 ?_ S2000000x1 x4 ?_ rfl 4 ?_ (ix2 t (0 : Fin 1)) (hi _) ?_
    · show 4 < 7; decide
    · rfl
    · rfl
    · rfl
  | ⟨5, h⟩ =>
    refine concatenate_apply_piece (1 : Fin 2) _ _ (ix2 t (⟨5, h⟩ : Fin 7)) 5 ?_ S2000000x1 x5 ?_ rfl 5 ?_ (ix2 t (0 : Fin 1)) (hi _) ?_
    · show 5 < 7; decide
    · rfl
    · rfl
    · rfl
  | ⟨6, h⟩ =>
    refine concatenate_apply_piece (1 : Fin 2) _ _ (ix2 t (⟨6, h⟩ : Fin 7)) 6 ?_ S2000000x1 x6 ?_ rfl 6 ?_ (ix2 t (0 : Fin 1)) (hi _) ?_
    · show 6 < 7; decide
    · rfl
    · rfl
    · rfl

/-- The seven prefactor words as a vector. -/
def cstTab : FVec Ideal S7 .f32 := fun i => FloatOps.ofBits .f32 (lit0 (S7.rowMajor i))

/-- The prefactor table's words are the specification's. -/
theorem lit0_eq (x : Fin 7) : lit0 x = prefWord x.val := by
  match x with
  | ⟨0, _⟩ => rfl | ⟨1, _⟩ => rfl | ⟨2, _⟩ => rfl | ⟨3, _⟩ => rfl | ⟨4, _⟩ => rfl | ⟨5, _⟩ => rfl | ⟨6, _⟩ => rfl

/-- The prefactor vector as a row, repeated down the rows, read at (t, l): the word of degree l. -/
theorem cst_apply (t : Fin 2000000) (l : Fin 7) :
    broadcastInDim S2000000x7 ![0, 1] bcast_S1x7_S2000000x7_0_1 (broadcastInDim S1x7 ![1] bcast_S7_S1x7_1 cstTab) (ix2 t l)
      = lit (prefWord l.val) := by
  refine (broadcastInDim_apply _ _ _ (ix2 t l) (ix2 (0 : Fin 1) l) fun a => ?_).trans
    ((broadcastInDim_apply _ _ cstTab (ix2 (0 : Fin 1) l) (ix1 l) fun a => ?_).trans ?_)
  · match a with
    | ⟨0, _⟩ => exact (if_pos rfl).symm
    | ⟨1, _⟩ => exact (if_neg (show ¬((7 : Nat) = 1) by decide)).symm
  · match a with
    | ⟨0, _⟩ => exact (if_neg (show ¬((7 : Nat) = 1) by decide)).symm
  · show lit (lit0 (S7.rowMajor (ix1 l))) = _
    exact congrArg lit ((lit0_eq _).trans (congrArg prefWord (Shape.rowMajor_val_one _)))

/-- Rewrites each remaining operation result at its own buffer to its function's value and at any other buffer to what was there. -/
local macro "results_rw" : tactic =>
  `(tactic| repeat (first
      | rw [unary_result] | rw [binary_result] | rw [nullary_result]
      | (rw [unary_result_ne]; rotate_left; decide)
      | (rw [binary_result_ne]; rotate_left; decide)
      | (rw [nullary_result_ne]; rotate_left; decide)
      | (rw [nary_result_ne]; rotate_left; decide)))

section Windows
variable (V : Valuation τ sig (Elt Ideal))

/-! ### The prefactor table: written first, kept by the next four windows -/

theorem w0_cst : after (ops_part0 (F := Ideal)) V (Proc.devRef .tc main_cst) = cstTab := by
  after_results_simp
  rfl
theorem keep1_cst : after (ops_part1 (F := Ideal)) V (Proc.devRef .tc main_cst) = V (Proc.devRef .tc main_cst) := by
  after_results_simp
theorem keep2_cst : after (ops_part2 (F := Ideal)) V (Proc.devRef .tc main_cst) = V (Proc.devRef .tc main_cst) := by
  after_results_simp
theorem keep3_cst : after (ops_part3 (F := Ideal)) V (Proc.devRef .tc main_cst) = V (Proc.devRef .tc main_cst) := by
  after_results_simp
theorem keep4_cst : after (ops_part4 (F := Ideal)) V (Proc.devRef .tc main_cst) = V (Proc.devRef .tc main_cst) := by
  after_results_simp

/-! ### The angle argument: no window writes it -/

theorem keep0_arg1 : after (ops_part0 (F := Ideal)) V (Proc.devRef .tc main_arg1) = V (Proc.devRef .tc main_arg1) := by
  after_results_simp
theorem keep1_arg1 : after (ops_part1 (F := Ideal)) V (Proc.devRef .tc main_arg1) = V (Proc.devRef .tc main_arg1) := by
  after_results_simp
theorem keep2_arg1 : after (ops_part2 (F := Ideal)) V (Proc.devRef .tc main_arg1) = V (Proc.devRef .tc main_arg1) := by
  after_results_simp

/-! ### The fourth window ends with the cosine vector and the scalar one -/

theorem w3_cos : after (ops_part3 (F := Ideal)) V (Proc.devRef .tc main_v217) = (Host.cos (V (Proc.devRef .tc main_arg1) : FVec Ideal S2000000 .f32) : FVec Ideal S2000000 .f32) := by
  after_results_simp
theorem w3_one : after (ops_part3 (F := Ideal)) V (Proc.devRef .tc main_cst_20) = (constant S_ .f32 0x3F800000#32 : FVec Ideal S_ .f32) := by
  after_results_simp

/-! ### The fifth window: the Legendre vectors from the cosine vector and the scalar one -/

theorem w4_259 : after (ops_part4 (F := Ideal)) V (Proc.devRef .tc main_v259) = col (broadcastInDim S2000000 ![] bcast_S_S2000000 (V (Proc.devRef .tc main_cst_20))) := by
  after_results_simp
theorem w4_260 : after (ops_part4 (F := Ideal)) V (Proc.devRef .tc main_v260) = col (V (Proc.devRef .tc main_v217)) := by
  after_results_simp
theorem w4_261 : after (ops_part4 (F := Ideal)) V (Proc.devRef .tc main_v261) = col (P2V (V (Proc.devRef .tc main_v217)) (broadcastInDim S2000000 ![] bcast_S_S2000000 (V (Proc.devRef .tc main_cst_20)))) := by
  after_results_simp
  rfl
theorem w4_262 : after (ops_part4 (F := Ideal)) V (Proc.devRef .tc main_v262) = col (P3V (V (Proc.devRef .tc main_v217)) (broadcastInDim S2000000 ![] bcast_S_S2000000 (V (Proc.devRef .tc main_cst_20)))) := by
  after_results_simp
  rfl
theorem w4_242 : after (ops_part4 (F := Ideal)) V (Proc.devRef .tc main_v242) = P4V (V (Proc.devRef .tc main_v217)) (broadcastInDim S2000000 ![] bcast_S_S2000000 (V (Proc.devRef .tc main_cst_20))) := by
  after_results_simp
  rfl
theorem w4_250 : after (ops_part4 (F := Ideal)) V (Proc.devRef .tc main_v250) = P5V (V (Proc.devRef .tc main_v217)) (broadcastInDim S2000000 ![] bcast_S_S2000000 (V (Proc.devRef .tc main_cst_20))) := by
  after_results_simp
  rfl
theorem w4_258 : after (ops_part4 (F := Ideal)) V (Proc.devRef .tc main_v258) = P6V (V (Proc.devRef .tc main_v217)) (broadcastInDim S2000000 ![] bcast_S_S2000000 (V (Proc.devRef .tc main_cst_20))) := by
  after_results_simp
  rfl

/-! ### The last window: the seven columns side by side times the prefactor row -/

theorem w5 :
    after (ops_part5 (F := Ideal)) V (Proc.devRef .tc main_v269)
      = mulf (concatenate S2000000x7 1
          [⟨S2000000x1, V (Proc.devRef .tc main_v259)⟩, ⟨S2000000x1, V (Proc.devRef .tc main_v260)⟩,
           ⟨S2000000x1, V (Proc.devRef .tc main_v261)⟩, ⟨S2000000x1, V (Proc.devRef .tc main_v262)⟩,
           ⟨S2000000x1, col (V (Proc.devRef .tc main_v242))⟩, ⟨S2000000x1, col (V (Proc.devRef .tc main_v250))⟩,
           ⟨S2000000x1, col (V (Proc.devRef .tc main_v258))⟩]
          concatenates_S2000000x1_S2000000x1_S2000000x1_S2000000x1_S2000000x1_S2000000x1_S2000000x1_S2000000x7_d1)
        (broadcastInDim S2000000x7 ![0, 1] bcast_S1x7_S2000000x7_0_1
          (broadcastInDim S1x7 ![1] bcast_S7_S1x7_1 (V (Proc.devRef .tc main_cst)))) := by
  simp (disch := decide) only [after_cons, after_nil,
      nullary_result', unary_result', binary_result', ternary_result', reshape_result', nary_result', Matrix.cons_val,
      nullary_result_ne', unary_result_ne', binary_result_ne', ternary_result_ne', reshape_result_ne', nary_result_ne']
  results_rw

end Windows

/-- The last window's value at (t, l), over the named vectors, is the specification's entry: the column l at row t is
    the Legendre polynomial of degree l at the cosine of angle t, the prefactor row gives the word of degree l, and the
    product's two factors change places. -/
theorem cbf_at (angle : FVec Ideal S2000000 .f32) (t : Fin 2000000) (l : Fin 7) :
    mulf (concatenate S2000000x7 1
          [⟨S2000000x1, col (kc 0x3F800000#32)⟩, ⟨S2000000x1, col (Host.cos angle)⟩,
           ⟨S2000000x1, col (P2V (Host.cos angle) (kc 0x3F800000#32))⟩, ⟨S2000000x1, col (P3V (Host.cos angle) (kc 0x3F800000#32))⟩,
           ⟨S2000000x1, col (P4V (Host.cos angle) (kc 0x3F800000#32))⟩, ⟨S2000000x1, col (P5V (Host.cos angle) (kc 0x3F800000#32))⟩,
           ⟨S2000000x1, col (P6V (Host.cos angle) (kc 0x3F800000#32))⟩]
          concatenates_S2000000x1_S2000000x1_S2000000x1_S2000000x1_S2000000x1_S2000000x1_S2000000x1_S2000000x7_d1)
        (broadcastInDim S2000000x7 ![0, 1] bcast_S1x7_S2000000x7_0_1 (broadcastInDim S1x7 ![1] bcast_S7_S1x7_1 cstTab)) (ix2 t l)
      = CBF angle (ix2 t l) := by
  rw [mulf_apply, concat7_apply, cst_apply, mul_comm]
  show _ = lit (prefWord l.val) * legendre l.val (Ideal.cos (angle (ix1 t)))
  congr 1
  match l with
  | ⟨0, _⟩ => exact (col_apply _ t).trans (kc_apply _ _)
  | ⟨1, _⟩ => exact col_apply (Host.cos angle) t
  | ⟨2, _⟩ => exact (col_apply _ t).trans (P2V_apply _ _)
  | ⟨3, _⟩ => exact (col_apply _ t).trans (P3V_apply _ _)
  | ⟨4, _⟩ => exact (col_apply _ t).trans (P4V_apply _ _)
  | ⟨5, _⟩ => exact (col_apply _ t).trans (P5V_apply _ _)
  | ⟨6, _⟩ => exact (col_apply _ t).trans (P6V_apply _ _)

/-- Buffer v269 after all operations is the angular table of the angle argument. -/
theorem cbf_ref (V0 : Valuation τ sig (Elt Ideal)) :
    after (ops (F := Ideal)) V0 (Proc.devRef .tc main_v269)
      = Cert.Sph.CBF (V0 (Proc.devRef .tc main_arg1)) := by
  have hcut : after (ops (F := Ideal)) V0
      = after ops_part5 (after ops_part4 (after ops_part3 (after ops_part2 (after ops_part1 (after ops_part0 V0))))) := by
    show after (ops_part0 ++ ops_part1 ++ ops_part2 ++ ops_part3 ++ ops_part4 ++ ops_part5) V0 = _
    rw [after_append, after_append, after_append, after_append, after_append]
  rw [hcut, w5, w4_259, w4_260, w4_261, w4_262, w4_242, w4_250, w4_258, w3_cos, w3_one,
    keep4_cst, keep3_cst, keep2_cst, keep1_cst, w0_cst, keep2_arg1, keep1_arg1, keep0_arg1]
  funext j
  obtain ⟨t, l, rfl⟩ : ∃ (t : Fin 2000000) (l : Fin 7), j = ix2 t l := ⟨j 0, j 1, eq_ix2 j⟩
  exact cbf_at (V0 (Proc.devRef .tc main_arg1)) t l

end Cert.ReferenceIdeal.HandCbf

end
-- ==== Proof.Claims.lean ====
/-
  The five claims from the pieces.
  Both programs end in the same closing computation: the rows of a radial table at the wrapped indices, times an
  angular table broadcast along the radial index. The kernel program's two tables are its two regions' output arrays,
  the reference's are two of its intermediate buffers; each pair is the radial table RBF and the angular table CBF of
  the arguments (Spec). The kernel program replaces a row whose wrapped index is out of range by a fill word; under the
  precondition every index lies in [-400000, 400000), so no row is replaced. The arguments agree, so the results do.
-/
import proofs.«429643_j30408368456387_3_alg».proof.Defs
import proofs.«429643_j30408368456387_3_alg».proof.Proof.Gen.Kernel.Frame
import proofs.«429643_j30408368456387_3_alg».proof.Proof.Gen.KernelIdeal.Frame
import proofs.«429643_j30408368456387_3_alg».proof.Proof.Gen.ReferenceIdeal
import proofs.«429643_j30408368456387_3_alg».proof.Proof.Gen.Pre_finite_inputs
import proofs.«429643_j30408368456387_3_alg».proof.Proof.KRun
import proofs.«429643_j30408368456387_3_alg».proof.Proof.KTail
import proofs.«429643_j30408368456387_3_alg».proof.Proof.KMask
import proofs.«429643_j30408368456387_3_alg».proof.Proof.KRegion0
import proofs.«429643_j30408368456387_3_alg».proof.Proof.KRegion1
import proofs.«429643_j30408368456387_3_alg».proof.Proof.PreRange
import proofs.«429643_j30408368456387_3_alg».proof.Proof.RefRun
import proofs.«429643_j30408368456387_3_alg».proof.Proof.RefTail
import proofs.«429643_j30408368456387_3_alg».proof.Proof.RefRbf
import proofs.«429643_j30408368456387_3_alg».proof.Proof.RefCbf

noncomputable section

namespace Cert.Proof.Claims

open Idealize.ShloMosaic Idealize.ShloMosaic.TcCoe Idealize.SL.Sem Idealize.ShloMosaic.StableHlo

/-- The kernel program's closing computation without the fill and the reference's are one function: the same
    operations over the same shapes, each program's own copy of the shape facts. -/
theorem tail_same (A : FVec Ideal Cert.KernelIdeal.S400000x42 .f32) (C : FVec Ideal Cert.KernelIdeal.S2000000x7 .f32)
    (idx : IVec Cert.KernelIdeal.S2000000 32) :
    Cert.KernelIdeal.ValueTail.tailPlain (F := Ideal) A C idx = Cert.ReferenceIdeal.HandRun.tailR (F := Ideal) A C idx := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote nothing in this kernel: there is no conjunct to state. -/
theorem preserves : Cert.preserves_Kernel_KernelIdeal := trivial

theorem algebraic : Cert.algebraic_KernelIdeal_ReferenceIdeal := by
  intro m ρ m' ρ' hpre hagree
  refine ⟨fun c => Cert.KernelIdeal.ValueTail.tailPlain (F := Ideal)
      (Cert.Sph.RBF (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (Cert.Sph.CBF (m ((c.tc : Thread Cert.KernelIdeal.nD Cert.KernelIdeal.τ).loc Cert.KernelIdeal.main_arg1)))
      (m ((c.tc : Thread Cert.KernelIdeal.nD Cert.KernelIdeal.τ).loc Cert.KernelIdeal.main_arg4)), ?_, ?_⟩
  · -- the kernel program: its run, the closing stretches, the two regions' arrays, the mask
    refine (θ_run Cert.KernelIdeal.defs _ _).mono (fun r h c => ⟨(h c).1.trans ?_, (h c).2⟩)
      (Cert.KernelIdeal.ValueRun.run_out (F := Ideal) m ρ)
    rw [Cert.KernelIdeal.ValueTail.W6_out, Cert.KernelIdeal.Value0.arr0, Cert.KernelIdeal.Value1.arr1]
    exact Cert.KernelIdeal.ValueTail.tailK_of_range _ _ _ (Cert.Proof.PreRange.range_of_pre m hpre c)
  · -- the reference: its run, its closing operations, its two tables, then the arguments' agreement
    refine (θ_run Cert.ReferenceIdeal.defs _ _).mono (fun r h c => ⟨(h c).1.trans ?_, (h c).2⟩)
      (Cert.ReferenceIdeal.HandRun.run (F := Ideal) m' ρ')
    rw [Cert.ReferenceIdeal.HandRun.out_eq, Cert.ReferenceIdeal.HandRbf.rbf_ref, Cert.ReferenceIdeal.HandCbf.cbf_ref]
    show Cert.ReferenceIdeal.HandRun.tailR (F := Ideal)
        (Cert.Sph.RBF (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)))
        (Cert.Sph.CBF (m' ((c.tc : Thread Cert.ReferenceIdeal.nD Cert.ReferenceIdeal.τ).loc Cert.ReferenceIdeal.main_arg1)))
        (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]
    exact (tail_same _ _ _).symm

end Cert.Proof.Claims

end
-- ==== Proof.lean ====
/-
  A spherical basis layer: the kernel program computes a radial table (envelope times normalised spherical Bessel
  functions of the scaled distance, [400000, 42]) and an angular table (normalised Legendre polynomials of the cosine of
  the angle, [2000000, 7]) in two kernel regions, gathers rows of the first by an index array and multiplies them by the
  second; the reference computes the same with host operations only. At the extended reals the two radial tables differ
  in how three products are grouped, the two angular tables in the order of one product, and multiplication there is
  commutative and associative; the closing gather and product are the same operations. The kernel program's gather fills
  a row whose index is out of range, the reference's does not: the precondition keeps every index in [-400000, 400000),
  the range in which the reference's own indexing is inside its table, and there the fill never happens.
  The ideal pass rewrote nothing, so `preserves` has nothing to state.
-/
import proofs.«429643_j30408368456387_3_alg».proof.Defs
import proofs.«429643_j30408368456387_3_alg».proof.Proof.Gen.Kernel
import proofs.«429643_j30408368456387_3_alg».proof.Proof.Gen.KernelIdeal
import proofs.«429643_j30408368456387_3_alg».proof.Proof.Gen.ReferenceIdeal
import proofs.«429643_j30408368456387_3_alg».proof.Proof.Gen.Pre_finite_inputs
import proofs.«429643_j30408368456387_3_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
